-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x1024x768 .f32) (main_arg1 : FVec F S2304x768 .f32) (main_arg2 : FVec F S768x768 .f32) (main_arg3 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩
abbrev S3x12x64x768 : Shape := ⟨4, ![3, 12, 64, 768]⟩
abbrev S12x3x64x768 : Shape := ⟨4, ![12, 3, 64, 768]⟩
abbrev S768x2304 : Shape := ⟨2, ![768, 2304]⟩
abbrev S8x1024x2304 : Shape := ⟨3, ![8, 1024, 2304]⟩
abbrev S1x256x768 : Shape := ⟨3, ![1, 256, 768]⟩
abbrev S1x256x2304 : Shape := ⟨3, ![1, 256, 2304]⟩
abbrev S256x768 : Shape := ⟨2, ![256, 768]⟩
abbrev S256x2304 : Shape := ⟨2, ![256, 2304]⟩
abbrev S8x1024x12x3x64 : Shape := ⟨5, ![8, 1024, 12, 3, 64]⟩
abbrev S1x768 : Shape := ⟨2, ![1, 768]⟩
abbrev S8x12x1024x1024 : Shape := ⟨4, ![8, 12, 1024, 1024]⟩
abbrev S1x1024x1x3x64 : Shape := ⟨5, ![1, 1024, 1, 3, 64]⟩
abbrev S64x768 : Shape := ⟨2, ![64, 768]⟩
abbrev S1x1024x768 : Shape := ⟨3, ![1, 1024, 768]⟩
abbrev S1x1x1024x1024 : Shape := ⟨4, ![1, 1, 1024, 1024]⟩
abbrev S1024x768 : Shape := ⟨2, ![1024, 768]⟩
abbrev S1024x3x64 : Shape := ⟨3, ![1024, 3, 64]⟩
abbrev S1024x1x64 : Shape := ⟨3, ![1024, 1, 64]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 23
  | .vmem => 15
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S_, .f32⟩
  | .hbm, ⟨6, _⟩ => ⟨S768x768, .f32⟩
  | .hbm, ⟨7, _⟩ => ⟨S768x768, .f32⟩
  | .hbm, ⟨8, _⟩ => ⟨S768x768, .f32⟩
  | .hbm, ⟨9, _⟩ => ⟨S768x768, .f32⟩
  | .hbm, ⟨10, _⟩ => ⟨S2304x768, .f32⟩
  | .hbm, ⟨11, _⟩ => ⟨S3x12x64x768, .f32⟩
  | .hbm, ⟨12, _⟩ => ⟨S12x3x64x768, .f32⟩
  | .hbm, ⟨13, _⟩ => ⟨S2304x768, .f32⟩
  | .hbm, ⟨14, _⟩ => ⟨S768x2304, .f32⟩
  | .hbm, ⟨15, _⟩ => ⟨S768x2304, .bf16⟩
  | .hbm, ⟨16, _⟩ => ⟨S8x1024x2304, .bf16⟩
  | .hbm, ⟨17, _⟩ => ⟨S8x1024x12x3x64, .bf16⟩
  | .hbm, ⟨18, _⟩ => ⟨S768x768, .f32⟩
  | .hbm, ⟨19, _⟩ => ⟨S768x768, .bf16⟩
  | .hbm, ⟨20, _⟩ => ⟨S1x768, .f32⟩
  | .hbm, ⟨21, _⟩ => ⟨S8x1024x768, .f32⟩
  | .hbm, ⟨22, _⟩ => ⟨S8x12x1024x1024, .f32⟩
  | .local _ .vmem, ⟨0, _⟩ => ⟨S1x256x768, .f32⟩
  | .local _ .vmem, ⟨1, _⟩ => ⟨S1x256x768, .f32⟩
  | .local _ .vmem, ⟨2, _⟩ => ⟨S768x2304, .bf16⟩
  | .local _ .vmem, ⟨3, _⟩ => ⟨S1x256x2304, .bf16⟩
  | .local _ .vmem, ⟨4, _⟩ => ⟨S1x256x2304, .bf16⟩
  | .local _ .vmem, ⟨5, _⟩ => ⟨S1x1024x1x3x64, .bf16⟩
  | .local _ .vmem, ⟨6, _⟩ => ⟨S1x1024x1x3x64, .bf16⟩
  | .local _ .vmem, ⟨7, _⟩ => ⟨S64x768, .bf16⟩
  | .local _ .vmem, ⟨8, _⟩ => ⟨S64x768, .bf16⟩
  | .local _ .vmem, ⟨9, _⟩ => ⟨S1x768, .f32⟩
  | .local _ .vmem, ⟨10, _⟩ => ⟨S1x1024x768, .f32⟩
  | .local _ .vmem, ⟨11, _⟩ => ⟨S1x1024x768, .f32⟩
  | .local _ .vmem, ⟨12, _⟩ => ⟨S1x1x1024x1024, .f32⟩
  | .local _ .vmem, ⟨13, _⟩ => ⟨S1x1x1024x1024, .f32⟩
  | .local _ .vmem, ⟨14, _⟩ => ⟨S1024x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 12], ![false, false]⟩

def k1_cond2 (i : grid1.Coords) : BitVec 1 :=
  let arg1 : BitVec 32 := BitVec.ofNat 32 (i 1).val
  let c11_i32 : BitVec 32 := 11#32
  let v36 : BitVec 1 := Scalar.cmpi .eq arg1 c11_i32
  let v37 : BitVec 32 := Scalar.extui v36
  let c0_i32_19 : BitVec 32 := 0#32
  let v38 : BitVec 1 := Scalar.cmpi .ne v37 c0_i32_19
  v38

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1024x1x3x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  slices_S2304x768_S768x768_0_0 : S2304x768.Slices ![0, 0] S768x768
  bcast_S_S768x768 : S_.BroadcastsInDim S768x768 (![] : Fin 0 → Fin S768x768.rank)
  slices_S2304x768_S768x768_768_0 : S2304x768.Slices ![768, 0] S768x768
  slices_S2304x768_S768x768_1536_0 : S2304x768.Slices ![1536, 0] S768x768
  concatenates_S768x768_S768x768_S768x768_S2304x768_d0 : Shape.Concatenates [S768x768, S768x768, S768x768] S2304x768 0
  shapeCasts_S2304x768_S3x12x64x768 : S2304x768.ShapeCasts S3x12x64x768
  transposes_S3x12x64x768_S12x3x64x768_1_0_2_3 : S3x12x64x768.Transposes [1, 0, 2, 3] S12x3x64x768
  shapeCasts_S12x3x64x768_S2304x768 : S12x3x64x768.ShapeCasts S2304x768
  transposes_S2304x768_S768x2304_1_0 : S2304x768.Transposes [1, 0] S768x2304
  bitsLt_bf16_f32 : FTy.bits .bf16 < FTy.bits .f32
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x256x2304_S1x256x2304_0_0_0 : ∀ a, (![0, 0, 0] : Fin 3 → Nat) a + S1x256x2304.size a ≤ S1x256x2304.size a
  h_S1x256x2304 : 0 < S1x256x2304.numel
  shapeCasts_S1x256x2304_S256x2304 : S1x256x2304.ShapeCasts S256x2304
  shapeCasts_S256x2304_S1x256x2304 : S256x2304.ShapeCasts S1x256x2304
  packedbf16_S1x256x2304_S1x256x2304_0_0_0 : (Rect.unit (s := S1x256x2304) ![0, 0, 0] S1x256x2304.size inb_S1x256x2304_S1x256x2304_0_0_0).PackedRows (EltTy.packing .bf16)
  shapeCasts_S8x1024x2304_S8x1024x12x3x64 : S8x1024x2304.ShapeCasts S8x1024x12x3x64
  transposes_S768x768_S768x768_1_0 : S768x768.Transposes [1, 0] S768x768
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x1024x1x3x64_S1x1024x1x3x64_0_0_0_0_0 : ∀ a, (![0, 0, 0, 0, 0] : Fin 5 → Nat) a + S1x1024x1x3x64.size a ≤ S1x1024x1x3x64.size a
  h_S1x1024x1x3x64 : 0 < S1x1024x1x3x64.numel
  shapeCasts_S1x1024x1x3x64_S1024x3x64 : S1x1024x1x3x64.ShapeCasts S1024x3x64
  slices_S1024x3x64_o0_0_0_S1024x1x64 : S1024x3x64.Slices ![0, 0, 0] S1024x1x64
  shapeCasts_S1024x1x64_S1024x64 : S1024x1x64.ShapeCasts S1024x64
  slices_S1024x3x64_o0_1_0_S1024x1x64 : S1024x3x64.Slices ![0, 1, 0] S1024x1x64
  slices_S1024x3x64_o0_2_0_S1024x1x64 : S1024x3x64.Slices ![0, 2, 0] S1024x1x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S1x1024x768 : S1024x768.ShapeCasts S1x1024x768
  dot_S256x768_S768x2304_S256x2304_1_0_0_1_n_n_wf : DotDims.WF S256x768 S768x2304 S256x2304 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S1024x64_S64x768_S1024x768_1_0_0_1_n_n_wf : DotDims.WF S1024x64 S64x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S8x1024x768.size a
  hwx0_0 : ∀ i : grid0.Coords, EltTy.bits .f32 = 32 ∨ (Rect.block (s := S8x1024x768) S1x256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2304.size a ≤ S8x1024x2304.size a
  hwx0_2 : ∀ i : grid0.Coords, EltTy.bits .bf16 = 32 ∨ (Rect.block (s := S8x1024x2304) S1x256x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1x3x64.size a ≤ S8x1024x12x3x64.size a
  hwx1_0 : ∀ i : grid1.Coords, EltTy.bits .bf16 = 32 ∨ (Rect.block (s := S8x1024x12x3x64) S1x1024x1x3x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x768.size a ≤ S768x768.size a
  hwx1_1 : ∀ i : grid1.Coords, EltTy.bits .bf16 = 32 ∨ (Rect.block (s := S768x768) S64x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x768.size a ≤ S8x1024x768.size a
  hwx1_3 : ∀ i : grid1.Coords, EltTy.bits .f32 = 32 ∨ (Rect.block (s := S8x1024x768) S1x1024x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024x1024.size a ≤ S8x12x1024x1024.size a
  hwx1_4 : ∀ i : grid1.Coords, EltTy.bits .f32 = 32 ∨ (Rect.block (s := S8x12x1024x1024) S1x1x1024x1024.size (cc1_transform_4 i) (hinb1_4 i)).WholeWords (EltTy.packing .f32)

variable [Facts₀]

def dot_S256x768_S768x2304_S256x2304_1_0_0_1_n_n : DotDims S256x768 S768x2304 S256x2304 where
  lhsContracting := [1]
  rhsContracting := [0]
  lhsNonContracting := [0]
  rhsNonContracting := [1]
  lhsBatch := []
  rhsBatch := []
  wf := dot_S256x768_S768x2304_S256x2304_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x768_S1024x768_1_0_0_1_n_n : DotDims S1024x64 S64x768 S1024x768 where
  lhsContracting := [1]
  rhsContracting := [0]
  lhsNonContracting := [0]
  rhsNonContracting := [1]
  lhsBatch := []
  rhsBatch := []
  wf := dot_S1024x64_S64x768_S1024x768_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1x1024x1x3x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S64x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S1x1024x768.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S1x1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun _ => false | ⟨_ + 5, h⟩ => absurd h (Nat.not_lt.2 (Nat.le_add_left _ _))

class Facts : Prop extends Facts₀ where

variable [Facts]
-- ==== ReferenceIdeal.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S_ : Shape := ⟨0, ![]⟩
abbrev S8x12x1024x1024 : Shape := ⟨4, ![8, 12, 1024, 1024]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x1024x2304, .f32⟩
  | .hbm, ⟨5, _⟩ => ⟨S8x1024x3x12x64, .f32⟩
  | .hbm, ⟨6, _⟩ => ⟨S3x8x12x1024x64, .f32⟩
  | .hbm, ⟨7, _⟩ => ⟨S1x8x12x1024x64, .f32⟩
  | .hbm, ⟨8, _⟩ => ⟨S8x12x1024x64, .f32⟩
  | .hbm, ⟨9, _⟩ => ⟨S_, .f32⟩
  | .hbm, ⟨10, _⟩ => ⟨S8x12x1024x64, .f32⟩
  | .hbm, ⟨11, _⟩ => ⟨S8x12x1024x64, .f32⟩
  | .hbm, ⟨12, _⟩ => ⟨S1x8x12x1024x64, .f32⟩
  | .hbm, ⟨13, _⟩ => ⟨S8x12x1024x64, .f32⟩
  | .hbm, ⟨14, _⟩ => ⟨S1x8x12x1024x64, .f32⟩
  | .hbm, ⟨15, _⟩ => ⟨S8x12x1024x64, .f32⟩
  | .hbm, ⟨16, _⟩ => ⟨S8x12x1024x1024, .f32⟩
  | .hbm, ⟨17, _⟩ => ⟨S_, .f32⟩
  | .hbm, ⟨18, _⟩ => ⟨S8x12x1024, .f32⟩
  | .hbm, ⟨19, _⟩ => ⟨S_, .f32⟩
  | .hbm, ⟨20, _⟩ => ⟨S8x12x1024, .f32⟩
  | .hbm, ⟨21, _⟩ => ⟨S8x12x1024, .f32⟩
  | .hbm, ⟨22, _⟩ => ⟨S8x12x1024x1, .f32⟩
  | .hbm, ⟨23, _⟩ => ⟨S8x12x1024x1024, .f32⟩
  | .hbm, ⟨24, _⟩ => ⟨S8x12x1024x1024, .f32⟩
  | .hbm, ⟨25, _⟩ => ⟨S8x12x1024x1024, .f32⟩
  | .hbm, ⟨26, _⟩ => ⟨S_, .f32⟩
  | .hbm, ⟨27, _⟩ => ⟨S8x12x1024, .f32⟩
  | .hbm, ⟨28, _⟩ => ⟨S8x12x1024x1, .f32⟩
  | .hbm, ⟨29, _⟩ => ⟨S8x12x1024x1024, .f32⟩
  | .hbm, ⟨30, _⟩ => ⟨S8x12x1024x1024, .f32⟩
  | .hbm, ⟨31, _⟩ => ⟨S8x12x1024x64, .f32⟩
  | .hbm, ⟨32, _⟩ => ⟨S8x1024x12x64, .f32⟩
  | .hbm, ⟨33, _⟩ => ⟨S8x1024x768, .f32⟩
  | .hbm, ⟨34, _⟩ => ⟨S8x1024x768, .f32⟩
  | .hbm, ⟨35, _⟩ => ⟨S1x1x768, .f32⟩
  | .hbm, ⟨36, _⟩ => ⟨S8x1024x768, .f32⟩
  | .hbm, ⟨37, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  bcast_S_S8x12x1024x64 : S_.BroadcastsInDim S8x12x1024x64 (![] : Fin 0 → Fin S8x12x1024x64.rank)
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.Kernel.Region0.lean ====
/-
  The projection call (the first of the two), at the buffer contents `V` it is entered from.

  Each grid point (b, i) of the 8 × 4 grid loads a 256-row block of activations (256 × 768) and the whole permuted weight
  (768 × 2304, fetched once and kept), multiplies them into a zero accumulator and stores the 256 × 2304 product over the
  whole output block. So after the body the output's staging buffer holds that one stored value, and the input buffers
  hold their blocks as before. This file states that as the body's triple, packages it as the pipeline's proof data
  (what every window's buffer holds after every point) and derives the per-point obligation the launch theorem asks for.
-/
import proofs.«430483_j63471026700747_3_alg».proof.Proof.Gen.Kernel.Launch
import proofs.«430483_j63471026700747_3_alg».proof.Proof.Gen.Kernel.Skeleton
import proofs.«430483_j63471026700747_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, whether it was fetched at this point or an earlier one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: it is fetched once and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX : Rect S1x256x768 := Rect.unit (s := S1x256x768) ![0, 0, 0] S1x256x768.size inb_S1x256x768_S1x256x768_0_0_0
abbrev rW : Rect S768x2304 := Rect.unit (s := S768x2304) ![0, 0] S768x2304.size inb_S768x2304_S768x2304_0_0
abbrev rO : Rect S1x256x2304 := Rect.unit (s := S1x256x2304) ![0, 0, 0] S1x256x2304.size inb_S1x256x2304_S1x256x2304_0_0_0

/-- What the body leaves in the output's staging buffer: its one store, of the product of the two loaded blocks. -/
def out0_2 (x0 : Vec F S1x256x768 .f32) (x1 : Vec F S768x2304 .bf16) : Vec F S1x256x2304 .bf16 :=
  View.canon [⟨rO, k0_pay1 (View.ld x0 rX) (View.ld x1 rW)⟩]

/-- The one store covers the buffer. -/
theorem cover0_2 (p0 : Vec F S1x256x2304 .bf16) (y : S1x256x2304.Idx) :
    ∃ pc ∈ ([⟨rO, p0⟩] : List (View.Piece (Elt F) S1x256x2304 .bf16)), y ∈ pc.1.set :=
  View.cover_of_tiled [⟨rO, p0⟩] S1x256x2304.size (by rfl) y

/-! ## The body's triple -/

set_option maxHeartbeats 1000000 in
/-- On whole staging buffers — the inputs' at contents `x0`, `x1`, the output's at anything — the body runs to the end
    with the inputs' as they were and the output's at `out0_2 x0 x1`. -/
theorem sound_kernel0 (c : Dev nD) (E : Set ℕ) (i : grid0.Coords) (arg2 : Memref sig .tc .vmem S1x256x768 .f32) (harg2 : arg2.IsWhole)
    (arg3 : Memref sig .tc .vmem S768x2304 .bf16) (harg3 : arg3.IsWhole) (arg4 : Memref sig .tc .vmem S1x256x2304 .bf16) (harg4 : arg4.IsWhole)
    (x0 : Vec F S1x256x768 .f32) (x1 : Vec F S768x2304 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__qkv_proj_kernel i arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- Arrays as the call finds them; after the body at point `t` each input's buffer at its block and the output's at the
    stored product; nothing else is kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
/-
  The attention call (the second of the two), at the buffer contents `V` it is entered from.

  Grid point (b, h) of the 8 × 12 grid handles batch b and head h. It loads that head's query, key and value
  (1024 × 3 × 64), forms the 1024 × 1024 scores, takes a row-wise softmax and stores it over the whole attention-weights
  block; multiplies the weights with the values and with the head's 64 rows of the transposed output weight, and ADDS the
  1024 × 768 product to an accumulator kept in a scratch buffer across the twelve heads of a batch: the accumulator is
  set to zero at head 0, and at head 11 the accumulator plus the bias is stored over the whole output block, which is
  written back only then (at the other eleven heads the output's buffer is left alone).

  This file says what every buffer holds after every point — the accumulator by recursion on the point —, packages it as
  the pipeline's proof data with the accumulator carried in the invariant, and derives the per-point obligation.
-/
import proofs.«430483_j63471026700747_3_alg».proof.Proof.Gen.Kernel.Launch
import proofs.«430483_j63471026700747_3_alg».proof.Proof.Gen.Kernel.Skeleton
import proofs.«430483_j63471026700747_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator -/

/-- The scratch buffer the accumulator lives in. -/
abbrev scM : Memref sig .tc .vmem S1024x768 .f32 := Memref.whole cc1_scratch0

/-- What the scratch holds after the body at point `n`: at a batch's first head, zero plus the head's product; at a
    later head, what the point before left plus the head's product. -/
def accAfter (c : Dev nD) : (n : ℕ) → n < cfg1.N → Vec F S1024x768 .f32
  | 0, hn => k1_pay1 (k1_pay7 (iblk1 V c 0 ⟨0, hn⟩) (k1_pay3 (F := F)) (iblk1 V c 1 ⟨0, hn⟩))
  | n + 1, hn =>
    if (n + 1) % 12 = 0 then
      k1_pay1 (k1_pay7 (iblk1 V c 0 ⟨n + 1, hn⟩) (k1_pay3 (F := F)) (iblk1 V c 1 ⟨n + 1, hn⟩))
    else
      k1_pay1 (k1_pay7 (iblk1 V c 0 ⟨n + 1, hn⟩) (accAfter c n (Nat.lt_of_succ_lt hn)) (iblk1 V c 1 ⟨n + 1, hn⟩))

/-- At a batch's first head the accumulator restarts from zero. -/
theorem accAfter_first (c : Dev nD) (t : Fin cfg1.N) (h : t.val % 12 = 0) :
    accAfter V c t.val t.isLt = k1_pay1 (k1_pay7 (iblk1 V c 0 t) (k1_pay3 (F := F)) (iblk1 V c 1 t)) := by
  obtain ⟨n, hn⟩ := t
  cases n with
  | zero => rfl
  | succ n => exact (if_pos h).trans rfl

/-- At a later head it continues from what the point before left. -/
theorem accAfter_next (c : Dev nD) (t : Fin cfg1.N) (h : ¬t.val % 12 = 0) :
    accAfter V c t.val t.isLt
      = k1_pay1 (k1_pay7 (iblk1 V c 0 t) (accAfter V c (t.val - 1) (Nat.lt_of_le_of_lt (Nat.sub_le _ _) t.isLt)) (iblk1 V c 1 t)) := by
  obtain ⟨n, hn⟩ := t
  cases n with
  | zero => exact absurd (Nat.zero_mod _) h
  | succ n => exact (if_neg h).trans rfl

/-! ## The invariant between points -/

/-- The core's scoped buffers that belong to the other call, each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Before the first point: every scoped buffer outside the call's staging at some contents and the generator register at
    some state. Before point `n + 1`: the same with the scratch at what point `n` left in it. -/
def PhiS (c : Dev nD) : (n : ℕ) → n ≤ cfg1.N → sProp 𝕄
  | 0, _ => Pipeline.ΦA spec1 c
  | n + 1, hn => iprop(iprop(otherScoped (F := F) c ∗ owns (c : Thread nD τ) scM fullShare (accAfter V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(otherScoped (F := F) c ∗ owns (c : Thread nD τ) scM fullShare (accAfter V c n hn)) ∗ (∃ r, prngReg c r)) := rfl

theorem PhiS_pos (c : Dev nD) (n : ℕ) (h : n ≤ cfg1.N) (hz : n ≠ 0) :
    PhiS V c n h = iprop(iprop(otherScoped (F := F) c ∗ owns (c : Thread nD τ) scM fullShare (accAfter V c (n - 1) (by omega))) ∗ (∃ r, prngReg c r)) := by
  cases n with
  | zero => exact absurd rfl hz
  | succ n => rfl

/-! ## The proof data -/

/-- Arrays as the call finds them; after the body at point `t` each input's buffer at its block, the attention weights'
    at the softmax of the point's scores, the output's at accumulator plus bias (consulted only at a batch's last head,
    the only points that write it back); the accumulator carried in the invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay2 (accAfter V c t.val t.isLt) (iblk1 V c 2 t)
    | ⟨4, _⟩ => k1_pay6 (iblk1 V c 0 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay2 (accAfter V c t.val t.isLt) (iblk1 V c 2 t) := by dsimp only [dat1]
theorem after1_4 (c : Dev nD) (t : Fin cfg1.N) : (dat1 V c).after 4 t = k1_pay6 (iblk1 V c 0 t) := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

/-! ## The two conditions on the head coordinate -/

/-- The body's first conditional, which sets the accumulator to zero, as the kernel computes it from the grid
    coordinates: taken at head 0. -/
abbrev cond1_0 (i : grid1.Coords) : Prop := (Scalar.cmpi .ne (Scalar.extui (Scalar.cmpi .eq (BitVec.ofNat 32 (i 1).val) 0#32)) 0#32) = 1#1
/-- Head 0 is the points ≡ 0 (mod 12). -/
theorem hcond1_0 : ∀ t : Fin cfg1.N, cond1_0 (grid1.coords t) ↔ t.val % 12 = 0 :=
  (by decide +kernel : ∀ t : Fin grid1.N, cond1_0 (grid1.coords t) ↔ t.val % 12 = 0)

/-- The body's second conditional, which stores the output block: taken at head 11. -/
abbrev cond1_1 (i : grid1.Coords) : Prop := k1_cond2 i = 1#1
/-- Head 11 is the points ≡ 11 (mod 12). -/
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the output's buffer is left alone -/

/-- Away from head 11 the body stores nothing into the output's buffer: the window is idle there, -/
theorem idleAt1_3 : ∀ t : Fin cfg1.N, ¬cond1_1 (grid1.coords t) → cfg1.idle 3 (grid1.coords t) = true := by decide +kernel
/-- and the block is not written back there; -/
theorem noFlush1_3 : ∀ t : Fin cfg1.N, ¬cond1_1 (grid1.coords t) → (cfg1.win 3).flush t = false := by decide +kernel
/-- at head 11 it is live. -/
theorem liveAt1_3 : ∀ t : Fin cfg1.N, cond1_1 (grid1.coords t) → cfg1.idle 3 (grid1.coords t) = false := by decide +kernel

/-! ## Whole-buffer rectangles: zero offsets, however many axes -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- A store through the whole-buffer rectangle, made last, covers the buffer. -/
theorem cover_unit {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ pc ∈ ((⟨Rect.unit off S.size inb, w⟩ : View.Piece Val S e) :: L), y ∈ pc.1.set :=
  ⟨_, List.mem_cons_self, View.mem_set_unit_zero h inb y⟩

/-! ## The body's triple, head by head

Every access of the body is of a whole buffer, so each buffer ends at the payload of the last store into it, and a load
after a store reads that payload. On whole buffers — query/key/value at `x0`, the weight rows at `x1`, the bias at `x2` —
the body leaves the inputs as they were, the attention weights at the softmax `k1_pay6 x0`, and the accumulator at
what it held (zero after the reset of head 0) plus the head's product. -/

set_option maxHeartbeats 1000000 in
/-- Head 0: the accumulator, whatever it held, is reset; the output's buffer is handed back untouched. -/
theorem run1_A (c : Dev nD) (E : Set ℕ) (i : grid1.Coords)
    (arg2 : Memref sig .tc .vmem S1x1024x1x3x64 .bf16) (harg2 : arg2.IsWhole) (arg3 : Memref sig .tc .vmem S64x768 .bf16) (harg3 : arg3.IsWhole)
    (arg4 : Memref sig .tc .vmem S1x768 .f32) (harg4 : arg4.IsWhole) (arg5 : Memref sig .tc .vmem S1x1024x768 .f32) (harg5 : arg5.IsWhole)
    (arg6 : Memref sig .tc .vmem S1x1x1024x1024 .f32) (harg6 : arg6.IsWhole) (arg7 : Memref sig .tc .vmem S1024x768 .f32) (harg7 : arg7.IsWhole)
    (hc0 : cond1_0 i) (hc1 : ¬cond1_1 i)
    (x0 : Vec F S1x1024x1x3x64 .bf16) (x1 : Vec F S64x768 .bf16) (x2 : Vec F S1x768 .f32) (xi : Vec F S1x1024x768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay6 x0)
            ∗ owns (c : Thread nD τ) arg7 fullShare (k1_pay1 (k1_pay7 x0 (k1_pay3 (F := F)) x1))) -∗ K ⟨⟩))
      ⊢ wp frame (wpE (defs₀ (F := F)) Variants.none c none) E (cc1__attn_outproj_kernel i arg2 harg2 arg3 harg3 arg4 harg4 arg5 harg5 arg6 harg6 arg7 harg7) K := by
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover_unit hz4 _ _ _), View.canon_unit_zero hz4, View.readAt_eq_ld,
      View.ld_unit_zero (S := S1x1024x1x3x64) hz5]
  iexists _; isplitr
  swap; · iexact HS
  ipureintro
  sl_unfold_words
  rw [View.read_writes_eq_canon _ _ _ (cover_unit hz2 _ _ _), View.canon_cons_unit_zero hz2,
    View.readCov_unit_zero (S := S1024x768) _ hz2]
  simp only [View.readAt_eq_ld, View.ld_unit_zero (S := S1x1024x1x3x64) hz5, View.ld_unit_zero (S := S1024x768) hz2, View.ld_unit_zero (S := S64x768) hz2, View.ld_unit_zero (S := S1x768) hz2]

set_option maxHeartbeats 1000000 in
/-- Heads 1 to 10: the accumulator continues from `xs`; the output's buffer is handed back untouched. -/
theorem run1_B (c : Dev nD) (E : Set ℕ) (i : grid1.Coords)
    (arg2 : Memref sig .tc .vmem S1x1024x1x3x64 .bf16) (harg2 : arg2.IsWhole) (arg3 : Memref sig .tc .vmem S64x768 .bf16) (harg3 : arg3.IsWhole)
    (arg4 : Memref sig .tc .vmem S1x768 .f32) (harg4 : arg4.IsWhole) (arg5 : Memref sig .tc .vmem S1x1024x768 .f32) (harg5 : arg5.IsWhole)
    (arg6 : Memref sig .tc .vmem S1x1x1024x1024 .f32) (harg6 : arg6.IsWhole) (arg7 : Memref sig .tc .vmem S1024x768 .f32) (harg7 : arg7.IsWhole)
    (hc0 : ¬cond1_0 i) (hc1 : ¬cond1_1 i)
    (x0 : Vec F S1x1024x1x3x64 .bf16) (x1 : Vec F S64x768 .bf16) (x2 : Vec F S1x768 .f32) (xi : Vec F S1x1024x768 .f32) (xs : Vec F S1024x768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay6 x0)
            ∗ owns (c : Thread nD τ) arg7 fullShare (k1_pay1 (k1_pay7 x0 xs x1))) -∗ K ⟨⟩))
      ⊢ wp frame (wpE (defs₀ (F := F)) Variants.none c none) E (cc1__attn_outproj_kernel i arg2 harg2 arg3 harg3 arg4 harg4 arg5 harg5 arg6 harg6 arg7 harg7) K := by
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_unit hz4 _ _ _),
      View.canon_unit_zero hz4, View.readAt_eq_ld, View.ld_unit_zero (S := S1x1024x1x3x64) hz5]
  iexists _; isplitr
  swap; · iexact HS
  ipureintro
  sl_unfold_words
  rw [View.read_writes_eq_canon _ _ _ (cover_unit hz2 _ _ _),
    View.canon_unit_zero hz2]
  simp only [View.readAt_eq_ld, View.ld_unit_zero (S := S1x1024x1x3x64) hz5, View.ld_unit_zero (S := S1024x768) hz2, View.ld_unit_zero (S := S64x768) hz2]

set_option maxHeartbeats 1000000 in
/-- Head 11: the accumulator continues from `xs`, and the output's buffer, whatever it held, ends at the new accumulator
    plus the bias. -/
theorem run1_C (c : Dev nD) (E : Set ℕ) (i : grid1.Coords)
    (arg2 : Memref sig .tc .vmem S1x1024x1x3x64 .bf16) (harg2 : arg2.IsWhole) (arg3 : Memref sig .tc .vmem S64x768 .bf16) (harg3 : arg3.IsWhole)
    (arg4 : Memref sig .tc .vmem S1x768 .f32) (harg4 : arg4.IsWhole) (arg5 : Memref sig .tc .vmem S1x1024x768 .f32) (harg5 : arg5.IsWhole)
    (arg6 : Memref sig .tc .vmem S1x1x1024x1024 .f32) (harg6 : arg6.IsWhole) (arg7 : Memref sig .tc .vmem S1024x768 .f32) (harg7 : arg7.IsWhole)
    (hc0 : ¬cond1_0 i) (hc1 : cond1_1 i)
    (x0 : Vec F S1x1024x1x3x64 .bf16) (x1 : Vec F S64x768 .bf16) (x2 : Vec F S1x768 .f32) (xs : Vec F S1024x768 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 (k1_pay1 (k1_pay7 x0 xs x1)) x2) ∗ owns (c : Thread nD τ) arg6 fullShare (k1_pay6 x0)
            ∗ owns (c : Thread nD τ) arg7 fullShare (k1_pay1 (k1_pay7 x0 xs x1))) -∗ K ⟨⟩))
      ⊢ wp frame (wpE (defs₀ (F := F)) Variants.none c none) E (cc1__attn_outproj_kernel i arg2 harg2 arg3 harg3 arg4 harg4 arg5 harg5 arg6 harg6 arg7 harg7) K := by
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover_unit hz3 _ _ _), View.canon_unit_zero hz3,
      View.readCov_unit_zero (S := S1024x768) _ hz2]
    simp only [View.readAt_eq_ld, View.ld_unit_zero (S := S1x1024x1x3x64) hz5, View.ld_unit_zero (S := S1024x768) hz2, View.ld_unit_zero (S := S64x768) hz2, View.ld_unit_zero (S := S1x768) hz2]
  isplitl [H4]
  · iexists _; isplitr
    swap; · iexact H4
    ipureintro
    sl_unfold_words
    rw [View.read_writes_eq_canon _ _ _ (cover_unit hz4 _ _ _), View.canon_unit_zero hz4, View.readAt_eq_ld,
      View.ld_unit_zero (S := S1x1024x1x3x64) hz5]
  iexists _; isplitr
  swap; · iexact HS
  ipureintro
  sl_unfold_words
  rw [View.read_writes_eq_canon _ _ _ (cover_unit hz2 _ _ _), View.canon_unit_zero hz2]
  simp only [View.readAt_eq_ld, View.ld_unit_zero (S := S1x1024x1x3x64) hz5, View.ld_unit_zero (S := S1024x768) hz2, View.ld_unit_zero (S := S64x768) hz2, View.ld_unit_zero (S := S1x768) hz2]

/-! ## What the body finds in the inputs' buffers -/

/-- The query/key/value buffer holds the point's block, fetched at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- The weight-rows buffer holds the head's 64 rows, fetched at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- The bias buffer holds the whole bias at every point: it is fetched once and its block never moves. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The launch's invariant, with the scratch as an owned buffer -/

/-- What the launch hands the call, regrouped: the other call's buffers, the scratch at some contents, the generator. -/
theorem PhiA1_elim (c : Dev nD) :
    (Pipeline.ΦA spec1 c : sProp 𝕄)
      ⊢ iprop(iprop(otherScoped (F := F) c ∗ (∃ d, owns (c : Thread nD τ) scM fullShare d)) ∗ (∃ r, prngReg c r)) := by
  unfold Pipeline.ΦA otherScoped; rw [scopedRest1_eq]; simp only [scM, owns_whole]
  iintro ⟨⟨HA, HB, HC, HD, HE, ⟨%f, HS⟩⟩, Hg⟩
  isplitr [Hg]
  swap; · iexact Hg
  isplitr [HS]
  · isplitl [HA]; · iexact HA
    isplitl [HB]; · iexact HB
    isplitl [HC]; · iexact HC
    isplitl [HD]; · iexact HD
    iexact HE
  iexists f; iexact HS

/-- And back. -/
theorem PhiA1_intro (c : Dev nD) :
    iprop(iprop(otherScoped (F := F) c ∗ (∃ d, owns (c : Thread nD τ) scM fullShare d)) ∗ (∃ r, prngReg c r))
      ⊢ (Pipeline.ΦA spec1 c : sProp 𝕄) := by
  unfold Pipeline.ΦA otherScoped; rw [scopedRest1_eq]; simp only [scM, owns_whole]
  iintro ⟨⟨⟨HA, HB, HC, HD, HE⟩, ⟨%d, HS⟩⟩, Hg⟩
  isplitr [Hg]
  swap; · iexact Hg
  isplitl [HA]; · iexact HA
  isplitl [HB]; · iexact HB
  isplitl [HC]; · iexact HC
  isplitl [HD]; · iexact HD
  isplitl [HE]; · iexact HE
  iexists d; iexact HS

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the output's buffer as the window's idleness at the point says. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t
    ∗ owns (c : Thread nD τ) (st1_4 t) fullShare ((dat1 V c).after 4 t))

set_option maxHeartbeats 4000000 in
/-- The body at any point. The inputs' buffers hold their blocks; the head coordinate says which of the three triples
    applies; the invariant hands the body the scratch at what the point before left (at anything before the first
    point) and takes it back at this point's accumulator, which at head 0 restarts from zero and otherwise continues. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_4, PhiS_castSucc V c t]
  have hN : t.val < 96 := lt_of_lt_of_eq t.isLt (show cfg1.N = 96 from N_1)
  by_cases h0 : t.val % 12 = 0
  · have h1 : ¬t.val % 12 = 11 := by omega
    rw [Dat.leavesExact_idle (dat1 V c) 3 t (idleAt1_3 t (fun h => h1 ((hcond1_1 t).mp h))) (noFlush1_3 t (fun h => h1 ((hcond1_1 t).mp h)))]
    rw [accAfter_first V c t h0]
    by_cases hz : t.val = 0
    · rw [PhiS_zero V c _ _ hz]
      iintro ⟨HΦ, Ho, ⟨%d0, H0⟩, ⟨%d1, H1⟩, ⟨%d2, H2⟩, ⟨%d3, H3⟩, ⟨%d4, H4⟩⟩
      icases (PhiA1_elim c) $$ HΦ with ⟨⟨Hoth, HS⟩, Hg⟩
      iapply (run1_A c Set.univ (grid1.coords t) _ _ _ _ _ _ _ _ _ _ _ _ ((hcond1_0 t).mpr h0) (fun h => h1 ((hcond1_1 t).mp h))
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hoth HS Hg]
      · isplitr [Hg]
        swap; · iexact Hg
        isplitl [Hoth]; · iexact Hoth
        iexact HS
      isplitl [Ho]; · iexact Ho
      isplitl [H0]; · iexact H0
      isplitl [H1]; · iexact H1
      isplitl [H2]; · iexact H2
      isplitl [H3]; · iexists _; iexact H3
      iexact H4
    · rw [PhiS_pos V c _ _ hz]
      iintro ⟨⟨⟨Hoth, HS⟩, Hg⟩, Ho, ⟨%d0, H0⟩, ⟨%d1, H1⟩, ⟨%d2, H2⟩, ⟨%d3, H3⟩, ⟨%d4, H4⟩⟩
      iapply (run1_A c Set.univ (grid1.coords t) _ _ _ _ _ _ _ _ _ _ _ _ ((hcond1_0 t).mpr h0) (fun h => h1 ((hcond1_1 t).mp h))
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [Hoth HS Hg]
      · isplitr [Hg]
        swap; · iexact Hg
        isplitl [Hoth]; · iexact Hoth
        iexact HS
      isplitl [Ho]; · iexact Ho
      isplitl [H0]; · iexact H0
      isplitl [H1]; · iexact H1
      isplitl [H2]; · iexact H2
      isplitl [H3]; · iexists _; iexact H3
      iexact H4
  · have hz : t.val ≠ 0 := fun e => h0 (by rw [e])
    rw [PhiS_pos V c _ _ hz, accAfter_next V c t h0]
    by_cases h1 : t.val % 12 = 11
    · rw [show (dat1 V c).leavesExact 3 t = owns (c : Thread nD τ) (st1_3 t) fullShare ((dat1 V c).after 3 t) from by
        unfold Dat.leavesExact; rw [liveAt1_3 t ((hcond1_1 t).mpr h1)], after1_3, accAfter_next V c t h0]
      iintro ⟨⟨⟨Hoth, HS⟩, Hg⟩, Ho, ⟨%d0, H0⟩, ⟨%d1, H1⟩, ⟨%d2, H2⟩, ⟨%d3, H3⟩, ⟨%d4, H4⟩⟩
      iapply (run1_C c Set.univ (grid1.coords t) _ _ _ _ _ _ _ _ _ _ _ _ (fun h => h0 ((hcond1_0 t).mp h)) ((hcond1_1 t).mpr h1)
        (iblk1 V c 0 t) (iblk1 V c 1 t) (iblk1 V c 2 t) (accAfter V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [Hoth HS Hg]
      · isplitr [Hg]
        swap; · iexact Hg
        isplitl [Hoth]; · iexact Hoth
        iexact HS
      isplitl [Ho]; · iexact Ho
      isplitl [H0]; · iexact H0
      isplitl [H1]; · iexact H1
      isplitl [H2]; · iexact H2
      isplitl [H3]; · iexact H3
      iexact H4
    · rw [Dat.leavesExact_idle (dat1 V c) 3 t (idleAt1_3 t (fun h => h1 ((hcond1_1 t).mp h))) (noFlush1_3 t (fun h => h1 ((hcond1_1 t).mp h)))]
      iintro ⟨⟨⟨Hoth, HS⟩, Hg⟩, Ho, ⟨%d0, H0⟩, ⟨%d1, H1⟩, ⟨%d2, H2⟩, ⟨%d3, H3⟩, ⟨%d4, H4⟩⟩
      iapply (run1_B c Set.univ (grid1.coords t) _ _ _ _ _ _ _ _ _ _ _ _ (fun h => h0 ((hcond1_0 t).mp h)) (fun h => h1 ((hcond1_1 t).mp h))
        (iblk1 V c 0 t) (iblk1 V c 1 t) (iblk1 V c 2 t) ((dat1 V c).before 3 t d3) (accAfter V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hoth HS Hg]
      · isplitr [Hg]
        swap; · iexact Hg
        isplitl [Hoth]; · iexact Hoth
        iexact HS
      isplitl [Ho]; · iexact Ho
      isplitl [H0]; · iexact H0
      isplitl [H1]; · iexact H1
      isplitl [H2]; · iexact H2
      isplitl [H3]; · iexists _; iexact H3
      iexact H4

/-! ## The body obligation, and the invariant at the call's two ends -/

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 96 := N_1; omega)]
  iintro ⟨⟨Hoth, HS⟩, Hg⟩
  iapply (PhiA1_intro c)
  isplitr [Hg]
  swap; · iexact Hg
  isplitl [Hoth]; · iexact Hoth
  iexists _; iexact HS

end Cert.Kernel.Hand

end
-- ==== Proof.Kernel.Run.lean ====
/-
  The run of the whole program: a stretch of host operations (the projection weight is scaled, regrouped by head,
  transposed and rounded), the projection call, a second stretch (the projection is regrouped by head, the output weight
  transposed and rounded, the bias reshaped), the attention call.

  The buffer contents at each of the five boundaries are a fold from the launch memory: a host stretch replaces them by
  what its operations compute, a call replaces its windows' arrays by what its write-backs leave and keeps every other
  buffer. Each stretch and each call is one segment of the several-region launch theorem, over the thread state "every
  unscoped buffer at the boundary's contents, the generator register at some state, nothing owed"; the theorem then says
  that every weakly fair execution terminates with every unscoped buffer at the last boundary's contents. Read at the
  four argument arrays, which no operation and no call writes, that is the frame claim.
-/
import proofs.«430483_j63471026700747_3_alg».proof.Proof.Gen.Kernel.Launch
import proofs.«430483_j63471026700747_3_alg».proof.Proof.Gen.Kernel.Skeleton
import proofs.«430483_j63471026700747_3_alg».proof.Proof.Gen.Kernel.Points
import proofs.«430483_j63471026700747_3_alg».proof.Proof.Gen.Kernel.Regions
import proofs.«430483_j63471026700747_3_alg».proof.Proof.Kernel.Region0
import proofs.«430483_j63471026700747_3_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first host stretch (where the projection call is entered). -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- Where the projection call is left: its three arrays at what the pipeline leaves (the two inputs as entered, the
    output's write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The projection's array is the call's third window. -/
theorem W2_qkv (c : Dev nD) : W2 m ρ c (Proc.devRef .tc main_v11) = (dat0 (V1 m ρ) c).arrAt 2 cfg0.N :=
  W2_arr m ρ c 2
/-- The same, read at the TensorCore's references. -/
abbrev V2 : (c : Dev nD) → (b : Ref sig .tc) → Buf (Elt F) ((c : Thread nD τ).loc b) := fun c b => W2 m ρ c b
/-- At the call's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (where the attention call is entered). -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- Where the attention call is left: its five arrays at what the pipeline leaves (the three inputs as entered, each of
    the two outputs' write-backs folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The output's array is the call's fourth window, the attention weights' its fifth. -/
theorem W4_out (c : Dev nD) : W4 m ρ c (Proc.devRef .tc main_v16_0) = (dat1 (V3 m ρ) c).arrAt 3 cfg1.N :=
  W4_arr m ρ c 3
theorem W4_attn (c : Dev nD) : W4 m ρ c (Proc.devRef .tc main_v16_1) = (dat1 (V3 m ρ) c).arrAt 4 cfg1.N :=
  W4_arr m ρ c 4
/-- The same, read at the TensorCore's references. -/
abbrev V4 : (c : Dev nD) → (b : Ref sig .tc) → Buf (Elt F) ((c : Thread nD τ).loc b) := fun c b => W4 m ρ c b
/-- At the call's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No host operation writes an argument, and no call writes one: the activations are the projection call's first window, an
input, whose array the pipeline leaves as entered; the other three are no window of either call. So the fold at an
argument's buffer walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

/-- Both pipelines' proof data, each at the contents its call is entered from — a literal `match`, so that the launch
    theorem's configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at what the operations compute from `W`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The two calls as segments -/

/-- The launch hands a call the generator register and the scoped buffers outside its staging: the invariant of a call
    that keeps nothing between points. -/
theorem phiA_of_parts {gr W : ℕ} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
/-- And it gives them back. -/
theorem parts_of_phiA {gr W : ℕ} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

-- a library lemma stated over the pinned configuration of a pipeline unifies with the printed configuration only when
-- unification may unfold plain definitions in a metavariable's type
set_option backward.isDefEq.respectTransparency.types false in
/-- THE PROJECTION CALL over the thread state: entered from every unscoped buffer at `W1`, left at `W2`. Its arrays are
    split out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    exact phiA_of_parts spec0 c _
  hout c := by
    rw [Pipeline.ownSems0_none, show (pdats m ρ 0 c).Φ (Fin.last _) = Pipeline.ΦA spec0 c from rfl]
    exact parts_of_phiA spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as for the projection call
set_option backward.isDefEq.respectTransparency.types false in
/-- THE ATTENTION CALL over the thread state: entered from every unscoped buffer at `W3`, left at `W4` (what the launch
    reads at the end). As the projection call, except that its invariant carries the accumulator between points: what
    the launch hands it is the invariant before the first point, and the invariant after the last point gives it back
    with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (phiA_of_parts spec1 c _).trans (show Pipeline.ΦA spec1 c ⊢ (pdats m ρ 1 c).Φ 0 from hin1 (V3 m ρ) c)
  hout c := by
    rw [Pipeline.ownSems0_none]
    exact (show (pdats m ρ 1 c).Φ (Fin.last _) ⊢ Pipeline.ΦA spec1 c from hout1 (V3 m ρ) c).trans (parts_of_phiA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: a host segment per stretch from its boundary's contents, a region per call. -/
abbrev runSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of the segments: it is the chain of its items, and so is the segments' run. -/
theorem main_run (c : Dev nD) : main (F := F) c = Pipeline.Seg.run (runSegs m ρ) := (main_chain c).trans (by chain_rfl)

-- the launch theorem's implicit arguments are found by unifying its conclusion with this one, which takes unfolding plain
-- definitions in a metavariable's type
set_option backward.isDefEq.respectTransparency.types false in
/-- THE RUN: from any memory with zero counters, every weakly fair execution of the program on the TensorCores terminates,
    nothing faulting, and every final state has every unscoped buffer at the last boundary's contents `W4`: the launch
    over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution terminates and every final state has the four argument arrays as launched —
    each is an unscoped buffer, which the run leaves at the last boundary's contents, and the fold at an argument walks
    back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.KernelIdeal.Region0.lean ====
/-
  The projection call (the first of the two), at the buffer contents `V` it is entered from.

  Each grid point (b, i) of the 8 × 4 grid loads a 256-row block of activations (256 × 768) and the whole permuted weight
  (768 × 2304, fetched once and kept), multiplies them into a zero accumulator and stores the 256 × 2304 product over the
  whole output block. So after the body the output's staging buffer holds that one stored value, and the input buffers
  hold their blocks as before. This file states that as the body's triple, packages it as the pipeline's proof data
  (what every window's buffer holds after every point) and derives the per-point obligation the launch theorem asks for.
-/
import proofs.«430483_j63471026700747_3_alg».proof.Proof.Gen.KernelIdeal.Launch
import proofs.«430483_j63471026700747_3_alg».proof.Proof.Gen.KernelIdeal.Skeleton
import proofs.«430483_j63471026700747_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, whether it was fetched at this point or an earlier one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: it is fetched once and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX : Rect S1x256x768 := Rect.unit (s := S1x256x768) ![0, 0, 0] S1x256x768.size inb_S1x256x768_S1x256x768_0_0_0
abbrev rW : Rect S768x2304 := Rect.unit (s := S768x2304) ![0, 0] S768x2304.size inb_S768x2304_S768x2304_0_0
abbrev rO : Rect S1x256x2304 := Rect.unit (s := S1x256x2304) ![0, 0, 0] S1x256x2304.size inb_S1x256x2304_S1x256x2304_0_0_0

/-- What the body leaves in the output's staging buffer: its one store, of the product of the two loaded blocks. -/
def out0_2 (x0 : Vec F S1x256x768 .f32) (x1 : Vec F S768x2304 .bf16) : Vec F S1x256x2304 .bf16 :=
  View.canon [⟨rO, k0_pay1 (View.ld x0 rX) (View.ld x1 rW)⟩]

/-- The one store covers the buffer. -/
theorem cover0_2 (p0 : Vec F S1x256x2304 .bf16) (y : S1x256x2304.Idx) :
    ∃ pc ∈ ([⟨rO, p0⟩] : List (View.Piece (Elt F) S1x256x2304 .bf16)), y ∈ pc.1.set :=
  View.cover_of_tiled [⟨rO, p0⟩] S1x256x2304.size (by rfl) y

/-! ## The body's triple -/

set_option maxHeartbeats 1000000 in
/-- On whole staging buffers — the inputs' at contents `x0`, `x1`, the output's at anything — the body runs to the end
    with the inputs' as they were and the output's at `out0_2 x0 x1`. -/
theorem sound_kernel0 (c : Dev nD) (E : Set ℕ) (i : grid0.Coords) (arg2 : Memref sig .tc .vmem S1x256x768 .f32) (harg2 : arg2.IsWhole)
    (arg3 : Memref sig .tc .vmem S768x2304 .bf16) (harg3 : arg3.IsWhole) (arg4 : Memref sig .tc .vmem S1x256x2304 .bf16) (harg4 : arg4.IsWhole)
    (x0 : Vec F S1x256x768 .f32) (x1 : Vec F S768x2304 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__qkv_proj_kernel i arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- Arrays as the call finds them; after the body at point `t` each input's buffer at its block and the output's at the
    stored product; nothing else is kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
/-
  The attention call (the second of the two), at the buffer contents `V` it is entered from.

  Grid point (b, h) of the 8 × 12 grid handles batch b and head h. It loads that head's query, key and value
  (1024 × 3 × 64), forms the 1024 × 1024 scores, takes a row-wise softmax and stores it over the whole attention-weights
  block; multiplies the weights with the values and with the head's 64 rows of the transposed output weight, and ADDS the
  1024 × 768 product to an accumulator kept in a scratch buffer across the twelve heads of a batch: the accumulator is
  set to zero at head 0, and at head 11 the accumulator plus the bias is stored over the whole output block, which is
  written back only then (at the other eleven heads the output's buffer is left alone).

  This file says what every buffer holds after every point — the accumulator by recursion on the point —, packages it as
  the pipeline's proof data with the accumulator carried in the invariant, and derives the per-point obligation.
-/
import proofs.«430483_j63471026700747_3_alg».proof.Proof.Gen.KernelIdeal.Launch
import proofs.«430483_j63471026700747_3_alg».proof.Proof.Gen.KernelIdeal.Skeleton
import proofs.«430483_j63471026700747_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator -/

/-- The scratch buffer the accumulator lives in. -/
abbrev scM : Memref sig .tc .vmem S1024x768 .f32 := Memref.whole cc1_scratch0

/-- What the scratch holds after the body at point `n`: at a batch's first head, zero plus the head's product; at a
    later head, what the point before left plus the head's product. -/
def accAfter (c : Dev nD) : (n : ℕ) → n < cfg1.N → Vec F S1024x768 .f32
  | 0, hn => k1_pay1 (k1_pay7 (iblk1 V c 0 ⟨0, hn⟩) (k1_pay3 (F := F)) (iblk1 V c 1 ⟨0, hn⟩))
  | n + 1, hn =>
    if (n + 1) % 12 = 0 then
      k1_pay1 (k1_pay7 (iblk1 V c 0 ⟨n + 1, hn⟩) (k1_pay3 (F := F)) (iblk1 V c 1 ⟨n + 1, hn⟩))
    else
      k1_pay1 (k1_pay7 (iblk1 V c 0 ⟨n + 1, hn⟩) (accAfter c n (Nat.lt_of_succ_lt hn)) (iblk1 V c 1 ⟨n + 1, hn⟩))

/-- At a batch's first head the accumulator restarts from zero. -/
theorem accAfter_first (c : Dev nD) (t : Fin cfg1.N) (h : t.val % 12 = 0) :
    accAfter V c t.val t.isLt = k1_pay1 (k1_pay7 (iblk1 V c 0 t) (k1_pay3 (F := F)) (iblk1 V c 1 t)) := by
  obtain ⟨n, hn⟩ := t
  cases n with
  | zero => rfl
  | succ n => exact (if_pos h).trans rfl

/-- At a later head it continues from what the point before left. -/
theorem accAfter_next (c : Dev nD) (t : Fin cfg1.N) (h : ¬t.val % 12 = 0) :
    accAfter V c t.val t.isLt
      = k1_pay1 (k1_pay7 (iblk1 V c 0 t) (accAfter V c (t.val - 1) (Nat.lt_of_le_of_lt (Nat.sub_le _ _) t.isLt)) (iblk1 V c 1 t)) := by
  obtain ⟨n, hn⟩ := t
  cases n with
  | zero => exact absurd (Nat.zero_mod _) h
  | succ n => exact (if_neg h).trans rfl

/-! ## The invariant between points -/

/-- The core's scoped buffers that belong to the other call, each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- Before the first point: every scoped buffer outside the call's staging at some contents and the generator register at
    some state. Before point `n + 1`: the same with the scratch at what point `n` left in it. -/
def PhiS (c : Dev nD) : (n : ℕ) → n ≤ cfg1.N → sProp 𝕄
  | 0, _ => Pipeline.ΦA spec1 c
  | n + 1, hn => iprop(iprop(otherScoped (F := F) c ∗ owns (c : Thread nD τ) scM fullShare (accAfter V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(otherScoped (F := F) c ∗ owns (c : Thread nD τ) scM fullShare (accAfter V c n hn)) ∗ (∃ r, prngReg c r)) := rfl

theorem PhiS_pos (c : Dev nD) (n : ℕ) (h : n ≤ cfg1.N) (hz : n ≠ 0) :
    PhiS V c n h = iprop(iprop(otherScoped (F := F) c ∗ owns (c : Thread nD τ) scM fullShare (accAfter V c (n - 1) (by omega))) ∗ (∃ r, prngReg c r)) := by
  cases n with
  | zero => exact absurd rfl hz
  | succ n => rfl

/-! ## The proof data -/

/-- Arrays as the call finds them; after the body at point `t` each input's buffer at its block, the attention weights'
    at the softmax of the point's scores, the output's at accumulator plus bias (consulted only at a batch's last head,
    the only points that write it back); the accumulator carried in the invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay2 (accAfter V c t.val t.isLt) (iblk1 V c 2 t)
    | ⟨4, _⟩ => k1_pay6 (iblk1 V c 0 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay2 (accAfter V c t.val t.isLt) (iblk1 V c 2 t) := by dsimp only [dat1]
theorem after1_4 (c : Dev nD) (t : Fin cfg1.N) : (dat1 V c).after 4 t = k1_pay6 (iblk1 V c 0 t) := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

/-! ## The two conditions on the head coordinate -/

/-- The body's first conditional, which sets the accumulator to zero, as the kernel computes it from the grid
    coordinates: taken at head 0. -/
abbrev cond1_0 (i : grid1.Coords) : Prop := (Scalar.cmpi .ne (Scalar.extui (Scalar.cmpi .eq (BitVec.ofNat 32 (i 1).val) 0#32)) 0#32) = 1#1
/-- Head 0 is the points ≡ 0 (mod 12). -/
theorem hcond1_0 : ∀ t : Fin cfg1.N, cond1_0 (grid1.coords t) ↔ t.val % 12 = 0 :=
  (by decide +kernel : ∀ t : Fin grid1.N, cond1_0 (grid1.coords t) ↔ t.val % 12 = 0)

/-- The body's second conditional, which stores the output block: taken at head 11. -/
abbrev cond1_1 (i : grid1.Coords) : Prop := k1_cond2 i = 1#1
/-- Head 11 is the points ≡ 11 (mod 12). -/
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the output's buffer is left alone -/

/-- Away from head 11 the body stores nothing into the output's buffer: the window is idle there, -/
theorem idleAt1_3 : ∀ t : Fin cfg1.N, ¬cond1_1 (grid1.coords t) → cfg1.idle 3 (grid1.coords t) = true := by decide +kernel
/-- and the block is not written back there; -/
theorem noFlush1_3 : ∀ t : Fin cfg1.N, ¬cond1_1 (grid1.coords t) → (cfg1.win 3).flush t = false := by decide +kernel
/-- at head 11 it is live. -/
theorem liveAt1_3 : ∀ t : Fin cfg1.N, cond1_1 (grid1.coords t) → cfg1.idle 3 (grid1.coords t) = false := by decide +kernel

/-! ## Whole-buffer rectangles: zero offsets, however many axes -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- A store through the whole-buffer rectangle, made last, covers the buffer. -/
theorem cover_unit {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ pc ∈ ((⟨Rect.unit off S.size inb, w⟩ : View.Piece Val S e) :: L), y ∈ pc.1.set :=
  ⟨_, List.mem_cons_self, View.mem_set_unit_zero h inb y⟩

/-! ## The body's triple, head by head

Every access of the body is of a whole buffer, so each buffer ends at the payload of the last store into it, and a load
after a store reads that payload. On whole buffers — query/key/value at `x0`, the weight rows at `x1`, the bias at `x2` —
the body leaves the inputs as they were, the attention weights at the softmax `k1_pay6 x0`, and the accumulator at
what it held (zero after the reset of head 0) plus the head's product. -/

set_option maxHeartbeats 1000000 in
/-- Head 0: the accumulator, whatever it held, is reset; the output's buffer is handed back untouched. -/
theorem run1_A (c : Dev nD) (E : Set ℕ) (i : grid1.Coords)
    (arg2 : Memref sig .tc .vmem S1x1024x1x3x64 .bf16) (harg2 : arg2.IsWhole) (arg3 : Memref sig .tc .vmem S64x768 .bf16) (harg3 : arg3.IsWhole)
    (arg4 : Memref sig .tc .vmem S1x768 .f32) (harg4 : arg4.IsWhole) (arg5 : Memref sig .tc .vmem S1x1024x768 .f32) (harg5 : arg5.IsWhole)
    (arg6 : Memref sig .tc .vmem S1x1x1024x1024 .f32) (harg6 : arg6.IsWhole) (arg7 : Memref sig .tc .vmem S1024x768 .f32) (harg7 : arg7.IsWhole)
    (hc0 : cond1_0 i) (hc1 : ¬cond1_1 i)
    (x0 : Vec F S1x1024x1x3x64 .bf16) (x1 : Vec F S64x768 .bf16) (x2 : Vec F S1x768 .f32) (xi : Vec F S1x1024x768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay6 x0)
            ∗ owns (c : Thread nD τ) arg7 fullShare (k1_pay1 (k1_pay7 x0 (k1_pay3 (F := F)) x1))) -∗ K ⟨⟩))
      ⊢ wp frame (wpE (defs₀ (F := F)) Variants.none c none) E (cc1__attn_outproj_kernel i arg2 harg2 arg3 harg3 arg4 harg4 arg5 harg5 arg6 harg6 arg7 harg7) K := by
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover_unit hz4 _ _ _), View.canon_unit_zero hz4, View.readAt_eq_ld,
      View.ld_unit_zero (S := S1x1024x1x3x64) hz5]
  iexists _; isplitr
  swap; · iexact HS
  ipureintro
  sl_unfold_words
  rw [View.read_writes_eq_canon _ _ _ (cover_unit hz2 _ _ _), View.canon_cons_unit_zero hz2,
    View.readCov_unit_zero (S := S1024x768) _ hz2]
  simp only [View.readAt_eq_ld, View.ld_unit_zero (S := S1x1024x1x3x64) hz5, View.ld_unit_zero (S := S1024x768) hz2, View.ld_unit_zero (S := S64x768) hz2, View.ld_unit_zero (S := S1x768) hz2]

set_option maxHeartbeats 1000000 in
/-- Heads 1 to 10: the accumulator continues from `xs`; the output's buffer is handed back untouched. -/
theorem run1_B (c : Dev nD) (E : Set ℕ) (i : grid1.Coords)
    (arg2 : Memref sig .tc .vmem S1x1024x1x3x64 .bf16) (harg2 : arg2.IsWhole) (arg3 : Memref sig .tc .vmem S64x768 .bf16) (harg3 : arg3.IsWhole)
    (arg4 : Memref sig .tc .vmem S1x768 .f32) (harg4 : arg4.IsWhole) (arg5 : Memref sig .tc .vmem S1x1024x768 .f32) (harg5 : arg5.IsWhole)
    (arg6 : Memref sig .tc .vmem S1x1x1024x1024 .f32) (harg6 : arg6.IsWhole) (arg7 : Memref sig .tc .vmem S1024x768 .f32) (harg7 : arg7.IsWhole)
    (hc0 : ¬cond1_0 i) (hc1 : ¬cond1_1 i)
    (x0 : Vec F S1x1024x1x3x64 .bf16) (x1 : Vec F S64x768 .bf16) (x2 : Vec F S1x768 .f32) (xi : Vec F S1x1024x768 .f32) (xs : Vec F S1024x768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare (k1_pay6 x0)
            ∗ owns (c : Thread nD τ) arg7 fullShare (k1_pay1 (k1_pay7 x0 xs x1))) -∗ K ⟨⟩))
      ⊢ wp frame (wpE (defs₀ (F := F)) Variants.none c none) E (cc1__attn_outproj_kernel i arg2 harg2 arg3 harg3 arg4 harg4 arg5 harg5 arg6 harg6 arg7 harg7) K := by
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_unit hz4 _ _ _),
      View.canon_unit_zero hz4, View.readAt_eq_ld, View.ld_unit_zero (S := S1x1024x1x3x64) hz5]
  iexists _; isplitr
  swap; · iexact HS
  ipureintro
  sl_unfold_words
  rw [View.read_writes_eq_canon _ _ _ (cover_unit hz2 _ _ _),
    View.canon_unit_zero hz2]
  simp only [View.readAt_eq_ld, View.ld_unit_zero (S := S1x1024x1x3x64) hz5, View.ld_unit_zero (S := S1024x768) hz2, View.ld_unit_zero (S := S64x768) hz2]

set_option maxHeartbeats 1000000 in
/-- Head 11: the accumulator continues from `xs`, and the output's buffer, whatever it held, ends at the new accumulator
    plus the bias. -/
theorem run1_C (c : Dev nD) (E : Set ℕ) (i : grid1.Coords)
    (arg2 : Memref sig .tc .vmem S1x1024x1x3x64 .bf16) (harg2 : arg2.IsWhole) (arg3 : Memref sig .tc .vmem S64x768 .bf16) (harg3 : arg3.IsWhole)
    (arg4 : Memref sig .tc .vmem S1x768 .f32) (harg4 : arg4.IsWhole) (arg5 : Memref sig .tc .vmem S1x1024x768 .f32) (harg5 : arg5.IsWhole)
    (arg6 : Memref sig .tc .vmem S1x1x1024x1024 .f32) (harg6 : arg6.IsWhole) (arg7 : Memref sig .tc .vmem S1024x768 .f32) (harg7 : arg7.IsWhole)
    (hc0 : ¬cond1_0 i) (hc1 : cond1_1 i)
    (x0 : Vec F S1x1024x1x3x64 .bf16) (x1 : Vec F S64x768 .bf16) (x2 : Vec F S1x768 .f32) (xs : Vec F S1024x768 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 (k1_pay1 (k1_pay7 x0 xs x1)) x2) ∗ owns (c : Thread nD τ) arg6 fullShare (k1_pay6 x0)
            ∗ owns (c : Thread nD τ) arg7 fullShare (k1_pay1 (k1_pay7 x0 xs x1))) -∗ K ⟨⟩))
      ⊢ wp frame (wpE (defs₀ (F := F)) Variants.none c none) E (cc1__attn_outproj_kernel i arg2 harg2 arg3 harg3 arg4 harg4 arg5 harg5 arg6 harg6 arg7 harg7) K := by
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover_unit hz3 _ _ _), View.canon_unit_zero hz3,
      View.readCov_unit_zero (S := S1024x768) _ hz2]
    simp only [View.readAt_eq_ld, View.ld_unit_zero (S := S1x1024x1x3x64) hz5, View.ld_unit_zero (S := S1024x768) hz2, View.ld_unit_zero (S := S64x768) hz2, View.ld_unit_zero (S := S1x768) hz2]
  isplitl [H4]
  · iexists _; isplitr
    swap; · iexact H4
    ipureintro
    sl_unfold_words
    rw [View.read_writes_eq_canon _ _ _ (cover_unit hz4 _ _ _), View.canon_unit_zero hz4, View.readAt_eq_ld,
      View.ld_unit_zero (S := S1x1024x1x3x64) hz5]
  iexists _; isplitr
  swap; · iexact HS
  ipureintro
  sl_unfold_words
  rw [View.read_writes_eq_canon _ _ _ (cover_unit hz2 _ _ _), View.canon_unit_zero hz2]
  simp only [View.readAt_eq_ld, View.ld_unit_zero (S := S1x1024x1x3x64) hz5, View.ld_unit_zero (S := S1024x768) hz2, View.ld_unit_zero (S := S64x768) hz2, View.ld_unit_zero (S := S1x768) hz2]

/-! ## What the body finds in the inputs' buffers -/

/-- The query/key/value buffer holds the point's block, fetched at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- The weight-rows buffer holds the head's 64 rows, fetched at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- The bias buffer holds the whole bias at every point: it is fetched once and its block never moves. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The launch's invariant, with the scratch as an owned buffer -/

/-- What the launch hands the call, regrouped: the other call's buffers, the scratch at some contents, the generator. -/
theorem PhiA1_elim (c : Dev nD) :
    (Pipeline.ΦA spec1 c : sProp 𝕄)
      ⊢ iprop(iprop(otherScoped (F := F) c ∗ (∃ d, owns (c : Thread nD τ) scM fullShare d)) ∗ (∃ r, prngReg c r)) := by
  unfold Pipeline.ΦA otherScoped; rw [scopedRest1_eq]; simp only [scM, owns_whole]
  iintro ⟨⟨HA, HB, HC, HD, HE, ⟨%f, HS⟩⟩, Hg⟩
  isplitr [Hg]
  swap; · iexact Hg
  isplitr [HS]
  · isplitl [HA]; · iexact HA
    isplitl [HB]; · iexact HB
    isplitl [HC]; · iexact HC
    isplitl [HD]; · iexact HD
    iexact HE
  iexists f; iexact HS

/-- And back. -/
theorem PhiA1_intro (c : Dev nD) :
    iprop(iprop(otherScoped (F := F) c ∗ (∃ d, owns (c : Thread nD τ) scM fullShare d)) ∗ (∃ r, prngReg c r))
      ⊢ (Pipeline.ΦA spec1 c : sProp 𝕄) := by
  unfold Pipeline.ΦA otherScoped; rw [scopedRest1_eq]; simp only [scM, owns_whole]
  iintro ⟨⟨⟨HA, HB, HC, HD, HE⟩, ⟨%d, HS⟩⟩, Hg⟩
  isplitr [Hg]
  swap; · iexact Hg
  isplitl [HA]; · iexact HA
  isplitl [HB]; · iexact HB
  isplitl [HC]; · iexact HC
  isplitl [HD]; · iexact HD
  isplitl [HE]; · iexact HE
  iexists d; iexact HS

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the output's buffer as the window's idleness at the point says. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t
    ∗ owns (c : Thread nD τ) (st1_4 t) fullShare ((dat1 V c).after 4 t))

set_option maxHeartbeats 4000000 in
/-- The body at any point. The inputs' buffers hold their blocks; the head coordinate says which of the three triples
    applies; the invariant hands the body the scratch at what the point before left (at anything before the first
    point) and takes it back at this point's accumulator, which at head 0 restarts from zero and otherwise continues. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_4, PhiS_castSucc V c t]
  have hN : t.val < 96 := lt_of_lt_of_eq t.isLt (show cfg1.N = 96 from N_1)
  by_cases h0 : t.val % 12 = 0
  · have h1 : ¬t.val % 12 = 11 := by omega
    rw [Dat.leavesExact_idle (dat1 V c) 3 t (idleAt1_3 t (fun h => h1 ((hcond1_1 t).mp h))) (noFlush1_3 t (fun h => h1 ((hcond1_1 t).mp h)))]
    rw [accAfter_first V c t h0]
    by_cases hz : t.val = 0
    · rw [PhiS_zero V c _ _ hz]
      iintro ⟨HΦ, Ho, ⟨%d0, H0⟩, ⟨%d1, H1⟩, ⟨%d2, H2⟩, ⟨%d3, H3⟩, ⟨%d4, H4⟩⟩
      icases (PhiA1_elim c) $$ HΦ with ⟨⟨Hoth, HS⟩, Hg⟩
      iapply (run1_A c Set.univ (grid1.coords t) _ _ _ _ _ _ _ _ _ _ _ _ ((hcond1_0 t).mpr h0) (fun h => h1 ((hcond1_1 t).mp h))
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hoth HS Hg]
      · isplitr [Hg]
        swap; · iexact Hg
        isplitl [Hoth]; · iexact Hoth
        iexact HS
      isplitl [Ho]; · iexact Ho
      isplitl [H0]; · iexact H0
      isplitl [H1]; · iexact H1
      isplitl [H2]; · iexact H2
      isplitl [H3]; · iexists _; iexact H3
      iexact H4
    · rw [PhiS_pos V c _ _ hz]
      iintro ⟨⟨⟨Hoth, HS⟩, Hg⟩, Ho, ⟨%d0, H0⟩, ⟨%d1, H1⟩, ⟨%d2, H2⟩, ⟨%d3, H3⟩, ⟨%d4, H4⟩⟩
      iapply (run1_A c Set.univ (grid1.coords t) _ _ _ _ _ _ _ _ _ _ _ _ ((hcond1_0 t).mpr h0) (fun h => h1 ((hcond1_1 t).mp h))
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [Hoth HS Hg]
      · isplitr [Hg]
        swap; · iexact Hg
        isplitl [Hoth]; · iexact Hoth
        iexact HS
      isplitl [Ho]; · iexact Ho
      isplitl [H0]; · iexact H0
      isplitl [H1]; · iexact H1
      isplitl [H2]; · iexact H2
      isplitl [H3]; · iexists _; iexact H3
      iexact H4
  · have hz : t.val ≠ 0 := fun e => h0 (by rw [e])
    rw [PhiS_pos V c _ _ hz, accAfter_next V c t h0]
    by_cases h1 : t.val % 12 = 11
    · rw [show (dat1 V c).leavesExact 3 t = owns (c : Thread nD τ) (st1_3 t) fullShare ((dat1 V c).after 3 t) from by
        unfold Dat.leavesExact; rw [liveAt1_3 t ((hcond1_1 t).mpr h1)], after1_3, accAfter_next V c t h0]
      iintro ⟨⟨⟨Hoth, HS⟩, Hg⟩, Ho, ⟨%d0, H0⟩, ⟨%d1, H1⟩, ⟨%d2, H2⟩, ⟨%d3, H3⟩, ⟨%d4, H4⟩⟩
      iapply (run1_C c Set.univ (grid1.coords t) _ _ _ _ _ _ _ _ _ _ _ _ (fun h => h0 ((hcond1_0 t).mp h)) ((hcond1_1 t).mpr h1)
        (iblk1 V c 0 t) (iblk1 V c 1 t) (iblk1 V c 2 t) (accAfter V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [Hoth HS Hg]
      · isplitr [Hg]
        swap; · iexact Hg
        isplitl [Hoth]; · iexact Hoth
        iexact HS
      isplitl [Ho]; · iexact Ho
      isplitl [H0]; · iexact H0
      isplitl [H1]; · iexact H1
      isplitl [H2]; · iexact H2
      isplitl [H3]; · iexact H3
      iexact H4
    · rw [Dat.leavesExact_idle (dat1 V c) 3 t (idleAt1_3 t (fun h => h1 ((hcond1_1 t).mp h))) (noFlush1_3 t (fun h => h1 ((hcond1_1 t).mp h)))]
      iintro ⟨⟨⟨Hoth, HS⟩, Hg⟩, Ho, ⟨%d0, H0⟩, ⟨%d1, H1⟩, ⟨%d2, H2⟩, ⟨%d3, H3⟩, ⟨%d4, H4⟩⟩
      iapply (run1_B c Set.univ (grid1.coords t) _ _ _ _ _ _ _ _ _ _ _ _ (fun h => h0 ((hcond1_0 t).mp h)) (fun h => h1 ((hcond1_1 t).mp h))
        (iblk1 V c 0 t) (iblk1 V c 1 t) (iblk1 V c 2 t) ((dat1 V c).before 3 t d3) (accAfter V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hoth HS Hg]
      · isplitr [Hg]
        swap; · iexact Hg
        isplitl [Hoth]; · iexact Hoth
        iexact HS
      isplitl [Ho]; · iexact Ho
      isplitl [H0]; · iexact H0
      isplitl [H1]; · iexact H1
      isplitl [H2]; · iexact H2
      isplitl [H3]; · iexists _; iexact H3
      iexact H4

/-! ## The body obligation, and the invariant at the call's two ends -/

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 96 := N_1; omega)]
  iintro ⟨⟨Hoth, HS⟩, Hg⟩
  iapply (PhiA1_intro c)
  isplitr [Hg]
  swap; · iexact Hg
  isplitl [Hoth]; · iexact Hoth
  iexists _; iexact HS

end Cert.KernelIdeal.Hand

end
-- ==== Proof.KernelIdeal.Run.lean ====
/-
  The run of the whole program: a stretch of host operations (the projection weight is scaled, regrouped by head,
  transposed and rounded), the projection call, a second stretch (the projection is regrouped by head, the output weight
  transposed and rounded, the bias reshaped), the attention call.

  The buffer contents at each of the five boundaries are a fold from the launch memory: a host stretch replaces them by
  what its operations compute, a call replaces its windows' arrays by what its write-backs leave and keeps every other
  buffer. Each stretch and each call is one segment of the several-region launch theorem, over the thread state "every
  unscoped buffer at the boundary's contents, the generator register at some state, nothing owed"; the theorem then says
  that every weakly fair execution terminates with every unscoped buffer at the last boundary's contents. Read at the
  four argument arrays, which no operation and no call writes, that is the frame claim.
-/
import proofs.«430483_j63471026700747_3_alg».proof.Proof.Gen.KernelIdeal.Launch
import proofs.«430483_j63471026700747_3_alg».proof.Proof.Gen.KernelIdeal.Skeleton
import proofs.«430483_j63471026700747_3_alg».proof.Proof.Gen.KernelIdeal.Points
import proofs.«430483_j63471026700747_3_alg».proof.Proof.Gen.KernelIdeal.Regions
import proofs.«430483_j63471026700747_3_alg».proof.Proof.KernelIdeal.Region0
import proofs.«430483_j63471026700747_3_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first host stretch (where the projection call is entered). -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- Where the projection call is left: its three arrays at what the pipeline leaves (the two inputs as entered, the
    output's write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The projection's array is the call's third window. -/
theorem W2_qkv (c : Dev nD) : W2 m ρ c (Proc.devRef .tc main_v11) = (dat0 (V1 m ρ) c).arrAt 2 cfg0.N :=
  W2_arr m ρ c 2
/-- The same, read at the TensorCore's references. -/
abbrev V2 : (c : Dev nD) → (b : Ref sig .tc) → Buf (Elt F) ((c : Thread nD τ).loc b) := fun c b => W2 m ρ c b
/-- At the call's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (where the attention call is entered). -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- Where the attention call is left: its five arrays at what the pipeline leaves (the three inputs as entered, each of
    the two outputs' write-backs folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The output's array is the call's fourth window, the attention weights' its fifth. -/
theorem W4_out (c : Dev nD) : W4 m ρ c (Proc.devRef .tc main_v16_0) = (dat1 (V3 m ρ) c).arrAt 3 cfg1.N :=
  W4_arr m ρ c 3
theorem W4_attn (c : Dev nD) : W4 m ρ c (Proc.devRef .tc main_v16_1) = (dat1 (V3 m ρ) c).arrAt 4 cfg1.N :=
  W4_arr m ρ c 4
/-- The same, read at the TensorCore's references. -/
abbrev V4 : (c : Dev nD) → (b : Ref sig .tc) → Buf (Elt F) ((c : Thread nD τ).loc b) := fun c b => W4 m ρ c b
/-- At the call's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No host operation writes an argument, and no call writes one: the activations are the projection call's first window, an
input, whose array the pipeline leaves as entered; the other three are no window of either call. So the fold at an
argument's buffer walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

/-- Both pipelines' proof data, each at the contents its call is entered from — a literal `match`, so that the launch
    theorem's configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at what the operations compute from `W`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The two calls as segments -/

/-- The launch hands a call the generator register and the scoped buffers outside its staging: the invariant of a call
    that keeps nothing between points. -/
theorem phiA_of_parts {gr W : ℕ} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
/-- And it gives them back. -/
theorem parts_of_phiA {gr W : ℕ} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

-- a library lemma stated over the pinned configuration of a pipeline unifies with the printed configuration only when
-- unification may unfold plain definitions in a metavariable's type
set_option backward.isDefEq.respectTransparency.types false in
/-- THE PROJECTION CALL over the thread state: entered from every unscoped buffer at `W1`, left at `W2`. Its arrays are
    split out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    exact phiA_of_parts spec0 c _
  hout c := by
    rw [Pipeline.ownSems0_none, show (pdats m ρ 0 c).Φ (Fin.last _) = Pipeline.ΦA spec0 c from rfl]
    exact parts_of_phiA spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as for the projection call
set_option backward.isDefEq.respectTransparency.types false in
/-- THE ATTENTION CALL over the thread state: entered from every unscoped buffer at `W3`, left at `W4` (what the launch
    reads at the end). As the projection call, except that its invariant carries the accumulator between points: what
    the launch hands it is the invariant before the first point, and the invariant after the last point gives it back
    with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (phiA_of_parts spec1 c _).trans (show Pipeline.ΦA spec1 c ⊢ (pdats m ρ 1 c).Φ 0 from hin1 (V3 m ρ) c)
  hout c := by
    rw [Pipeline.ownSems0_none]
    exact (show (pdats m ρ 1 c).Φ (Fin.last _) ⊢ Pipeline.ΦA spec1 c from hout1 (V3 m ρ) c).trans (parts_of_phiA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: a host segment per stretch from its boundary's contents, a region per call. -/
abbrev runSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of the segments: it is the chain of its items, and so is the segments' run. -/
theorem main_run (c : Dev nD) : main (F := F) c = Pipeline.Seg.run (runSegs m ρ) := (main_chain c).trans (by chain_rfl)

-- the launch theorem's implicit arguments are found by unifying its conclusion with this one, which takes unfolding plain
-- definitions in a metavariable's type
set_option backward.isDefEq.respectTransparency.types false in
/-- THE RUN: from any memory with zero counters, every weakly fair execution of the program on the TensorCores terminates,
    nothing faulting, and every final state has every unscoped buffer at the last boundary's contents `W4`: the launch
    over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution terminates and every final state has the four argument arrays as launched —
    each is an unscoped buffer, which the run leaves at the last boundary's contents, and the fold at an argument walks
    back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/-
  Multi-head self-attention with a fused output projection, written twice.

  Inputs: activations x[b, n, c] (8 × 1024 × 768), the stacked projection weight w[j, c] (2304 × 768, rows ordered
  (component t, head h, lane d) with t = 0 query, 1 key, 2 value), the output projection wp[j, c] (768 × 768), a bias
  (768) and the query scale s. Results: the attention weights a[b, h, n, m] (8 × 12 × 1024 × 1024) and the projected
  output o[b, n, j] (8 × 1024 × 768).

  The REFERENCE arrangement projects first and scales the query afterwards, takes a row-wise softmax, contracts with the
  values, lays the heads side by side along the channel axis and contracts ONCE with the output weight over all 768 channels.

  The KERNEL arrangement folds the scale into the query rows of the weight and permutes its rows to (head, component,
  lane), so each head's query, key and value are adjacent columns of one product; it contracts each head's 64 channels with
  the matching 64 columns of the output weight and ADDS the twelve partial products one after the other, starting from zero.

  Everything is over the extended reals; sums are `Finset` sums, the softmax's maximum is the fold of `max` from ⊥.
-/
import Idealize.ShloMosaic.PureOps.Ideal

noncomputable section

namespace AttnSpec

open Idealize.ShloMosaic

/-- Row of the stacked weight holding component `t`, head `h`, lane `d`: the reference's (t, h, d) order. -/
def rowR (t : Fin 3) (h : Fin 12) (d : Fin 64) : Fin 2304 :=
  ⟨t.val * 768 + h.val * 64 + d.val, by have := t.isLt; have := h.isLt; have := d.isLt; omega⟩

/-- Column of the permuted, transposed weight holding head `h`, component `t`, lane `d`: the kernel's (h, t, d) order. -/
def colK (h : Fin 12) (t : Fin 3) (d : Fin 64) : Fin 2304 :=
  ⟨h.val * 192 + t.val * 64 + d.val, by have := t.isLt; have := h.isLt; have := d.isLt; omega⟩

/-- Channel `h * 64 + d` of the 768: head `h`, lane `d`. -/
def chan (h : Fin 12) (d : Fin 64) : Fin 768 :=
  ⟨h.val * 64 + d.val, by have := h.isLt; have := d.isLt; omega⟩

/-- The head of a channel. -/
def headOf (c : Fin 768) : Fin 12 := ⟨c.val / 64, by have := c.isLt; omega⟩
/-- The lane of a channel inside its head. -/
def laneOf (c : Fin 768) : Fin 64 := ⟨c.val % 64, Nat.mod_lt _ (by decide)⟩

/-- A row's maximum, from ⊥. -/
def rowMax (f : Fin 1024 → EReal) : EReal := (Finset.univ : Finset (Fin 1024)).fold max ⊥ f

/-- The softmax of a row of 1024 scores: exp (f m − max f) over the sum of those exponentials. -/
def softmax (f : Fin 1024 → EReal) (m : Fin 1024) : EReal :=
  Ideal.div (Ideal.exp (f m - rowMax f)) (∑ m' : Fin 1024, Ideal.exp (f m' - rowMax f))

/-- The query scale both programs carry: the word 0x3E000000 (one eighth, the reciprocal square root of a head's 64 lanes),
    read as an extended real. -/
def s0 : EReal := Ideal.ofBits .f32 0x3E000000#32

/-- Partial sums `((0 + g 0) + g 1) + … + g k`, added in that order. -/
def accFold (g : ℕ → EReal) : ℕ → EReal
  | 0 => 0 + g 0
  | k + 1 => accFold g k + g (k + 1)

variable (x : Fin 8 → Fin 1024 → Fin 768 → EReal) (w : Fin 2304 → Fin 768 → EReal)
  (wp : Fin 768 → Fin 768 → EReal) (bias : Fin 768 → EReal) (s : EReal)

/-! ## The reference's arrangement -/

/-- x · wᵀ: row `j` of the stacked weight against token (b, n). -/
def projR (b : Fin 8) (n : Fin 1024) (j : Fin 2304) : EReal := ∑ c : Fin 768, x b n c * w j c

/-- (q · s) · k over a head's 64 lanes. -/
def scoreR (b : Fin 8) (h : Fin 12) (n m : Fin 1024) : EReal :=
  ∑ d : Fin 64, (projR x w b n (rowR 0 h d) * s) * projR x w b m (rowR 1 h d)

def attnR (b : Fin 8) (h : Fin 12) (n m : Fin 1024) : EReal := softmax (scoreR x w s b h n) m

/-- attention · v. -/
def avR (b : Fin 8) (h : Fin 12) (n : Fin 1024) (d : Fin 64) : EReal :=
  ∑ m : Fin 1024, attnR x w s b h n m * projR x w b m (rowR 2 h d)

/-- The heads side by side along the channel axis, contracted once with the output weight, plus the bias. -/
def outR (b : Fin 8) (n : Fin 1024) (j : Fin 768) : EReal :=
  (∑ c : Fin 768, avR x w s b (headOf c) n (laneOf c) * wp j c) + bias j

/-! ## The kernel's arrangement -/

/-- The permuted, transposed weight with the scale folded into the query rows: entry (c, (h, t, d)). -/
def wK (c : Fin 768) (h : Fin 12) (t : Fin 3) (d : Fin 64) : EReal :=
  if t.val = 0 then w (rowR t h d) c * s else w (rowR t h d) c

/-- x · wK: token (b, n) against column (h, t, d). -/
def projK (b : Fin 8) (n : Fin 1024) (h : Fin 12) (t : Fin 3) (d : Fin 64) : EReal :=
  ∑ c : Fin 768, x b n c * wK w s c h t d

def scoreK (b : Fin 8) (h : Fin 12) (n m : Fin 1024) : EReal :=
  ∑ d : Fin 64, projK x w s b n h 0 d * projK x w s b m h 1 d

def attnK (b : Fin 8) (h : Fin 12) (n m : Fin 1024) : EReal := softmax (scoreK x w s b h n) m

def avK (b : Fin 8) (h : Fin 12) (n : Fin 1024) (d : Fin 64) : EReal :=
  ∑ m : Fin 1024, attnK x w s b h n m * projK x w s b m h 2 d

/-- Head `h`'s share of the output projection: its 64 lanes against the matching 64 columns of the output weight. -/
def contribK (b : Fin 8) (h : Fin 12) (n : Fin 1024) (j : Fin 768) : EReal :=
  ∑ d : Fin 64, avK x w s b h n d * wp j (chan h d)

/-- The same indexed by a natural number (zero beyond the twelve heads). -/
def contribN (b : Fin 8) (n : Fin 1024) (j : Fin 768) (k : ℕ) : EReal :=
  if hk : k < 12 then contribK x w wp s b ⟨k, hk⟩ n j else 0

/-- The twelve shares added head after head from zero, then the bias. -/
def outK (b : Fin 8) (n : Fin 1024) (j : Fin 768) : EReal :=
  accFold (contribN x w wp s b n j) 11 + bias j

end AttnSpec

end
-- ==== Proof.HostVals.lean ====
/-
  What the kernel program's two stretches of host operations leave in the arrays the two regions read.

  The first stretch prepares the stacked projection weight: it cuts the weight's query, key and value row blocks, multiplies
  the query block by the scale constant, stacks the three blocks again, regroups the 2304 rows as (component, head, lane),
  swaps component and head, flattens back to 2304 rows, transposes to 768 × 2304 and narrows to bf16. The second stretch
  regroups the projected activations' 2304 columns as (head, component, lane), transposes and narrows the output weight and
  gives the bias a leading unit axis.

  Part 1 names each result as one term of the stretch's inputs, for every float instance and any contents of the buffers
  before the stretch. Part 2 reads those terms at an index over the extended reals: the prepared weight at (c, (h, t, d)) is
  the stacked weight's row (t, h, d) at column c, times the scale when t is the query component.
-/
import proofs.«430483_j63471026700747_3_alg».proof.Proof.Gen.KernelIdeal.Launch
import proofs.«430483_j63471026700747_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

noncomputable section

namespace Cert.KernelIdeal.HostValue

open Idealize.ShloMosaic Idealize.ShloMosaic.ValueIdx Cert.KernelIdeal Cert.KernelIdeal.Gen AttnSpec

/-! ## The stretches' results as terms of their inputs -/

section Generic
variable {F : FTy → Type} [FloatOps F]

/-- The prepared weight as one term of the stacked weight: the first stretch's eleven operations composed. -/
def wprep (w : Vec F S2304x768 .f32) : Vec F S768x2304 .bf16 :=
  truncf .bf16
    (transpose S768x2304 [1, 0]
      (shapeCast S2304x768
        (transpose S12x3x64x768 [1, 0, 2, 3]
          (shapeCast S3x12x64x768
            (concatenate S2304x768 0
              [⟨S768x768, mulf (extractStridedSlice S768x768 ![0, 0] w slices_S2304x768_S768x768_0_0)
                  (broadcastInDim S768x768 ![] bcast_S_S768x768 (constant S_ .f32 0x3E000000#32))⟩,
               ⟨S768x768, extractStridedSlice S768x768 ![768, 0] w slices_S2304x768_S768x768_768_0⟩,
               ⟨S768x768, extractStridedSlice S768x768 ![1536, 0] w slices_S2304x768_S768x768_1536_0⟩]
              concatenates_S768x768_S768x768_S768x768_S2304x768_d0)
            shapeCasts_S2304x768_S3x12x64x768)
          transposes_S3x12x64x768_S12x3x64x768_1_0_2_3)
        shapeCasts_S12x3x64x768_S2304x768)
      transposes_S2304x768_S768x2304_1_0)
    bitsLt_bf16_f32

/-- After the first stretch the prepared-weight array holds `wprep` of the stacked weight. -/
theorem v10_eq (W : Valuation τ sig (Elt F)) :
    StableHlo.after hostOps0 W (Proc.devRef .tc main_v10) = wprep (W (Proc.devRef .tc main_arg1)) := by
  unfold wprep
  show StableHlo.after hostOps0 W (Proc.devRef .tc main_v10) = _
  after_results <;> rfl

/-- After the second stretch the regrouped projection is the projection's reshape. -/
theorem v12_eq (W : Valuation τ sig (Elt F)) :
    StableHlo.after hostOps1 W (Proc.devRef .tc main_v12)
      = shapeCast S8x1024x12x3x64 (W (Proc.devRef .tc main_v11)) shapeCasts_S8x1024x2304_S8x1024x12x3x64 := by
  show StableHlo.after hostOps1 W (Proc.devRef .tc main_v12) = _
  after_results <;> rfl

/-- After the second stretch the output weight is transposed and narrowed. -/
theorem v14_eq (W : Valuation τ sig (Elt F)) :
    StableHlo.after hostOps1 W (Proc.devRef .tc main_v14)
      = truncf .bf16 (transpose S768x768 [1, 0] (W (Proc.devRef .tc main_arg2)) transposes_S768x768_S768x768_1_0) bitsLt_bf16_f32 := by
  show StableHlo.after hostOps1 W (Proc.devRef .tc main_v14) = _
  after_results <;> rfl

/-- After the second stretch the bias has a leading unit axis. -/
theorem v15_eq (W : Valuation τ sig (Elt F)) :
    StableHlo.after hostOps1 W (Proc.devRef .tc main_v15)
      = shapeCast S1x768 (W (Proc.devRef .tc main_arg3)) shapeCasts_S768_S1x768 := by
  show StableHlo.after hostOps1 W (Proc.devRef .tc main_v15) = _
  after_results <;> rfl

end Generic

/-! ## The layout steps of the weight's preparation, each read at an index

Result column `h * 192 + t * 64 + d` of the transposed 768 × 2304 array is row (h, t, d) of the 12 × 3 × 64 × 768 array, which
is row (t, h, d) of the 3 × 12 × 64 × 768 one, which is row `t * 768 + h * 64 + d` of the stacked 2304 × 768 array: a row of its
piece `t`, at `h * 64 + d` inside the piece. -/

section Steps
variable {α : Type}

/-- The 12 × 3 × 64 row groups flattened to 2304 rows: row `colK h t d` is group (h, t, d). -/
theorem flatten_rows_apply (X : S12x3x64x768.Idx → α) (h : Fin 12) (t : Fin 3) (d : Fin 64) (c : Fin 768) :
    shapeCast S2304x768 X shapeCasts_S12x3x64x768_S2304x768 (ix2 (colK h t d) c) = X (ix4 h t d c) :=
  shapeCast_apply X _ _ _ (by
    rw [Shape.rowMajor_val_four, Shape.rowMajor_val_two]
    show ((h.val * 3 + t.val) * 64 + d.val) * 768 + c.val = (h.val * 192 + t.val * 64 + d.val) * 768 + c.val
    omega)

/-- Component and head swapped: group (h, t, d) of the result is group (t, h, d) of the operand. -/
theorem swap_groups_apply (X : S3x12x64x768.Idx → α) (h : Fin 12) (t : Fin 3) (d : Fin 64) (c : Fin 768) :
    transpose S12x3x64x768 [1, 0, 2, 3] X transposes_S3x12x64x768_S12x3x64x768_1_0_2_3 (ix4 h t d c) = X (ix4 t h d c) :=
  transpose_apply _ X _ _ _ fun b => match b with | ⟨0, _⟩ => rfl | ⟨1, _⟩ => rfl | ⟨2, _⟩ => rfl | ⟨3, _⟩ => rfl

/-- The 2304 rows grouped as 3 × 12 × 64: group (t, h, d) is row `rowR t h d`. -/
theorem group_rows_apply (X : S2304x768.Idx → α) (t : Fin 3) (h : Fin 12) (d : Fin 64) (c : Fin 768) :
    shapeCast S3x12x64x768 X shapeCasts_S2304x768_S3x12x64x768 (ix4 t h d c) = X (ix2 (rowR t h d) c) :=
  shapeCast_apply X _ _ _ (by
    rw [Shape.rowMajor_val_four, Shape.rowMajor_val_two]
    show (t.val * 768 + h.val * 64 + d.val) * 768 + c.val = ((t.val * 12 + h.val) * 64 + d.val) * 768 + c.val
    omega)

/-- Three 768-row blocks stacked: row `k * 768 + r` of the stack is row `r` of block `k`. -/
theorem stack_apply (x0 x1 x2 : S768x768.Idx → α) (R : Fin 2304) (r c : Fin 768) :
    (R.val = r.val →
      concatenate S2304x768 0 [⟨S768x768, x0⟩, ⟨S768x768, x1⟩, ⟨S768x768, x2⟩]
        concatenates_S768x768_S768x768_S768x768_S2304x768_d0 (ix2 R c) = x0 (ix2 r c)) ∧
    (R.val = 768 + r.val →
      concatenate S2304x768 0 [⟨S768x768, x0⟩, ⟨S768x768, x1⟩, ⟨S768x768, x2⟩]
        concatenates_S768x768_S768x768_S768x768_S2304x768_d0 (ix2 R c) = x1 (ix2 r c)) ∧
    (R.val = 1536 + r.val →
      concatenate S2304x768 0 [⟨S768x768, x0⟩, ⟨S768x768, x1⟩, ⟨S768x768, x2⟩]
        concatenates_S768x768_S768x768_S768x768_S2304x768_d0 (ix2 R c) = x2 (ix2 r c)) := by
  have hi : ∀ b : Fin S768x768.rank, b.cast (rfl : S768x768.rank = S2304x768.rank) ≠ (0 : Fin S2304x768.rank) →
      ((ix2 r c : S768x768.Idx) b).val = ((ix2 R c : S2304x768.Idx) (b.cast rfl)).val := fun b hb =>
    match b, hb with
    | ⟨0, _⟩, hb => absurd rfl hb
    | ⟨1, _⟩, _ => rfl
  refine ⟨fun hR => ?_, fun hR => ?_, fun hR => ?_⟩
  · exact concatenate_apply_piece (0 : Fin S2304x768.rank) _ _ _ 0 (by simp) S768x768 x0 rfl rfl 0 rfl (ix2 r c) hi
      (by show 0 + r.val = R.val; omega)
  · exact concatenate_apply_piece (0 : Fin S2304x768.rank) _ _ _ 1 (by simp) S768x768 x1 rfl rfl 768 rfl (ix2 r c) hi
      (by show 768 + r.val = R.val; omega)
  · exact concatenate_apply_piece (0 : Fin S2304x768.rank) _ _ _ 2 (by simp) S768x768 x2 rfl rfl 1536 rfl (ix2 r c) hi
      (by show 1536 + r.val = R.val; omega)

end Steps

/-! ## The results read at an index, over the extended reals -/

/-- The prepared weight at row `c`, column (h, t, d): the stacked weight's row (t, h, d) at column `c`, scaled by one eighth
    on the query rows. -/
theorem wprep_apply (w : Vec Ideal S2304x768 .f32) (c : Fin 768) (h : Fin 12) (t : Fin 3) (d : Fin 64) :
    wprep (F := Ideal) w (ix2 c (colK h t d)) = wK (fun j c' => w (ix2 j c')) s0 c h t d := by
  unfold wprep
  refine (truncf_apply (φ := .f32) (ψ := .bf16) _ bitsLt_bf16_f32 _).trans ?_
  refine (transpose_ix2_apply _ _ c (colK h t d)).trans ?_
  refine (flatten_rows_apply _ h t d c).trans ?_
  refine (swap_groups_apply _ h t d c).trans ?_
  refine (group_rows_apply _ t h d c).trans ?_
  unfold wK
  match t with
  | ⟨0, _⟩ =>
    rw [if_pos rfl]
    refine ((stack_apply _ _ _ _ (chan h d) c).1 (by show 0 * 768 + h.val * 64 + d.val = h.val * 64 + d.val; omega)).trans ?_
    refine (mulf_apply _ _ _).trans ?_
    rw [slice2_axis0_apply 0 w slices_S2304x768_S768x768_0_0 (chan h d) c (rowR ⟨0, by omega⟩ h d)
      (by show 0 * 768 + h.val * 64 + d.val = 0 + (h.val * 64 + d.val); omega)]
    rw [broadcastInDim_scalar_apply]
    rfl
  | ⟨1, _⟩ =>
    rw [if_neg (Nat.succ_ne_zero 0)]
    refine ((stack_apply _ _ _ _ (chan h d) c).2.1 (by show 1 * 768 + h.val * 64 + d.val = 768 + (h.val * 64 + d.val); omega)).trans ?_
    exact slice2_axis0_apply 768 w slices_S2304x768_S768x768_768_0 (chan h d) c _
      (by show 1 * 768 + h.val * 64 + d.val = 768 + (h.val * 64 + d.val); omega)
  | ⟨2, _⟩ =>
    rw [if_neg (Nat.succ_ne_zero 1)]
    refine ((stack_apply _ _ _ _ (chan h d) c).2.2 (by show 2 * 768 + h.val * 64 + d.val = 1536 + (h.val * 64 + d.val); omega)).trans ?_
    exact slice2_axis0_apply 1536 w slices_S2304x768_S768x768_1536_0 (chan h d) c _
      (by show 2 * 768 + h.val * 64 + d.val = 1536 + (h.val * 64 + d.val); omega)

/-- The regrouped projection at (b, n, h, t, d) is the projection at column (h, t, d). -/
theorem v12_apply (a : Vec Ideal S8x1024x2304 .bf16) (b : Fin 8) (n : Fin 1024) (h : Fin 12) (t : Fin 3) (d : Fin 64) :
    shapeCast S8x1024x12x3x64 a shapeCasts_S8x1024x2304_S8x1024x12x3x64 (ix5 b n h t d) = a (ix3 b n (colK h t d)) :=
  shapeCast_apply a _ _ _ (by
    rw [Shape.rowMajor_val_three, Shape.rowMajor_val_five]
    show (b.val * 1024 + n.val) * 2304 + (h.val * 192 + t.val * 64 + d.val)
      = (((b.val * 1024 + n.val) * 12 + h.val) * 3 + t.val) * 64 + d.val
    omega)

/-- The transposed, narrowed output weight at (k, j) is the output weight at (j, k). -/
theorem v14_apply (a : Vec Ideal S768x768 .f32) (k j : Fin 768) :
    (truncf (F := Ideal) .bf16 (transpose S768x768 [1, 0] a transposes_S768x768_S768x768_1_0) bitsLt_bf16_f32 : Vec Ideal S768x768 .bf16) (ix2 k j)
      = a (ix2 j k) :=
  (truncf_apply (φ := .f32) (ψ := .bf16) _ bitsLt_bf16_f32 _).trans (transpose_ix2_apply a _ k j)

/-- The bias under its leading unit axis. -/
theorem v15_apply (a : Vec Ideal S768 .f32) (j : Fin 768) :
    shapeCast S1x768 a shapeCasts_S768_S1x768 (ix2 0 j) = a (ix1 j) :=
  shapeCast_a_1a_apply a _ 0 j

end Cert.KernelIdeal.HostValue

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.Val0.lean ====
/-
  What the projection call leaves in its output array, entry by entry.

  The call walks an 8 × 4 grid. At the point (b, i) it holds rows 256·i … 256·i + 255 of batch b of the activations and
  the whole prepared weight, and writes their matrix product over the same rows of batch b of the output. The blocks
  of the 32 points tile the output, so the array ends holding, at (b, n, j), the sum over k of x[b, n, k] · w[k, j].
-/
import proofs.«430483_j63471026700747_3_alg».proof.Proof.KernelIdeal.Region0
import proofs.«430483_j63471026700747_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val0

open Idealize.ShloMosaic Idealize.ShloMosaic.ValueIdx Cert.KernelIdeal Cert.KernelIdeal.Gen Cert.KernelIdeal.Hand
open Idealize.ShloMosaic.TcCoe
open Idealize.ShloMosaic.Pipeline (Dat)

/-! ## The specification -/

/-- The projection: entry (b, n, j) is the product of row n of batch b of the activations with column j of the weight. -/
def qkvSpec (x : Vec Ideal S8x1024x768 .f32) (wt : Vec Ideal S768x2304 .bf16) : Vec Ideal S8x1024x2304 .bf16 :=
  fun i => ∑ k : Fin 768, x (ix3 (i 0) (i 1) k) * wt (ix2 k (i 2))

theorem qkvSpec_apply (x : Vec Ideal S8x1024x768 .f32) (wt : Vec Ideal S768x2304 .bf16) (b : Fin 8) (n : Fin 1024) (j : Fin 2304) :
    qkvSpec x wt (ix3 b n j) = ∑ k : Fin 768, x (ix3 b n k) * wt (ix2 k j) := rfl

/-! ## The body's product at an entry -/

/-- The printed dimension numbers are those of a plain matrix product. -/
theorem plain_dims : PlainDot.IsPlain (M := 256) (K := 768) (N := 2304) dot_S256x768_S768x2304_S256x2304_1_0_0_1_n_n :=
  ⟨rfl, rfl, rfl, rfl, rfl, rfl⟩

/-- The block the body stores, at row r and column j: the unit axis is dropped from the activations' block, both
    roundings are the identity on the extended reals, and the product into the zero accumulator is the plain sum. -/
theorem pay_apply (x0 : Vec Ideal S1x256x768 .f32) (x1 : Vec Ideal S768x2304 .bf16) (r : Fin 256) (j : Fin 2304) :
    k0_pay1 (F := Ideal) x0 x1 (ix3 (0 : Fin 1) r j) = ∑ k : Fin 768, x0 (ix3 (0 : Fin 1) r k) * x1 (ix2 k j) := by
  unfold k0_pay1
  refine (shapeCast_ab_1ab_apply _ _ (0 : Fin 1) r j).trans ?_
  refine (PlainDot.matmul_zero_apply _ plain_dims none _ _ r j).trans ?_
  refine Finset.sum_congr rfl fun k _ => ?_
  rw [shapeCast_self]
  exact congrArg (· * x1 (ix2 k j)) (shapeCast_1ab_ab_apply x0 _ r k)

/-! ## The grid's index maps -/

variable (V : (c : Dev nD) → (b : Ref sig .tc) → Buf (Elt Ideal) ((c : Thread nD τ).loc b))

/-- The activations and the prepared weight as the call finds them. -/
abbrev xarr (c : Dev nD) : Vec Ideal S8x1024x768 .f32 := V c main_arg0
abbrev warr (c : Dev nD) : Vec Ideal S768x2304 .bf16 := V c main_v10

theorem zero3 : (![0, 0, 0] : Fin 3 → Nat) = fun _ => 0 := funext fun a => by fin_cases a <;> rfl
theorem zero2 : (![0, 0] : Fin 2 → Nat) = fun _ => 0 := funext fun a => by fin_cases a <;> rfl

theorem points : cfg0.N = 32 := by decide

/-- Point t of the 8 × 4 grid is (t / 4, t % 4): the activations' and the output's block indices are (t / 4, t % 4, 0),
    the weight's is (0, 0). -/
theorem index_maps : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0 :=
  (by decide +kernel : ∀ t : Fin grid0.N, _)

/-! ## The input blocks as parts of their arrays -/

/-- The activations' block at point t is rows 256 · (t % 4) … of batch t / 4. -/
theorem xblk_apply (c : Dev nD) (t : Fin cfg0.N) (y : S1x256x768.Idx) (i : S8x1024x768.Idx)
    (h0 : (i 0).val = t.val / 4) (h1 : (i 1).val = t.val % 4 * 256 + (y 1).val) (h2 : (i 2).val = (y 2).val) :
    (iblk0 V c 0 t : Vec Ideal S1x256x768 .f32) y = xarr V c i := by
  obtain ⟨e0, e1, e2, -⟩ := index_maps t
  unfold iblk0
  rw [View.read_apply]
  show V c main_arg0 _ = V c main_arg0 _
  congr 1
  funext a
  apply Fin.ext
  match a with
  | ⟨0, _⟩ => show win0_0.index t (0 : Fin 3) * 1 + 1 * (y 0).val = (i 0).val; have hy : (y 0).val < 1 := (y 0).isLt; omega
  | ⟨1, _⟩ => show win0_0.index t (1 : Fin 3) * 256 + 1 * (y 1).val = (i 1).val; omega
  | ⟨2, _⟩ => show win0_0.index t (2 : Fin 3) * 768 + 1 * (y 2).val = (i 2).val; omega

/-- The weight's block is the whole weight at every point. -/
theorem wblk_apply (c : Dev nD) (t : Fin cfg0.N) (y : S768x2304.Idx) :
    (iblk0 V c 1 t : Vec Ideal S768x2304 .bf16) y = warr V c y := by
  obtain ⟨-, -, -, e0, e1, -⟩ := index_maps t
  unfold iblk0
  rw [View.read_apply]
  show V c main_v10 _ = V c main_v10 _
  congr 1
  funext a
  apply Fin.ext
  match a with
  | ⟨0, _⟩ => show win0_1.index t (0 : Fin 2) * 768 + 1 * (y 0).val = (y 0).val; omega
  | ⟨1, _⟩ => show win0_1.index t (1 : Fin 2) * 2304 + 1 * (y 1).val = (y 1).val; omega

/-! ## What a point writes back -/

/-- A block of 256 rows whose activations are rows 256 · q … of batch b and whose weight is the whole weight holds, at
    each of its entries, the projection at the entry's place in the array. -/
theorem block_entry (x0 : Vec Ideal S1x256x768 .f32) (x1 : Vec Ideal S768x2304 .bf16)
    (x : Vec Ideal S8x1024x768 .f32) (wt : Vec Ideal S768x2304 .bf16) (b q : Nat)
    (hx0 : ∀ (y : S1x256x768.Idx) (i : S8x1024x768.Idx), (i 0).val = b → (i 1).val = q * 256 + (y 1).val →
      (i 2).val = (y 2).val → x0 y = x i)
    (hx1 : ∀ y : S768x2304.Idx, x1 y = wt y)
    (y : S1x256x2304.Idx) (i : S8x1024x2304.Idx)
    (h0 : (i 0).val = b) (h1 : (i 1).val = q * 256 + (y 1).val) (h2 : (i 2).val = (y 2).val) :
    k0_pay1 (F := Ideal) x0 x1 y = qkvSpec x wt i := by
  obtain ⟨u, r, j, rfl⟩ : ∃ (u : Fin 1) (r : Fin 256) (j : Fin 2304), y = ix3 u r j := ⟨y 0, y 1, y 2, eq_ix3 y⟩
  obtain rfl : u = 0 := Subsingleton.elim _ _
  obtain ⟨bb, n, jj, rfl⟩ : ∃ (bb : Fin 8) (n : Fin 1024) (jj : Fin 2304), i = ix3 bb n jj := ⟨i 0, i 1, i 2, eq_ix3 i⟩
  obtain rfl : jj = j := Fin.ext h2
  rw [pay_apply, qkvSpec_apply]
  refine Finset.sum_congr rfl fun k _ => ?_
  rw [hx0 (ix3 (0 : Fin 1) r k) (ix3 bb n k) h0 h1 rfl, hx1]

/-- WHAT POINT t WRITES BACK is its block of the projection of the arrays as the call finds them. -/
theorem flushed_eq (c : Dev nD) (t : Fin cfg0.N) :
    (dat0 (F := Ideal) V c).flushed 2 t
      = ((cfg0.win 2).blk t).view.read (Elt Ideal) (qkvSpec (xarr V c) (warr V c)) := by
  show (cfg0.win 2).cut (grid0.coords t) ((dat0 (F := Ideal) V c).after 2 t) = _
  rw [after0_2]
  unfold out0_2
  rw [View.canon_unit_zero zero3]
  simp only [View.ld_unit_zero (S := S1x256x768) zero3, View.ld_unit_zero (S := S768x2304) zero2]
  obtain ⟨-, -, -, -, -, e0, e1, e2⟩ := index_maps t
  funext y
  show k0_pay1 (F := Ideal) (iblk0 V c 0 t) (iblk0 V c 1 t) y
    = qkvSpec (xarr V c) (warr V c) (((cfg0.win 2).blk t).view.emb y)
  refine block_entry (iblk0 V c 0 t) (iblk0 V c 1 t) (xarr V c) (warr V c) (t.val / 4) (t.val % 4)
    (fun y i h0 h1 h2 => xblk_apply V c t y i h0 h1 h2) (fun y => wblk_apply V c t y) y _ ?_ ?_ ?_
  · show win0_2.index t (0 : Fin 3) * 1 + 1 * (y 0).val = t.val / 4
    have hy : (y 0).val < 1 := (y 0).isLt
    omega
  · show win0_2.index t (1 : Fin 3) * 256 + 1 * (y 1).val = t.val % 4 * 256 + (y 1).val
    omega
  · show win0_2.index t (2 : Fin 3) * 2304 + 1 * (y 2).val = (y 2).val
    omega

/-! ## The blocks tile the output -/

/-- An index of the output is in point t's block iff each coordinate is in the block's range on its axis. -/
theorem mem_blk (t : Fin cfg0.N) (i : S8x1024x2304.Idx) :
    i ∈ ((cfg0.win 2).blk t).view.set ↔ ∀ a : Fin 3, win0_2.index t a * S1x256x2304.size a ≤ (i a).val
      ∧ (i a).val < win0_2.index t a * S1x256x2304.size a + S1x256x2304.size a := by
  show i ∈ ((View.whole main_v11).slice (win0_2.rect t)).set ↔ _
  rw [View.set_slice_whole, Rect.mem_set_unit]
  exact Iff.rfl

/-- Row n of batch b lies in the block of the point 4 · b + n / 256, and every point writes back. -/
theorem covered (i : S8x1024x2304.Idx) :
    ∃ t : Fin cfg0.N, (cfg0.win 2).flush t = true ∧ i ∈ ((cfg0.win 2).blk t).view.set := by
  have hb : (i 0).val < 8 := (i 0).isLt
  have hn : (i 1).val < 1024 := (i 1).isLt
  have hj : (i 2).val < 2304 := (i 2).isLt
  obtain ⟨t, ht⟩ : ∃ t : Fin cfg0.N, t.val = (i 0).val * 4 + (i 1).val / 256 :=
    ⟨⟨(i 0).val * 4 + (i 1).val / 256, by rw [points]; omega⟩, rfl⟩
  obtain ⟨-, -, -, -, -, e0, e1, e2⟩ := index_maps t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 2304 ≤ (i 2).val ∧ (i 2).val < win0_2.index t (2 : Fin 3) * 2304 + 2304
    omega

/-! ## The output array after the call -/

/-- THE ARRAY after the call: the projection of the activations by the prepared weight, entry by entry. -/
theorem final0_2 (c : Dev nD) :
    (dat0 (F := Ideal) V c).arrAt 2 cfg0.N = qkvSpec (V c main_arg0) (V c main_v10) :=
  (dat0 (F := Ideal) V c).arrAt_eq_of_cover 2 (qkvSpec (xarr V c) (warr V c)) (fun t _ => flushed_eq V c t) covered

end Cert.KernelIdeal.Val0

end
-- ==== Proof.Payload1.lean ====
/-
  The second kernel's payloads, read at an index, on the extended reals.

  One grid point of the second kernel handles one head of one batch row. Its block q has shape [1, 1024, 1, 3, 64]:
  token n, then the component (0 the query, 1 the key, 2 the value), then the lane d. The payloads compute
    • the scores  S[n, m] = ∑ d, query[n, d] · key[m, d]          (the key slice is transposed before the product),
    • the row-wise softmax of S: exp (S[n, m] − max over m' of S[n, m']) divided by the sum over m' of those exponentials,
    • the head's contribution  acc[n, j] + ∑ d, (∑ m, softmax[n, m] · value[m, d]) · wb[d, j],
    • the zero block that starts the accumulation, and the last step that adds the bias row.
  On the extended reals a change of float format is the identity and a matrix product into a zero accumulator is a plain
  sum, so every payload read at an index is the closed expression above.
-/
import proofs.«430483_j63471026700747_3_alg».proof.Proof.Gen.KernelIdeal.Skeleton
import proofs.«430483_j63471026700747_3_alg».proof.Proof.Spec
import proofs.«430483_j63471026700747_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx Cert.KernelIdeal Cert.KernelIdeal.Gen AttnSpec

/-! ## Layout operations of the shapes met here, read at coordinates -/

section Layout
variable {α : Type}

/-- A `[1, a, 1, b, c]` block viewed as `[a, b, c]` reads, at `(i, t, d)`, the block at `(0, i, 0, t, d)`: both indices
    have the row-major position `(i · b + t) · c + d`. -/
theorem shapeCast_1a1bc_abc_apply {a b c : ℕ} (x : (⟨5, ![1, a, 1, b, c]⟩ : Shape).Idx → α)
    (h : (⟨5, ![1, a, 1, b, c]⟩ : Shape).ShapeCasts ⟨3, ![a, b, c]⟩) (i : Fin a) (t : Fin b) (d : Fin c) :
    shapeCast ⟨3, ![a, b, c]⟩ x h (ix3 i t d) = x (ix5 (0 : Fin 1) i (0 : Fin 1) t d) :=
  shapeCast_apply x h _ _ (by
    rw [Shape.rowMajor_val_five, Shape.rowMajor_val_three]
    show (((0 * a + i.val) * 1 + 0) * b + t.val) * c + d.val = (i.val * b + t.val) * c + d.val
    rw [Nat.zero_mul, Nat.zero_add, Nat.mul_one, Nat.add_zero])

/-- An `[a, 1, c]` array viewed as `[a, c]` reads, at `(i, d)`, the array at `(i, 0, d)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (d : Fin c) :
    shapeCast ⟨2, ![a, c]⟩ x h (ix2 i d) = x (ix3 i (0 : Fin 1) d) :=
  shapeCast_apply x h _ _ (by
    rw [Shape.rowMajor_val_three, Shape.rowMajor_val_two]
    show (i.val * 1 + 0) * c + d.val = i.val * c + d.val
    rw [Nat.mul_one, Nat.add_zero])

/-- A vector `[a]` viewed as a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b]` array viewed as `[1, 1, a, b]` reads, at `(u, w, i, j)`, the array at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

end Layout

/-! ## The head's block: the three components -/

/-- The block viewed as `[1024, 3, 64]` reads, at `(n, t, d)`, the block at token `n`, component `t`, lane `d`. -/
theorem pay4_apply (q : Vec Ideal S1x1024x1x3x64 .bf16) (n : Fin 1024) (t : Fin 3) (d : Fin 64) :
    k1_pay4 (F := Ideal) q (ix3 n t d) = q (ix5 0 n 0 t d) := by
  unfold k1_pay4
  exact shapeCast_1a1bc_abc_apply q _ n t d

/-- Component `o` of the block as a `[1024, 64]` matrix: the slice of the `[1024, 3, 64]` view at offset `o` on the component
    axis, with that axis dropped. -/
def comp (o : ℕ) (h : S1024x3x64.Slices ![0, o, 0] S1024x1x64) (q : Vec Ideal S1x1024x1x3x64 .bf16) : FVec Ideal S1024x64 .bf16 :=
  shapeCast S1024x64 (extractStridedSlice S1024x1x64 ![0, o, 0] (k1_pay4 (F := Ideal) q) h) shapeCasts_S1024x1x64_S1024x64

/-- Component `t` at `(n, d)` is the block at token `n`, component `t`, lane `d`. -/
theorem comp_apply (o : ℕ) (h : S1024x3x64.Slices ![0, o, 0] S1024x1x64) (q : Vec Ideal S1x1024x1x3x64 .bf16)
    (t : Fin 3) (ht : t.val = o) (n : Fin 1024) (d : Fin 64) : comp o h q (ix2 n d) = q (ix5 0 n 0 t d) := by
  unfold comp
  refine (shapeCast_a1c_ac_apply _ _ n d).trans ?_
  refine (slice3_axis1_apply o _ h n (0 : Fin 1) d t (by rw [ht]; rfl)).trans ?_
  exact pay4_apply q n t d

/-! ## The scores -/

theorem plain_qk : PlainDot.IsPlain dot_S1024x64_S64x1024_S1024x1024_1_0_0_1_n_n := ⟨rfl, rfl, rfl, rfl, rfl, rfl⟩
theorem plain_av : PlainDot.IsPlain dot_S1024x1024_S1024x64_S1024x64_1_0_0_1_n_n := ⟨rfl, rfl, rfl, rfl, rfl, rfl⟩
theorem plain_ow : PlainDot.IsPlain dot_S1024x64_S64x768_S1024x768_1_0_0_1_n_n := ⟨rfl, rfl, rfl, rfl, rfl, rfl⟩

/-- The scores: the query times the transposed key, into a zero accumulator. -/
def scores (q : Vec Ideal S1x1024x1x3x64 .bf16) : FVec Ideal S1024x1024 .f32 :=
  matmul dot_S1024x64_S64x1024_S1024x1024_1_0_0_1_n_n none (comp 0 slices_S1024x3x64_o0_0_0_S1024x1x64 q)
    (transpose S64x1024 [1, 0] (comp 1 slices_S1024x3x64_o0_1_0_S1024x1x64 q) transposes_S1024x64_p1_0_S64x1024)
    (constant S1024x1024 .f32 0x00000000#32)

/-- The score of query token `n` against key token `m` is the sum over the lanes of query times key. -/
theorem scores_apply (q : Vec Ideal S1x1024x1x3x64 .bf16) (n m : Fin 1024) :
    scores q (ix2 n m) = ∑ d : Fin 64, q (ix5 0 n 0 0 d) * q (ix5 0 m 0 1 d) := by
  unfold scores
  refine (PlainDot.matmul_zero_apply _ plain_qk none _ _ n m).trans ?_
  refine Finset.sum_congr rfl fun d _ => ?_
  rw [comp_apply 0 _ q 0 rfl n d, transpose_ix2_apply, comp_apply 1 _ q 1 rfl m d]

/-! ## The row maximum, the exponentials, the row sum -/

/-- The word `0xFF800000` is minus infinity. -/
theorem ofBits_neg_inf : Ideal.ofBits .f32 0xFF800000#32 = ⊥ := by simp [Ideal.ofBits, Ideal.ieee]

/-- Row `n` of a `[1024, 1024]` matrix with the column coordinate `k` put back is the index `(n, k)`. -/
theorem lift_row (h : S1024x1024.Reduces [1] S1024) (n k : Fin 1024) : h.lift (ix1 n) k = ix2 n k := by
  funext a
  match a with
  | ⟨0, _⟩ => exact Fin.ext rfl
  | ⟨1, _⟩ => exact Fin.ext rfl

/-- A row-wise maximum of a `[1024, 1024]` matrix from minus infinity, kept as a column and broadcast back over the row:
    at `(n, m)` it is the maximum of row `n`. -/
theorem rowMaxB_apply (X : FVec Ideal S1024x1024 .f32) (n m : Fin 1024) :
    broadcastTo S1024x1024
        (shapeCast S1024x1 (multiReduction .maximumf [1] S1024 X 0xFF800000#32 reduces_S1024x1024_S1024 (.inl rfl) rfl)
          shapeCasts_S1024_S1024x1)
        broadcasts_S1024x1_S1024x1024 (ix2 n m)
      = rowMax fun m' => X (ix2 n m') := by
  refine (broadcastTo_a1_ab_apply _ _ n m).trans ?_
  refine (shapeCast_a_a1_apply _ _ n 0).trans ?_
  refine (Ideal.multiReduction_maximumf_single X 0xFF800000#32 reduces_S1024x1024_S1024 (.inl rfl) rfl (ix1 n)).trans ?_
  unfold rowMax
  rw [show FloatOps.ofBits (F := Ideal) .f32 0xFF800000#32 = (⊥ : EReal) from ofBits_neg_inf]
  exact congrArg (fun f => (Finset.univ : Finset (Fin 1024)).fold max ⊥ f) (funext fun k => congrArg X (lift_row _ n k))

/-- A row-wise sum of a `[1024, 1024]` matrix from zero, kept as a column and broadcast back over the row: at `(n, m)` it is
    the sum of row `n`. -/
theorem rowSumB_apply (X : FVec Ideal S1024x1024 .f32) (n m : Fin 1024) :
    broadcastTo S1024x1024
        (shapeCast S1024x1 (multiReduction .add [1] S1024 X 0x00000000#32 reduces_S1024x1024_S1024 (.inl rfl) rfl)
          shapeCasts_S1024_S1024x1)
        broadcasts_S1024x1_S1024x1024 (ix2 n m)
      = ∑ m' : Fin 1024, X (ix2 n m') := by
  refine (broadcastTo_a1_ab_apply _ _ n m).trans ?_
  refine (shapeCast_a_a1_apply _ _ n 0).trans ?_
  refine (Ideal.multiReduction_add_single X 0x00000000#32 reduces_S1024x1024_S1024 (.inl rfl) rfl (ix1 n)).trans ?_
  exact Finset.sum_congr rfl fun k _ => congrArg X (lift_row _ n k)

/-- The exponentials: `exp (S − row maximum of S)`. -/
def expo (q : Vec Ideal S1x1024x1x3x64 .bf16) : FVec Ideal S1024x1024 .f32 :=
  exp (subf (scores q)
    (broadcastTo S1024x1024
      (shapeCast S1024x1 (multiReduction .maximumf [1] S1024 (scores q) 0xFF800000#32 reduces_S1024x1024_S1024 (.inl rfl) rfl)
        shapeCasts_S1024_S1024x1)
      broadcasts_S1024x1_S1024x1024))

theorem expo_apply (q : Vec Ideal S1x1024x1x3x64 .bf16) (n m : Fin 1024) :
    expo q (ix2 n m) = Ideal.exp (scores q (ix2 n m) - rowMax fun m' => scores q (ix2 n m')) := by
  unfold expo
  show Ideal.exp (subf (scores q) _ (ix2 n m)) = _
  rw [subf_apply, rowMaxB_apply]

/-- The softmax payload is the exponentials divided by their row sums. -/
theorem pay5_eq (q : Vec Ideal S1x1024x1x3x64 .bf16) :
    k1_pay5 (F := Ideal) q
      = divf (expo q)
          (broadcastTo S1024x1024
            (shapeCast S1024x1 (multiReduction .add [1] S1024 (expo q) 0x00000000#32 reduces_S1024x1024_S1024 (.inl rfl) rfl)
              shapeCasts_S1024_S1024x1)
            broadcasts_S1024x1_S1024x1024) := rfl

/-- THE SOFTMAX PAYLOAD at `(n, m)`: the softmax over the key tokens of the scores of query token `n`, at key token `m`. -/
theorem pay5_apply (q : Vec Ideal S1x1024x1x3x64 .bf16) (n m : Fin 1024) :
    k1_pay5 (F := Ideal) q (ix2 n m)
      = softmax (fun m' : Fin 1024 => ∑ d : Fin 64, q (ix5 0 n 0 0 d) * q (ix5 0 m' 0 1 d)) m := by
  have hs : (fun m' : Fin 1024 => scores q (ix2 n m')) = fun m' => ∑ d : Fin 64, q (ix5 0 n 0 0 d) * q (ix5 0 m' 0 1 d) :=
    funext fun m' => scores_apply q n m'
  rw [pay5_eq, divf_apply, rowSumB_apply, expo_apply]
  unfold softmax
  rw [← hs]
  refine congrArg (Ideal.div _) (Finset.sum_congr rfl fun m' _ => ?_)
  exact expo_apply q n m'

/-! ## The stored attention weights -/

/-- The attention block `[1, 1, 1024, 1024]` the kernel stores is the softmax payload with two unit axes in front. -/
theorem pay6_apply (q : Vec Ideal S1x1024x1x3x64 .bf16) (n m : Fin 1024) :
    k1_pay6 (F := Ideal) q (ix4 0 0 n m) = k1_pay5 (F := Ideal) q (ix2 n m) := by
  unfold k1_pay6
  exact shapeCast_ab_11ab_apply _ _ 0 0 n m

/-! ## The head's contribution to the output -/

/-- The weights times the values: at `(n, d)`, the sum over the key tokens of the softmax weight times the value. -/
def av (q : Vec Ideal S1x1024x1x3x64 .bf16) : FVec Ideal S1024x64 .f32 :=
  matmul dot_S1024x1024_S1024x64_S1024x64_1_0_0_1_n_n none (truncf .bf16 (k1_pay5 (F := Ideal) q) bitsLt_bf16_f32)
    (comp 2 slices_S1024x3x64_o0_2_0_S1024x1x64 q) (constant S1024x64 .f32 0x00000000#32)

theorem av_apply (q : Vec Ideal S1x1024x1x3x64 .bf16) (n : Fin 1024) (d : Fin 64) :
    av q (ix2 n d) = ∑ m : Fin 1024, k1_pay5 (F := Ideal) q (ix2 n m) * q (ix5 0 m 0 2 d) := by
  unfold av
  refine (PlainDot.matmul_zero_apply _ plain_av none _ _ n d).trans ?_
  refine Finset.sum_congr rfl fun m _ => ?_
  rw [truncf_apply, comp_apply 2 _ q 2 rfl m d]

/-- The accumulation step is the accumulator plus (weights times values) times the head's rows of the output weight. -/
theorem pay7_eq (q : Vec Ideal S1x1024x1x3x64 .bf16) (acc : Vec Ideal S1024x768 .f32) (wb : Vec Ideal S64x768 .bf16) :
    k1_pay7 (F := Ideal) q acc wb
      = addf acc (matmul dot_S1024x64_S64x768_S1024x768_1_0_0_1_n_n none (truncf .bf16 (av q) bitsLt_bf16_f32)
          (shapeCast S64x768 wb shapeCasts_S64x768_S64x768 : FVec Ideal S64x768 .bf16)
          (constant S1024x768 .f32 0x00000000#32)) := rfl

/-- THE ACCUMULATION PAYLOAD at `(n, j)`. -/
theorem pay7_apply (q : Vec Ideal S1x1024x1x3x64 .bf16) (acc : Vec Ideal S1024x768 .f32) (wb : Vec Ideal S64x768 .bf16)
    (n : Fin 1024) (j : Fin 768) :
    k1_pay7 (F := Ideal) q acc wb (ix2 n j)
      = acc (ix2 n j) + ∑ d : Fin 64, (∑ m : Fin 1024, k1_pay5 (F := Ideal) q (ix2 n m) * q (ix5 0 m 0 2 d)) * wb (ix2 d j) := by
  rw [pay7_eq, addf_apply]
  refine congrArg (acc (ix2 n j) + ·) ?_
  refine (PlainDot.matmul_zero_apply _ plain_ow none _ _ n j).trans ?_
  refine Finset.sum_congr rfl fun d _ => ?_
  rw [truncf_apply, av_apply, shapeCast_self]

/-! ## The zero block, the carried block, the bias step -/

/-- The block that starts the accumulation is zero everywhere. -/
theorem pay3_apply (n : Fin 1024) (j : Fin 768) : k1_pay3 (F := Ideal) (ix2 n j) = 0 := by
  unfold k1_pay3
  rw [shapeCast_self]
  exact Ideal.ofBits_zero_f32

/-- The block carried to the next grid point is the accumulation step's value unchanged. -/
theorem pay1_eq (v : FVec Ideal S1024x768 .f32) : k1_pay1 (F := Ideal) v = v := by
  unfold k1_pay1
  exact shapeCast_self v _

/-- The last step adds the bias row to every row of the accumulator. -/
theorem pay2_apply (acc : Vec Ideal S1024x768 .f32) (bv : Vec Ideal S1x768 .f32) (n : Fin 1024) (j : Fin 768) :
    k1_pay2 (F := Ideal) acc bv (ix3 0 n j) = acc (ix2 n j) + bv (ix2 0 j) := by
  unfold k1_pay2
  refine (shapeCast_ab_1ab_apply _ _ 0 n j).trans ?_
  rw [addf_apply, broadcastTo_1b_ab_apply, shapeCast_self]

end Cert.KernelIdeal.PayloadValue

end
-- ==== Proof.Val1.lean ====
/-
  What the attention call (the second of the two) leaves in its two output arrays, entry by entry, as functions of the
  three arrays it reads.

  Grid point t of the 8 × 12 grid handles batch b = t / 12 and head h = t % 12. Its query / key / value block is the
  slab (b, ·, h, ·, ·) of the packed array, its weight block the head's 64 rows of the transposed output weight, its bias
  block the whole bias row. Every point writes its softmax block back to the slab (b, h, ·, ·) of the attention weights,
  and these slabs tile that array. The accumulator after head k of batch b holds the partial sums
  ((0 + share 0) + share 1) + … + share k of the heads' shares, by induction on k; only the last head of a batch writes
  the output block back, accumulator plus bias, to the slab (b, ·, ·) of the output, and these eight slabs tile it.
-/
import proofs.«430483_j63471026700747_3_alg».proof.Proof.KernelIdeal.Region1
import proofs.«430483_j63471026700747_3_alg».proof.Proof.Payload1
import proofs.«430483_j63471026700747_3_alg».proof.Proof.Spec
import Idealize.ShloMosaic.Lib.Pipeline.Value
import Idealize.ShloMosaic.Lib.ValueIdx
import Idealize.ShloMosaic.Lib.ValueLayout

noncomputable section

open scoped BigOperators

namespace Cert.KernelIdeal.Val1

open Idealize.ShloMosaic Idealize.ShloMosaic.ValueIdx Cert.KernelIdeal Cert.KernelIdeal.Gen Cert.KernelIdeal.Hand Cert.KernelIdeal.PayloadValue AttnSpec
open Idealize.ShloMosaic.TcCoe
open Idealize.ShloMosaic.Pipeline (Dat)

variable (V : (c : Dev nD) → (b : Ref sig .tc) → Buf (Elt Ideal) ((c : Thread nD τ).loc b))

/-- The packed query / key / value array (token, head, component, lane). -/
abbrev qkv5 (c : Dev nD) : Vec Ideal S8x1024x12x3x64 .bf16 := V c main_v12
/-- The transposed output weight (channel, output column). -/
abbrev wT (c : Dev nD) : Vec Ideal S768x768 .bf16 := V c main_v14
/-- The bias row. -/
abbrev bias2 (c : Dev nD) : Vec Ideal S1x768 .f32 := V c main_v15

/-- One head's row of scores: query token `n` against every key token, over the head's 64 lanes. -/
def scoreRow (a : Vec Ideal S8x1024x12x3x64 .bf16) (b : Fin 8) (h : Fin 12) (n : Fin 1024) : Fin 1024 → EReal :=
  fun m' => ∑ d : Fin 64, a (ix5 b n h 0 d) * a (ix5 b m' h 1 d)

/-- Head `k`'s share of output entry (b, n, j): its attention-weighted values against its 64 rows of the weight. -/
def headShare (a : Vec Ideal S8x1024x12x3x64 .bf16) (wt : Vec Ideal S768x768 .bf16) (b : Fin 8) (n : Fin 1024) (j : Fin 768) (k : ℕ) : EReal :=
  if hk : k < 12 then ∑ d : Fin 64, (∑ m : Fin 1024, softmax (scoreRow a b ⟨k, hk⟩ n) m * a (ix5 b m ⟨k, hk⟩ 2 d)) * wt (ix2 (chan ⟨k, hk⟩ d) j) else 0

/-- The five windows' block indices at every point of the 8 × 12 grid: batch = point / 12, head = point % 12. -/
theorem idx_facts : ∀ t : Fin cfg1.N,
    win1_0.index t (0 : Fin 5) = t.val / 12 ∧ win1_0.index t (1 : Fin 5) = 0 ∧ win1_0.index t (2 : Fin 5) = t.val % 12
    ∧ win1_0.index t (3 : Fin 5) = 0 ∧ win1_0.index t (4 : Fin 5) = 0
    ∧ win1_1.index t (0 : Fin 2) = t.val % 12 ∧ win1_1.index t (1 : Fin 2) = 0
    ∧ win1_2.index t (0 : Fin 2) = 0 ∧ win1_2.index t (1 : Fin 2) = 0
    ∧ win1_3.index t (0 : Fin 3) = t.val / 12 ∧ win1_3.index t (1 : Fin 3) = 0 ∧ win1_3.index t (2 : Fin 3) = 0
    ∧ win1_4.index t (0 : Fin 4) = t.val / 12 ∧ win1_4.index t (1 : Fin 4) = t.val % 12
    ∧ win1_4.index t (2 : Fin 4) = 0 ∧ win1_4.index t (3 : Fin 4) = 0 :=
  (by decide +kernel : ∀ t : Fin grid1.N, _)

/-- The query / key / value block at point (b, h) is that batch's and head's slab of the array. -/
theorem qkv_block (c : Dev nD) (t : Fin cfg1.N) (b : Fin 8) (h : Fin 12) (ht : t.val = b.val * 12 + h.val)
    (n : Fin 1024) (tt : Fin 3) (d : Fin 64) :
    (iblk1 V c 0 t : Vec Ideal S1x1024x1x3x64 .bf16) (ix5 0 n 0 tt d) = qkv5 V c (ix5 b n h tt d) := by
  obtain ⟨e0, e1, e2, e3, e4, -⟩ := idx_facts t
  have hb := b.isLt
  have hh := h.isLt
  unfold iblk1
  rw [View.read_apply]
  show V c main_v12 _ = V c main_v12 _
  congr 1
  funext a; apply Fin.ext
  match a with
  | ⟨0, _⟩ => show win1_0.index t (0 : Fin 5) * 1 + 1 * 0 = b.val; omega
  | ⟨1, _⟩ => show win1_0.index t (1 : Fin 5) * 1024 + 1 * n.val = n.val; omega
  | ⟨2, _⟩ => show win1_0.index t (2 : Fin 5) * 1 + 1 * 0 = h.val; omega
  | ⟨3, _⟩ => show win1_0.index t (3 : Fin 5) * 3 + 1 * tt.val = tt.val; omega
  | ⟨4, _⟩ => show win1_0.index t (4 : Fin 5) * 64 + 1 * d.val = d.val; omega

/-- The weight block at a point of head `h` is the head's 64 rows of the transposed output weight. -/
theorem w_block (c : Dev nD) (t : Fin cfg1.N) (h : Fin 12) (ht : t.val % 12 = h.val) (d : Fin 64) (j : Fin 768) :
    (iblk1 V c 1 t : Vec Ideal S64x768 .bf16) (ix2 d j) = wT V c (ix2 (chan h d) j) := by
  obtain ⟨-, -, -, -, -, e5, e6, -⟩ := idx_facts t
  unfold iblk1
  rw [View.read_apply]
  show V c main_v14 _ = V c main_v14 _
  congr 1
  funext a; apply Fin.ext
  match a with
  | ⟨0, _⟩ => show win1_1.index t (0 : Fin 2) * 64 + 1 * d.val = h.val * 64 + d.val; omega
  | ⟨1, _⟩ => show win1_1.index t (1 : Fin 2) * 768 + 1 * j.val = j.val; omega

/-- The bias block is the whole bias row at every point. -/
theorem bias_block (c : Dev nD) (t : Fin cfg1.N) (j : Fin 768) :
    (iblk1 V c 2 t : Vec Ideal S1x768 .f32) (ix2 0 j) = bias2 V c (ix2 0 j) := by
  obtain ⟨-, -, -, -, -, -, -, e7, e8, -⟩ := idx_facts t
  unfold iblk1
  rw [View.read_apply]
  show V c main_v15 _ = V c main_v15 _
  congr 1
  funext a; apply Fin.ext
  match a with
  | ⟨0, _⟩ => show win1_2.index t (0 : Fin 2) * 1 + 1 * 0 = 0; omega
  | ⟨1, _⟩ => show win1_2.index t (1 : Fin 2) * 768 + 1 * j.val = j.val; omega

/-! ## One point's arithmetic over a block that is a slab of the arrays -/

/-- The softmax block of a query / key / value block that is the slab (b, ·, h, ·, ·). -/
theorem attn_of_slab (q : Vec Ideal S1x1024x1x3x64 .bf16) (a : Vec Ideal S8x1024x12x3x64 .bf16) (b : Fin 8) (h : Fin 12)
    (hq : ∀ (n : Fin 1024) (tt : Fin 3) (d : Fin 64), q (ix5 0 n 0 tt d) = a (ix5 b n h tt d)) (n m : Fin 1024) :
    k1_pay5 (F := Ideal) q (ix2 n m) = softmax (scoreRow a b h n) m := by
  refine (pay5_apply q n m).trans ?_
  refine congrArg (fun f => softmax f m) (funext fun m' => ?_)
  unfold scoreRow
  exact Finset.sum_congr rfl fun d _ => by rw [hq n 0 d, hq m' 1 d]

/-- The head's share computed from such a block and from the head's rows of the weight. -/
theorem share_of_slab (q : Vec Ideal S1x1024x1x3x64 .bf16) (wb : Vec Ideal S64x768 .bf16)
    (a : Vec Ideal S8x1024x12x3x64 .bf16) (wt : Vec Ideal S768x768 .bf16) (b : Fin 8) (h : Fin 12)
    (hq : ∀ (n : Fin 1024) (tt : Fin 3) (d : Fin 64), q (ix5 0 n 0 tt d) = a (ix5 b n h tt d))
    (hw : ∀ (d : Fin 64) (j : Fin 768), wb (ix2 d j) = wt (ix2 (chan h d) j)) (n : Fin 1024) (j : Fin 768) :
    (∑ d : Fin 64, (∑ m : Fin 1024, k1_pay5 (F := Ideal) q (ix2 n m) * q (ix5 0 m 0 2 d)) * wb (ix2 d j))
      = headShare a wt b n j h.val := by
  unfold headShare
  rw [dif_pos h.isLt]
  refine Finset.sum_congr rfl fun d _ => ?_
  rw [hw d j]
  refine congrArg (fun z => z * wt (ix2 (chan h d) j)) ?_
  exact Finset.sum_congr rfl fun m _ => by rw [attn_of_slab q a b h hq n m, hq m 2 d]

/-! ## The accumulator across the heads of a batch -/

/-- The accumulator after a point depends on the point's number only. -/
theorem accAfter_congr (c : Dev nD) (n n' : ℕ) (e : n = n') (h : n < cfg1.N) (h' : n' < cfg1.N) :
    accAfter V c n h = accAfter V c n' h' := by
  subst e; rfl

/-- THE INVARIANT: after head `k` of batch `b` the accumulator's entry (n, j) is the partial sum of the shares of the
    heads 0 … k, added in that order from zero — by induction on the head. -/
theorem acc_inv (c : Dev nD) (b : Fin 8) (n : Fin 1024) (j : Fin 768) :
    ∀ (k : ℕ) (hk : k < 12) (hlt : b.val * 12 + k < cfg1.N),
      (accAfter V c (b.val * 12 + k) hlt : Vec Ideal S1024x768 .f32) (ix2 n j)
        = accFold (headShare (qkv5 V c) (wT V c) b n j) k
  | 0, hk, hlt => by
    have h0 : (⟨b.val * 12 + 0, hlt⟩ : Fin cfg1.N).val % 12 = 0 := by dsimp only; omega
    refine (congrFun (accAfter_first V c ⟨b.val * 12 + 0, hlt⟩ h0) (ix2 n j)).trans ?_
    rw [pay1_eq]
    refine (pay7_apply (iblk1 V c 0 ⟨b.val * 12 + 0, hlt⟩) (k1_pay3 (F := Ideal)) (iblk1 V c 1 ⟨b.val * 12 + 0, hlt⟩) n j).trans ?_
    rw [pay3_apply n j]
    refine congrArg (fun z => (0 : EReal) + z) ?_
    exact share_of_slab (iblk1 V c 0 ⟨b.val * 12 + 0, hlt⟩) (iblk1 V c 1 ⟨b.val * 12 + 0, hlt⟩) (qkv5 V c) (wT V c) b ⟨0, hk⟩
      (fun n' tt d => qkv_block V c ⟨b.val * 12 + 0, hlt⟩ b ⟨0, hk⟩ rfl n' tt d)
      (fun d j' => w_block V c ⟨b.val * 12 + 0, hlt⟩ ⟨0, hk⟩ (by dsimp only; omega) d j') n j
  | k + 1, hk, hlt => by
    have hlt' : b.val * 12 + k < cfg1.N := by omega
    have hne : ¬(⟨b.val * 12 + (k + 1), hlt⟩ : Fin cfg1.N).val % 12 = 0 := by dsimp only; omega
    refine (congrFun (accAfter_next V c ⟨b.val * 12 + (k + 1), hlt⟩ hne) (ix2 n j)).trans ?_
    rw [pay1_eq]
    refine (pay7_apply (iblk1 V c 0 ⟨b.val * 12 + (k + 1), hlt⟩)
      (accAfter V c ((⟨b.val * 12 + (k + 1), hlt⟩ : Fin cfg1.N).val - 1) (Nat.lt_of_le_of_lt (Nat.sub_le _ _) hlt))
      (iblk1 V c 1 ⟨b.val * 12 + (k + 1), hlt⟩) n j).trans ?_
    rw [share_of_slab (iblk1 V c 0 ⟨b.val * 12 + (k + 1), hlt⟩) (iblk1 V c 1 ⟨b.val * 12 + (k + 1), hlt⟩) (qkv5 V c) (wT V c) b ⟨k + 1, hk⟩
      (fun n' tt d => qkv_block V c ⟨b.val * 12 + (k + 1), hlt⟩ b ⟨k + 1, hk⟩ rfl n' tt d)
      (fun d j' => w_block V c ⟨b.val * 12 + (k + 1), hlt⟩ ⟨k + 1, hk⟩ (by dsimp only; omega) d j') n j]
    rw [accAfter_congr V c ((⟨b.val * 12 + (k + 1), hlt⟩ : Fin cfg1.N).val - 1) (b.val * 12 + k) (by dsimp only; omega) _ hlt',
      acc_inv c b n j k (by omega) hlt']
    rfl

/-- At a batch's last head the accumulator holds all twelve shares. -/
theorem acc_last (c : Dev nD) (t : Fin cfg1.N) (b : Fin 8) (ht : t.val = b.val * 12 + 11) (n : Fin 1024) (j : Fin 768) :
    (accAfter V c t.val t.isLt : Vec Ideal S1024x768 .f32) (ix2 n j)
      = accFold (headShare (qkv5 V c) (wT V c) b n j) 11 := by
  have hlt : b.val * 12 + 11 < cfg1.N := ht ▸ t.isLt
  rw [accAfter_congr V c t.val (b.val * 12 + 11) ht t.isLt hlt]
  exact acc_inv V c b n j 11 (by omega) hlt

/-! ## The attention weights -/

/-- The attention-weights array as one function of the packed array: entry (b, h, n, m) is the softmax over m of head
    h's scores of query token n in batch b. -/
def attnG (a : Vec Ideal S8x1024x12x3x64 .bf16) : Vec Ideal S8x12x1024x1024 .f32 :=
  fun i => softmax (scoreRow a (i 0) (i 1) (i 2)) (i 3)

/-- What a point writes back to the attention weights is its block of that function. -/
theorem flushed_attn (c : Dev nD) (t : Fin cfg1.N) :
    (dat1 (F := Ideal) V c).flushed 4 t = ((cfg1.win 4).blk t).view.read (Elt Ideal) (attnG (qkv5 V c)) := by
  show (cfg1.win 4).cut (grid1.coords t) ((dat1 (F := Ideal) V c).after 4 t) = _
  rw [after1_4]
  have hN : cfg1.N = 96 := N_1
  have htl := t.isLt
  obtain ⟨-, -, -, -, -, -, -, -, -, -, -, -, e12, e13, e14, e15⟩ := idx_facts t
  funext y
  have y0 : (y 0).val < 1 := (y 0).isLt
  have y1 : (y 1).val < 1 := (y 1).isLt
  have y2 : (y 2).val < 1024 := (y 2).isLt
  have y3 : (y 3).val < 1024 := (y 3).isLt
  have hy : ((cfg1.win 4).xinj (grid1.coords t) y : S1x1x1024x1024.Idx)
      = ix4 (0 : Fin 1) (0 : Fin 1) (⟨(y 2).val, y2⟩ : Fin 1024) (⟨(y 3).val, y3⟩ : Fin 1024) := by
    funext a; apply Fin.ext
    match a with
    | ⟨0, _⟩ => show (y 0).val = 0; omega
    | ⟨1, _⟩ => show (y 1).val = 0; omega
    | ⟨2, _⟩ => rfl
    | ⟨3, _⟩ => rfl
  have hi : (((cfg1.win 4).blk t).view.emb y : S8x12x1024x1024.Idx)
      = ix4 (⟨t.val / 12, by omega⟩ : Fin 8) (⟨t.val % 12, by omega⟩ : Fin 12) (⟨(y 2).val, y2⟩ : Fin 1024) (⟨(y 3).val, y3⟩ : Fin 1024) := by
    funext a; apply Fin.ext
    match a with
    | ⟨0, _⟩ => show win1_4.index t (0 : Fin 4) * 1 + 1 * (y 0).val = t.val / 12; omega
    | ⟨1, _⟩ => show win1_4.index t (1 : Fin 4) * 1 + 1 * (y 1).val = t.val % 12; omega
    | ⟨2, _⟩ => show win1_4.index t (2 : Fin 4) * 1024 + 1 * (y 2).val = (y 2).val; omega
    | ⟨3, _⟩ => show win1_4.index t (3 : Fin 4) * 1024 + 1 * (y 3).val = (y 3).val; omega
  rw [View.read_apply]
  show k1_pay6 (F := Ideal) (iblk1 V c 0 t) ((cfg1.win 4).xinj (grid1.coords t) y) = attnG (qkv5 V c) (((cfg1.win 4).blk t).view.emb y)
  refine (congrArg (k1_pay6 (F := Ideal) (iblk1 V c 0 t)) hy).trans ?_
  refine Eq.trans ?_ (congrArg (attnG (qkv5 V c)) hi).symm
  refine (pay6_apply (iblk1 V c 0 t) ⟨(y 2).val, y2⟩ ⟨(y 3).val, y3⟩).trans ?_
  exact attn_of_slab (iblk1 V c 0 t) (qkv5 V c) ⟨t.val / 12, by omega⟩ ⟨t.val % 12, by omega⟩
    (fun n' tt d => qkv_block V c t ⟨t.val / 12, by omega⟩ ⟨t.val % 12, by omega⟩ (by dsimp only; omega) n' tt d)
    ⟨(y 2).val, y2⟩ ⟨(y 3).val, y3⟩

/-- An entry of the attention weights is in a point's block iff each coordinate is in the block's range on its axis. -/
theorem mem_blk_attn (t : Fin cfg1.N) (i : S8x12x1024x1024.Idx) :
    i ∈ ((cfg1.win 4).blk t).view.set ↔ ∀ a : Fin 4, win1_4.index t a * S1x1x1024x1024.size a ≤ (i a).val
      ∧ (i a).val < win1_4.index t a * S1x1x1024x1024.size a + S1x1x1024x1024.size a := by
  show i ∈ ((View.whole main_v16_1).slice (win1_4.rect t)).set ↔ _
  rw [View.set_slice_whole, Rect.mem_set_unit]
  exact Iff.rfl

/-- Entry (b, h, ·, ·) is covered by the point b · 12 + h. -/
theorem cover_attn (i : S8x12x1024x1024.Idx) :
    ∃ t : Fin cfg1.N, (cfg1.win 4).flush t = true ∧ i ∈ ((cfg1.win 4).blk t).view.set := by
  have hN : cfg1.N = 96 := N_1
  have i0 : (i 0).val < 8 := (i 0).isLt
  have i1 : (i 1).val < 12 := (i 1).isLt
  have i2 : (i 2).val < 1024 := (i 2).isLt
  have i3 : (i 3).val < 1024 := (i 3).isLt
  obtain ⟨t, ht⟩ : ∃ t : Fin cfg1.N, t.val = (i 0).val * 12 + (i 1).val := ⟨⟨(i 0).val * 12 + (i 1).val, by omega⟩, rfl⟩
  obtain ⟨-, -, -, -, -, -, -, -, -, -, -, -, e12, e13, e14, e15⟩ := idx_facts t
  refine ⟨t, flush1_4 t, ?_⟩
  rw [mem_blk_attn]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 1 ≤ (i 1).val ∧ (i 1).val < win1_4.index t (1 : Fin 4) * 1 + 1; omega
  | ⟨2, _⟩ => show win1_4.index t (2 : Fin 4) * 1024 ≤ (i 2).val ∧ (i 2).val < win1_4.index t (2 : Fin 4) * 1024 + 1024; omega
  | ⟨3, _⟩ => show win1_4.index t (3 : Fin 4) * 1024 ≤ (i 3).val ∧ (i 3).val < win1_4.index t (3 : Fin 4) * 1024 + 1024; omega

/-- The attention-weights array after the call. -/
theorem final_attn_all (c : Dev nD) : (dat1 (F := Ideal) V c).arrAt 4 cfg1.N = attnG (qkv5 V c) :=
  (dat1 (F := Ideal) V c).arrAt_eq_of_cover 4 (attnG (qkv5 V c)) (fun t _ => flushed_attn V c t) cover_attn

/-- Entry (b, h, n, m) of the attention weights after the call: the softmax over m of head h's scores of query n. -/
theorem final_attn (c : Dev nD) (b : Fin 8) (h : Fin 12) (n m : Fin 1024) :
    ((dat1 (F := Ideal) V c).arrAt 4 cfg1.N : S8x12x1024x1024.Idx → EReal) (ix4 b h n m)
      = softmax (scoreRow (qkv5 V c) b h n) m :=
  congrFun (final_attn_all V c) (ix4 b h n m)

/-! ## The projected output -/

/-- The output array as one function of the three arrays: entry (b, n, j) is the twelve heads' shares added in order
    from zero, plus the bias. -/
def outG (a : Vec Ideal S8x1024x12x3x64 .bf16) (wt : Vec Ideal S768x768 .bf16) (bv : Vec Ideal S1x768 .f32) :
    Vec Ideal S8x1024x768 .f32 :=
  fun i => accFold (headShare a wt (i 0) (i 1) (i 2)) 11 + bv (ix2 0 (i 2))

/-- What a batch's last head writes back to the output is its block of that function. -/
theorem flushed_out (c : Dev nD) (t : Fin cfg1.N) (hf : (cfg1.win 3).flush t = true) :
    (dat1 (F := Ideal) V c).flushed 3 t
      = ((cfg1.win 3).blk t).view.read (Elt Ideal) (outG (qkv5 V c) (wT V c) (bias2 V c)) := by
  have h11 : t.val % 12 = 11 := (flush1_3 t).mp hf
  show (cfg1.win 3).cut (grid1.coords t) ((dat1 (F := Ideal) V c).after 3 t) = _
  rw [after1_3]
  have hN : cfg1.N = 96 := N_1
  have htl := t.isLt
  obtain ⟨-, -, -, -, -, -, -, -, -, e9, e10, e11, -⟩ := idx_facts t
  funext y
  have y0 : (y 0).val < 1 := (y 0).isLt
  have y1 : (y 1).val < 1024 := (y 1).isLt
  have y2 : (y 2).val < 768 := (y 2).isLt
  have hy : ((cfg1.win 3).xinj (grid1.coords t) y : S1x1024x768.Idx)
      = ix3 (0 : Fin 1) (⟨(y 1).val, y1⟩ : Fin 1024) (⟨(y 2).val, y2⟩ : Fin 768) := by
    funext a; apply Fin.ext
    match a with
    | ⟨0, _⟩ => show (y 0).val = 0; omega
    | ⟨1, _⟩ => rfl
    | ⟨2, _⟩ => rfl
  have hi : (((cfg1.win 3).blk t).view.emb y : S8x1024x768.Idx)
      = ix3 (⟨t.val / 12, by omega⟩ : Fin 8) (⟨(y 1).val, y1⟩ : Fin 1024) (⟨(y 2).val, y2⟩ : Fin 768) := by
    funext a; apply Fin.ext
    match a with
    | ⟨0, _⟩ => show win1_3.index t (0 : Fin 3) * 1 + 1 * (y 0).val = t.val / 12; omega
    | ⟨1, _⟩ => show win1_3.index t (1 : Fin 3) * 1024 + 1 * (y 1).val = (y 1).val; omega
    | ⟨2, _⟩ => show win1_3.index t (2 : Fin 3) * 768 + 1 * (y 2).val = (y 2).val; omega
  rw [View.read_apply]
  show k1_pay2 (F := Ideal) (accAfter V c t.val t.isLt) (iblk1 V c 2 t) ((cfg1.win 3).xinj (grid1.coords t) y)
    = outG (qkv5 V c) (wT V c) (bias2 V c) (((cfg1.win 3).blk t).view.emb y)
  refine (congrArg (k1_pay2 (F := Ideal) (accAfter V c t.val t.isLt) (iblk1 V c 2 t)) hy).trans ?_
  refine Eq.trans ?_ (congrArg (outG (qkv5 V c) (wT V c) (bias2 V c)) hi).symm
  refine (pay2_apply (accAfter V c t.val t.isLt) (iblk1 V c 2 t) ⟨(y 1).val, y1⟩ ⟨(y 2).val, y2⟩).trans ?_
  rw [bias_block V c t ⟨(y 2).val, y2⟩,
    acc_last V c t ⟨t.val / 12, by omega⟩ (by dsimp only; omega) ⟨(y 1).val, y1⟩ ⟨(y 2).val, y2⟩]
  rfl

/-- An entry of the output is in a point's block iff each coordinate is in the block's range on its axis. -/
theorem mem_blk_out (t : Fin cfg1.N) (i : S8x1024x768.Idx) :
    i ∈ ((cfg1.win 3).blk t).view.set ↔ ∀ a : Fin 3, win1_3.index t a * S1x1024x768.size a ≤ (i a).val
      ∧ (i a).val < win1_3.index t a * S1x1024x768.size a + S1x1024x768.size a := by
  show i ∈ ((View.whole main_v16_0).slice (win1_3.rect t)).set ↔ _
  rw [View.set_slice_whole, Rect.mem_set_unit]
  exact Iff.rfl

/-- Entry (b, ·, ·) is covered by the point b · 12 + 11, the batch's last head: the points that write the output back. -/
theorem cover_out (i : S8x1024x768.Idx) :
    ∃ t : Fin cfg1.N, (cfg1.win 3).flush t = true ∧ i ∈ ((cfg1.win 3).blk t).view.set := by
  have hN : cfg1.N = 96 := N_1
  have i0 : (i 0).val < 8 := (i 0).isLt
  have i1 : (i 1).val < 1024 := (i 1).isLt
  have i2 : (i 2).val < 768 := (i 2).isLt
  obtain ⟨t, ht⟩ : ∃ t : Fin cfg1.N, t.val = (i 0).val * 12 + 11 := ⟨⟨(i 0).val * 12 + 11, by omega⟩, rfl⟩
  obtain ⟨-, -, -, -, -, -, -, -, -, e9, e10, e11, -⟩ := idx_facts t
  refine ⟨t, (flush1_3 t).mpr (by omega), ?_⟩
  rw [mem_blk_out]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 768 ≤ (i 2).val ∧ (i 2).val < win1_3.index t (2 : Fin 3) * 768 + 768; omega

/-- The output array after the call. -/
theorem final_out_all (c : Dev nD) :
    (dat1 (F := Ideal) V c).arrAt 3 cfg1.N = outG (qkv5 V c) (wT V c) (bias2 V c) :=
  (dat1 (F := Ideal) V c).arrAt_eq_of_cover 3 (outG (qkv5 V c) (wT V c) (bias2 V c)) (fun t hf => flushed_out V c t hf) cover_out

/-- Entry (b, n, j) of the output after the call: the twelve heads' shares added in order from zero, plus the bias. -/
theorem final_out (c : Dev nD) (b : Fin 8) (n : Fin 1024) (j : Fin 768) :
    ((dat1 (F := Ideal) V c).arrAt 3 cfg1.N : S8x1024x768.Idx → EReal) (ix3 b n j)
      = accFold (headShare (qkv5 V c) (wT V c) b n j) 11 + bias2 V c (ix2 0 j) :=
  congrFun (final_out_all V c) (ix3 b n j)

end Cert.KernelIdeal.Val1

end
-- ==== Proof.Arrays.lean ====
/-
  The two results of the attention computation as whole arrays, in the reference's arrangement: entry (b, n, j) of the
  projected output and entry (b, h, n, m) of the attention weights, as functions of the four argument arrays.
-/
import proofs.«430483_j63471026700747_3_alg».proof.Proof.Spec
import Idealize.ShloMosaic.Lib.ValueIdx

noncomputable section

namespace AttnArrays

open Idealize.ShloMosaic Idealize.ShloMosaic.ValueIdx AttnSpec

/-- The activations by coordinates. -/
def xOf (x : (⟨3, ![8, 1024, 768]⟩ : Shape).Idx → EReal) : Fin 8 → Fin 1024 → Fin 768 → EReal := fun b n c => x (ix3 b n c)
/-- A matrix by coordinates. -/
def matOf {R C : Nat} (w : (⟨2, ![R, C]⟩ : Shape).Idx → EReal) : Fin R → Fin C → EReal := fun j c => w (ix2 j c)
/-- A vector by its coordinate. -/
def vecOf {N : Nat} (v : (⟨1, ![N]⟩ : Shape).Idx → EReal) : Fin N → EReal := fun j => v (ix1 j)

/-- The projected output, entry by entry. -/
def outArr (x : (⟨3, ![8, 1024, 768]⟩ : Shape).Idx → EReal) (w : (⟨2, ![2304, 768]⟩ : Shape).Idx → EReal)
    (wp : (⟨2, ![768, 768]⟩ : Shape).Idx → EReal) (bv : (⟨1, ![768]⟩ : Shape).Idx → EReal) :
    (⟨3, ![8, 1024, 768]⟩ : Shape).Idx → EReal :=
  fun i => outR (xOf x) (matOf w) (matOf wp) (vecOf bv) s0 (i 0) (i 1) (i 2)

/-- The attention weights, entry by entry. -/
def attnArr (x : (⟨3, ![8, 1024, 768]⟩ : Shape).Idx → EReal) (w : (⟨2, ![2304, 768]⟩ : Shape).Idx → EReal) :
    (⟨4, ![8, 12, 1024, 1024]⟩ : Shape).Idx → EReal :=
  fun i => attnR (xOf x) (matOf w) s0 (i 0) (i 1) (i 2) (i 3)

theorem outArr_apply (x w wp bv) (b : Fin 8) (n : Fin 1024) (j : Fin 768) :
    outArr x w wp bv (ix3 b n j) = outR (xOf x) (matOf w) (matOf wp) (vecOf bv) s0 b n j := rfl

theorem attnArr_apply (x w) (b : Fin 8) (h : Fin 12) (n m : Fin 1024) :
    attnArr x w (ix4 b h n m) = attnR (xOf x) (matOf w) s0 b h n m := rfl

end AttnArrays

end
-- ==== Proof.Algebra.lean ====
/-
  The kernel's arrangement of the attention computation equals the reference's on finite activations, weights and scale.

  Two laws do the work. Moving the scale across the projection's sum, (∑ x·w)·s = ∑ x·(w·s), is distributivity, which on
  the extended reals needs finite terms. Regrouping the output projection's sum over 768 channels as twelve heads of 64
  lanes, added one head after the other from zero, is associativity and commutativity of addition alone.
-/
import proofs.«430483_j63471026700747_3_alg».proof.Proof.Spec
import Mathlib.Algebra.BigOperators.Fin
import Mathlib.Algebra.BigOperators.Intervals
import Mathlib.Algebra.BigOperators.Ring.Finset
import Mathlib.Data.EReal.Operations
import Mathlib.Tactic.Ring

noncomputable section

namespace AttnSpec

open Idealize.ShloMosaic

/-! ## Finite sums of reals inside the extended reals -/

/-- The coercion ℝ → EReal commutes with finite sums (it is additive and sends 0 to 0). -/
theorem coe_real_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Distributivity of a finite sum of real products over a real factor, read in the extended reals:
    ∑ c, a c · (b c · r) = (∑ c, a c · b c) · r. -/
theorem sum_mul_scale {ι : Type*} (S : Finset ι) (a b : ι → ℝ) (r : ℝ) :
    ∑ c ∈ S, (a c : EReal) * ((b c : EReal) * (r : EReal)) = (∑ c ∈ S, (a c : EReal) * (b c : EReal)) * (r : EReal) := by
  simp only [← EReal.coe_mul, ← coe_real_sum]
  rw [Finset.sum_mul]
  congr 1
  apply Finset.sum_congr rfl
  intro c _
  ring

/-! ## The 768 channels as twelve heads of 64 lanes -/

theorem headOf_chan (h : Fin 12) (d : Fin 64) : headOf (chan h d) = h := by
  apply Fin.ext
  have := d.isLt
  simp only [headOf, chan]
  omega

theorem laneOf_chan (h : Fin 12) (d : Fin 64) : laneOf (chan h d) = d := by
  apply Fin.ext
  have := d.isLt
  simp only [laneOf, chan]
  omega

theorem chan_headOf_laneOf (c : Fin 768) : chan (headOf c) (laneOf c) = c := by
  apply Fin.ext
  simp only [headOf, laneOf, chan]
  omega

/-- (head, lane) ↦ head · 64 + lane is a bijection of Fin 12 × Fin 64 with Fin 768. -/
def chanEquiv : Fin 12 × Fin 64 ≃ Fin 768 where
  toFun p := chan p.1 p.2
  invFun c := (headOf c, laneOf c)
  left_inv p := by
    rcases p with ⟨h, d⟩
    exact Prod.ext (headOf_chan h d) (laneOf_chan h d)
  right_inv c := chan_headOf_laneOf c

/-- A sum over the 768 channels, regrouped head by head. -/
theorem sum_chan {M : Type*} [AddCommMonoid M] (F : Fin 768 → M) :
    ∑ c : Fin 768, F c = ∑ h : Fin 12, ∑ d : Fin 64, F (chan h d) := by
  rw [← chanEquiv.sum_comp F, Fintype.sum_prod_type]
  rfl

/-! ## Adding from zero, one term after the other, is the finite sum -/

theorem accFold_eq_sum (g : ℕ → EReal) (k : ℕ) : accFold g k = ∑ i ∈ Finset.range (k + 1), g i := by
  induction k with
  | zero => simp [accFold]
  | succ k ih => rw [accFold, ih, Finset.sum_range_succ _ (k + 1)]

variable (x : Fin 8 → Fin 1024 → Fin 768 → EReal) (w : Fin 2304 → Fin 768 → EReal)
  (wp : Fin 768 → Fin 768 → EReal) (bias : Fin 768 → EReal) (s : EReal)

/-! ## The projections -/

/-- The query columns carry the scale: on finite data it moves out of the sum. -/
theorem projK_query (hx : ∀ b n c, ∃ r : ℝ, x b n c = (r : EReal)) (hw : ∀ j c, ∃ r : ℝ, w j c = (r : EReal))
    (hs : ∃ r : ℝ, s = (r : EReal)) (b : Fin 8) (n : Fin 1024) (h : Fin 12) (d : Fin 64) :
    projK x w s b n h 0 d = projR x w b n (rowR 0 h d) * s := by
  choose xr hxr using hx
  choose wr hwr using hw
  obtain ⟨sr, rfl⟩ := hs
  have h0 : ((0 : Fin 3).val = 0) := rfl
  simp only [projK, projR, wK, h0, if_true, hxr, hwr]
  exact sum_mul_scale Finset.univ (fun c => xr b n c) (fun c => wr (rowR 0 h d) c) sr

/-- The key columns are the reference's rows unchanged. -/
theorem projK_key (b : Fin 8) (n : Fin 1024) (h : Fin 12) (d : Fin 64) :
    projK x w s b n h 1 d = projR x w b n (rowR 1 h d) := by
  have h1 : ¬ ((1 : Fin 3).val = 0) := by decide
  simp only [projK, projR, wK, if_neg h1]

/-- The value columns are the reference's rows unchanged. -/
theorem projK_value (b : Fin 8) (n : Fin 1024) (h : Fin 12) (d : Fin 64) :
    projK x w s b n h 2 d = projR x w b n (rowR 2 h d) := by
  have h2 : ¬ ((2 : Fin 3).val = 0) := by decide
  simp only [projK, projR, wK, if_neg h2]

/-! ## Scores, attention weights, attention · values -/

theorem scoreK_eq_scoreR (hx : ∀ b n c, ∃ r : ℝ, x b n c = (r : EReal)) (hw : ∀ j c, ∃ r : ℝ, w j c = (r : EReal))
    (hs : ∃ r : ℝ, s = (r : EReal)) (b : Fin 8) (h : Fin 12) (n : Fin 1024) :
    scoreK x w s b h n = scoreR x w s b h n := by
  funext m
  unfold scoreK scoreR
  apply Finset.sum_congr rfl
  intro d _
  rw [projK_query x w s hx hw hs, projK_key]

theorem attnK_eq_attnR (hx : ∀ b n c, ∃ r : ℝ, x b n c = (r : EReal)) (hw : ∀ j c, ∃ r : ℝ, w j c = (r : EReal))
    (hs : ∃ r : ℝ, s = (r : EReal)) (b : Fin 8) (h : Fin 12) (n m : Fin 1024) :
    attnK x w s b h n m = attnR x w s b h n m := by
  unfold attnK attnR
  rw [scoreK_eq_scoreR x w s hx hw hs]

theorem avK_eq_avR (hx : ∀ b n c, ∃ r : ℝ, x b n c = (r : EReal)) (hw : ∀ j c, ∃ r : ℝ, w j c = (r : EReal))
    (hs : ∃ r : ℝ, s = (r : EReal)) (b : Fin 8) (h : Fin 12) (n : Fin 1024) (d : Fin 64) :
    avK x w s b h n d = avR x w s b h n d := by
  unfold avK avR
  apply Finset.sum_congr rfl
  intro m _
  rw [attnK_eq_attnR x w s hx hw hs, projK_value]

/-! ## The output projection -/

/-- The twelve shares, indexed by naturals below 12, are the shares indexed by heads. -/
theorem sum_contribN (b : Fin 8) (n : Fin 1024) (j : Fin 768) :
    ∑ k ∈ Finset.range 12, contribN x w wp s b n j k = ∑ h : Fin 12, contribK x w wp s b h n j := by
  rw [Finset.sum_range]
  apply Finset.sum_congr rfl
  intro h _
  simp only [contribN, dif_pos h.isLt, Fin.eta]

theorem outK_eq_outR (hx : ∀ b n c, ∃ r : ℝ, x b n c = (r : EReal)) (hw : ∀ j c, ∃ r : ℝ, w j c = (r : EReal))
    (hs : ∃ r : ℝ, s = (r : EReal)) (b : Fin 8) (n : Fin 1024) (j : Fin 768) :
    outK x w wp bias s b n j = outR x w wp bias s b n j := by
  unfold outK outR
  congr 1
  rw [accFold_eq_sum, sum_contribN, sum_chan]
  apply Finset.sum_congr rfl
  intro h _
  unfold contribK
  apply Finset.sum_congr rfl
  intro d _
  rw [headOf_chan, laneOf_chan, avK_eq_avR x w s hx hw hs]

end AttnSpec

end
-- ==== Proof.Finite.lean ====
import proofs.«430483_j63471026700747_3_alg».proof.Defs
import proofs.«430483_j63471026700747_3_alg».proof.Proof.Gen.Pre_finite_inputs
import proofs.«430483_j63471026700747_3_alg».proof.Proof.Arrays
import Idealize.ShloMosaic.Lib.ReduceAll
import Idealize.ShloMosaic.Lib.ValueIdx
import Idealize.ShloMosaic.PureOps.Ideal.Laws

/-!
  From "every float input is finite" to "every entry is a real number".

  The precondition is the conjunction, over the four argument arrays, of `all (|x| < +∞)`. Read at the extended
  reals, `|x|` is `max x (-x)` and `+∞` is `⊤`; an extended real whose absolute value lies strictly below `⊤` is
  neither `⊤` (then `|x| = ⊤`) nor `⊥` (then `-x = ⊤`, so again `|x| = ⊤`), hence it is the image of a real. The scale
  both programs multiply the queries by is the pattern of `2⁻³`, a real as well.
-/

noncomputable section

namespace Cert.Finite

open Idealize.ShloMosaic Idealize.ShloMosaic.ValueIdx

/-- The pattern the predicate compares against denotes `+∞`: all-ones exponent, zero significand, sign clear. -/
theorem inf_word : Ideal.ofBits .f32 0x7F800000#32 = (⊤ : EReal) := by
  simp [Ideal.ofBits, Ideal.ieee]

/-- One element of the predicate: if `|x| < +∞` holds as a one-bit word, `x` is a real. At `⊥` and at `⊤` the absolute
    value `max x (-x)` is `⊤`, which is not below `⊤`, so the word would be 0. -/
theorem real_of_test (x : EReal)
    (h : FloatOps.cmpf (F := Ideal) (φ := .f32) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  rw [inf_word] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- One conjunct of the predicate, for an array of any shape: if the conjunction by `and` of the tests `|a i| < +∞` over
    all of `a` is 1, every entry of `a` is a real. -/
theorem all_real {s : Shape} {dims : Fin Cert.Pre_finite_inputs.S_.rank → Fin s.rank}
    (hb : Cert.Pre_finite_inputs.S_.BroadcastsInDim s dims) {axes : List (Fin s.rank)}
    (hr : s.ReducesTo axes Cert.Pre_finite_inputs.S_) (hu : 0 < Cert.Pre_finite_inputs.S_.numel) (a : FVec Ideal s .f32)
    (h : Host.reduce IntOp.andi
          (cmpf .olt (Host.absf a) (broadcastInDim s dims hb (constant Cert.Pre_finite_inputs.S_ .f32 0x7F800000#32)))
          (constantI Cert.Pre_finite_inputs.S_ 1 1#1) hr hu ix0 = 1#1)
    (i : s.Idx) : ∃ r : ℝ, a i = (r : EReal) :=
  real_of_test (a i) (Host.reduce_andi_all _ _ hr hu ix0 h i)

/-- The predicate read back for the first two arrays: where it is all ones, the activations and the stacked weight
    hold reals only. -/
theorem parts [hP : Cert.Pre_finite_inputs.Facts]
    (a0 : FVec Ideal Cert.Pre_finite_inputs.S8x1024x768 .f32) (a1 : FVec Ideal Cert.Pre_finite_inputs.S2304x768 .f32)
    (a2 : FVec Ideal Cert.Pre_finite_inputs.S768x768 .f32) (a3 : FVec Ideal Cert.Pre_finite_inputs.S768 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ix0
  dsimp only [Cert.Pre_finite_inputs.fn, Cert.Pre_finite_inputs.fn_part1] at h0
  obtain ⟨h012, -⟩ := IntOp.andi_eq_one.1 h0
  obtain ⟨h01, -⟩ := IntOp.andi_eq_one.1 h012
  obtain ⟨hx, hw⟩ := IntOp.andi_eq_one.1 h01
  exact ⟨fun i => all_real _ _ _ a0 hx i, fun i => all_real _ _ _ a1 hw i⟩

/-- Every entry of the activations is a real. -/
theorem x_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ (b : Fin 8) (n : Fin 1024) (k : Fin 768), ∃ r : ℝ,
      AttnArrays.xOf (m ((c.tc : Thread Cert.KernelIdeal.nD Cert.KernelIdeal.τ).loc Cert.KernelIdeal.main_arg0)) b n k
        = (r : EReal) :=
  fun b n k => (parts _ _ _ _ (h c)).1 (ix3 b n k)

/-- Every entry of the stacked weight is a real. -/
theorem w_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ (j : Fin 2304) (k : Fin 768), ∃ r : ℝ,
      AttnArrays.matOf (m ((c.tc : Thread Cert.KernelIdeal.nD Cert.KernelIdeal.τ).loc Cert.KernelIdeal.main_arg1)) j k
        = (r : EReal) :=
  fun j k => (parts _ _ _ _ (h c)).2 (ix2 j k)

/-- The query scale is a real: the pattern has sign clear, exponent field 124 and zero significand, the normal number
    `2²³ · 2^(124 - 127 - 23) = 2⁻³`. -/
theorem s0_real : ∃ r : ℝ, AttnSpec.s0 = (r : EReal) := by
  unfold AttnSpec.s0
  simp [Ideal.ofBits, Ideal.ieee, -EReal.coe_mul]

end Cert.Finite

end
-- ==== Proof.KernelValue.lean ====
/-
  The idealized kernel program's two results, read back from its run, are the attention computation of its four
  argument arrays.

  The run ends with every buffer at the last of a fold of contents through the program: the launch memory, the first
  host stretch (which prepares the weight: query rows scaled, rows permuted to head-major order, transposed), the
  projection call (whose output array is the plain product of activations and prepared weight), the second host stretch
  (which views that product as [token, head, component, lane], transposes the output weight and reshapes the bias), and
  the attention call (whose two output arrays are the softmax of each head's scores and the twelve heads' shares of the
  output projection added up, plus the bias). Entry by entry this is the kernel's arrangement of the computation, which
  equals the reference's on finite inputs.
-/
import proofs.«430483_j63471026700747_3_alg».proof.Defs
import proofs.«430483_j63471026700747_3_alg».proof.Proof.KernelIdeal.Run
import proofs.«430483_j63471026700747_3_alg».proof.Proof.HostVals
import proofs.«430483_j63471026700747_3_alg».proof.Proof.Val0
import proofs.«430483_j63471026700747_3_alg».proof.Proof.Val1
import proofs.«430483_j63471026700747_3_alg».proof.Proof.Arrays
import proofs.«430483_j63471026700747_3_alg».proof.Proof.Algebra
import proofs.«430483_j63471026700747_3_alg».proof.Proof.Finite
import Idealize.ShloMosaic.Lib.ValueIdx

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Hand Cert.KernelIdeal.HostValue Cert.KernelIdeal.Val0 Cert.KernelIdeal.Val1
open AttnSpec AttnArrays

variable (m : (ℓ : Loc nD τ sig) → Buf (Elt Ideal) ℓ) (ρ : Dev nD → PrngReg)

/-- The four argument arrays at launch, by their literal types. -/
abbrev X (c : Dev nD) : Vec Ideal S8x1024x768 .f32 := m ((c : Thread nD τ).loc main_arg0)
abbrev Wq (c : Dev nD) : Vec Ideal S2304x768 .f32 := m ((c : Thread nD τ).loc main_arg1)
abbrev Wp (c : Dev nD) : Vec Ideal S768x768 .f32 := m ((c : Thread nD τ).loc main_arg2)
abbrev Bv (c : Dev nD) : Vec Ideal S768 .f32 := m ((c : Thread nD τ).loc main_arg3)

/-! ## What the two calls are entered from -/

/-- The first host stretch leaves the activations alone. -/
theorem entry0_x (c : Dev nD) : V1 m ρ c main_arg0 = X m c :=
  (StableHlo.after_of_writes_sub hostOps0 _ hostOps0_writes (by decide)).trans rfl

/-- It leaves the prepared weight in the buffer the projection call reads. -/
theorem entry0_w (c : Dev nD) : V1 m ρ c main_v10 = wprep (F := Ideal) (Wq m c) :=
  (v10_eq (W0 m ρ c)).trans rfl

/-- The projection call leaves the product of activations and prepared weight. -/
theorem proj_array (c : Dev nD) : W2 m ρ c (Proc.devRef .tc main_v11) = qkvSpec (X m c) (wprep (F := Ideal) (Wq m c)) := by
  rw [W2_qkv, final0_2, entry0_x, entry0_w]

/-- The attention call reads that product viewed as [batch, token, head, component, lane]: entry (b, n, h, t, d) is
    token (b, n) against column (h, t, d) of the prepared weight. -/
theorem entry1_qkv (c : Dev nD) (b : Fin 8) (n : Fin 1024) (h : Fin 12) (t : Fin 3) (d : Fin 64) :
    qkv5 (V3 m ρ) c (ix5 b n h t d) = projK (xOf (X m c)) (matOf (Wq m c)) s0 b n h t d := by
  have e : qkv5 (V3 m ρ) c
      = shapeCast S8x1024x12x3x64 (qkvSpec (X m c) (wprep (F := Ideal) (Wq m c))) shapeCasts_S8x1024x2304_S8x1024x12x3x64 :=
    (v12_eq (W2 m ρ c)).trans (by rw [proj_array])
  calc qkv5 (V3 m ρ) c (ix5 b n h t d)
      = (shapeCast S8x1024x12x3x64 (qkvSpec (X m c) (wprep (F := Ideal) (Wq m c))) shapeCasts_S8x1024x2304_S8x1024x12x3x64
          : Vec Ideal S8x1024x12x3x64 .bf16) (ix5 b n h t d) := congrFun e _
    _ = qkvSpec (X m c) (wprep (F := Ideal) (Wq m c)) (ix3 b n (colK h t d)) := v12_apply _ b n h t d
    _ = ∑ k : Fin 768, X m c (ix3 b n k) * wprep (F := Ideal) (Wq m c) (ix2 k (colK h t d)) := qkvSpec_apply _ _ b n (colK h t d)
    _ = projK (xOf (X m c)) (matOf (Wq m c)) s0 b n h t d :=
        Finset.sum_congr rfl fun k _ => by rw [wprep_apply]; rfl

/-- It reads the output weight transposed: entry (k, j) is the weight's (j, k). -/
theorem entry1_wT (c : Dev nD) (k j : Fin 768) : wT (V3 m ρ) c (ix2 k j) = matOf (Wp m c) j k := by
  have e0 : W2 m ρ c (Proc.devRef .tc main_arg2) = Wp m c :=
    (W2_of_ne m ρ c main_arg2 (by decide)).trans
      ((StableHlo.after_of_writes_sub hostOps0 _ hostOps0_writes (by decide)).trans rfl)
  have e : wT (V3 m ρ) c
      = truncf (F := Ideal) .bf16 (transpose S768x768 [1, 0] (Wp m c) transposes_S768x768_S768x768_1_0) bitsLt_bf16_f32 :=
    (v14_eq (W2 m ρ c)).trans (by rw [e0])
  calc wT (V3 m ρ) c (ix2 k j)
      = (truncf (F := Ideal) .bf16 (transpose S768x768 [1, 0] (Wp m c) transposes_S768x768_S768x768_1_0) bitsLt_bf16_f32
          : Vec Ideal S768x768 .bf16) (ix2 k j) := congrFun e _
    _ = Wp m c (ix2 j k) := v14_apply _ k j
    _ = matOf (Wp m c) j k := rfl

/-- And the bias as one row. -/
theorem entry1_bias (c : Dev nD) (j : Fin 768) : bias2 (V3 m ρ) c (ix2 0 j) = vecOf (Bv m c) j := by
  have e0 : W2 m ρ c (Proc.devRef .tc main_arg3) = Bv m c :=
    (W2_of_ne m ρ c main_arg3 (by decide)).trans
      ((StableHlo.after_of_writes_sub hostOps0 _ hostOps0_writes (by decide)).trans rfl)
  have e : bias2 (V3 m ρ) c = shapeCast S1x768 (Bv m c) shapeCasts_S768_S1x768 :=
    (v15_eq (W2 m ρ c)).trans (by rw [e0])
  calc bias2 (V3 m ρ) c (ix2 0 j)
      = (shapeCast S1x768 (Bv m c) shapeCasts_S768_S1x768 : Vec Ideal S1x768 .f32) (ix2 0 j) := congrFun e _
    _ = Bv m c (ix1 j) := v15_apply _ j
    _ = vecOf (Bv m c) j := rfl

/-! ## The two results in the kernel's arrangement -/

/-- A head's score row is the kernel arrangement's. -/
theorem scoreRow_eq (c : Dev nD) (b : Fin 8) (h : Fin 12) (n : Fin 1024) :
    scoreRow (qkv5 (V3 m ρ) c) b h n = scoreK (xOf (X m c)) (matOf (Wq m c)) s0 b h n := by
  funext m'
  unfold scoreRow scoreK
  exact Finset.sum_congr rfl fun d _ => by rw [entry1_qkv, entry1_qkv]

/-- The attention weights, entry by entry. -/
theorem attn_entry (c : Dev nD) (b : Fin 8) (h : Fin 12) (n m' : Fin 1024) :
    (W4 m ρ c (Proc.devRef .tc main_v16_1) : S8x12x1024x1024.Idx → EReal) (ix4 b h n m')
      = attnK (xOf (X m c)) (matOf (Wq m c)) s0 b h n m' := by
  rw [W4_attn]
  refine (final_attn (V3 m ρ) c b h n m').trans ?_
  unfold attnK
  rw [scoreRow_eq]

/-- One head's share of the output projection is the kernel arrangement's. -/
theorem headShare_eq (c : Dev nD) (b : Fin 8) (n : Fin 1024) (j : Fin 768) :
    headShare (qkv5 (V3 m ρ) c) (wT (V3 m ρ) c) b n j
      = contribN (xOf (X m c)) (matOf (Wq m c)) (matOf (Wp m c)) s0 b n j := by
  funext k
  unfold headShare contribN
  by_cases hk : k < 12
  · rw [dif_pos hk, dif_pos hk]
    unfold contribK avK attnK
    refine Finset.sum_congr rfl fun d _ => ?_
    rw [entry1_wT, scoreRow_eq]
    refine congrArg (· * _) (Finset.sum_congr rfl fun m' _ => ?_)
    rw [entry1_qkv]
  · rw [dif_neg hk, dif_neg hk]

/-- The projected output, entry by entry. -/
theorem out_entry (c : Dev nD) (b : Fin 8) (n : Fin 1024) (j : Fin 768) :
    (W4 m ρ c (Proc.devRef .tc main_v16_0) : S8x1024x768.Idx → EReal) (ix3 b n j)
      = outK (xOf (X m c)) (matOf (Wq m c)) (matOf (Wp m c)) (vecOf (Bv m c)) s0 b n j := by
  rw [W4_out]
  refine (final_out (V3 m ρ) c b n j).trans ?_
  unfold outK
  rw [headShare_eq, entry1_bias]

/-! ## The run's results -/

theorem kernel_values [hP : Cert.Pre_finite_inputs.Facts] (m : (ℓ : Loc Cert.KernelIdeal.nD Cert.KernelIdeal.τ Cert.KernelIdeal.sig) → Buf (Elt Ideal) ℓ) (g : Dev Cert.KernelIdeal.nD → PrngReg)
    (hx : ∀ (c : Dev Cert.KernelIdeal.nD) (b : Fin 8) (n : Fin 1024) (k : Fin 768), ∃ r : ℝ, xOf (m ((c.tc : Thread Cert.KernelIdeal.nD Cert.KernelIdeal.τ).loc Cert.KernelIdeal.main_arg0)) b n k = (r : EReal))
    (hw : ∀ (c : Dev Cert.KernelIdeal.nD) (j : Fin 2304) (k : Fin 768), ∃ r : ℝ, matOf (m ((c.tc : Thread Cert.KernelIdeal.nD Cert.KernelIdeal.τ).loc Cert.KernelIdeal.main_arg1)) j k = (r : EReal)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v16_0) = outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v16_1) = attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run (Cert.KernelIdeal.defs (F := Ideal)) _ _).mono (fun r h c => ?_) (run_all m g)
  refine ⟨(h c _ (mem_uc main_v16_0 (by decide))).trans ?_, (h c _ (mem_uc main_v16_1 (by decide))).trans ?_,
    (h c _ (mem_uc main_arg0 (by decide))).trans (W4_main_arg0 m g c),
    (h c _ (mem_uc main_arg1 (by decide))).trans (W4_main_arg1 m g c),
    (h c _ (mem_uc main_arg2 (by decide))).trans (W4_main_arg2 m g c),
    (h c _ (mem_uc main_arg3 (by decide))).trans (W4_main_arg3 m g c)⟩
  · funext i
    obtain ⟨b, n, j, rfl⟩ : ∃ (b : Fin 8) (n : Fin 1024) (j : Fin 768), i = ix3 b n j := ⟨i 0, i 1, i 2, eq_ix3 i⟩
    rw [outArr_apply]
    exact (out_entry m g c b n j).trans (outK_eq_outR _ _ _ _ _ (hx c) (hw c) Cert.Finite.s0_real b n j)
  · funext i
    obtain ⟨b, h', n, m', rfl⟩ : ∃ (b : Fin 8) (h' : Fin 12) (n m' : Fin 1024), i = ix4 b h' n m' := ⟨i 0, i 1, i 2, i 3, eq_ix4 i⟩
    rw [attnArr_apply]
    exact (attn_entry m g c b h' n m').trans (attnK_eq_attnR _ _ _ (hx c) (hw c) Cert.Finite.s0_real b h' n m')

end Cert.KernelIdeal.KernelValue

end
-- ==== Proof.RefSide.lean ====
/-
  The reference program's two results, read back from its run: the projected output and the attention weights are the
  reference arrangement of the attention computation applied to the four argument arrays.
-/
import proofs.«430483_j63471026700747_3_alg».proof.Defs
import proofs.«430483_j63471026700747_3_alg».proof.Proof.Gen.ReferenceIdeal.Run
import proofs.«430483_j63471026700747_3_alg».proof.Proof.Gen.ReferenceIdeal.Read
import proofs.«430483_j63471026700747_3_alg».proof.Proof.Arrays
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.TcCoe Idealize.ShloMosaic.ValueIdx Idealize.SL.Sem
open Cert.ReferenceIdeal AttnSpec AttnArrays

section Stages

open Cert.ReferenceIdeal.Gen Cert.ReferenceIdeal.Read

variable (x0 : (⟨S8x1024x768, .f32⟩ : BufTy).Contents (Elt Ideal)) (x1 : (⟨S2304x768, .f32⟩ : BufTy).Contents (Elt Ideal))
  (x2 : (⟨S768x768, .f32⟩ : BufTy).Contents (Elt Ideal)) (x3 : (⟨S768, .f32⟩ : BufTy).Contents (Elt Ideal))

/-! ## The stacked projection x · wᵀ -/

/-- Entry (b, n, j) of the first product contracts the activations at (b, n, k) … -/
theorem lidx0_eq (b : Fin 8) (n : Fin 1024) (j : Fin 2304) (k : Fin 768) :
    lidx_main_v0 (ix3 b n j) k = ix3 b n k :=
  funext fun a => match a with | ⟨0, _⟩ => rfl | ⟨1, _⟩ => rfl | ⟨2, _⟩ => rfl

/-- … with the weight at (j, k). -/
theorem ridx0_eq (b : Fin 8) (n : Fin 1024) (j : Fin 2304) (k : Fin 768) :
    ridx_main_v0 (ix3 b n j) k = ix2 j k :=
  funext fun a => match a with | ⟨0, _⟩ => rfl | ⟨1, _⟩ => rfl

/-- The first product at (b, n, j) is row j of the stacked weight against token (b, n). -/
theorem proj_at (b : Fin 8) (n : Fin 1024) (j : Fin 2304) :
    val_main_v0 (F := Ideal) x0 x1 (ix3 b n j) = projR (xOf x0) (matOf x1) b n j := by
  rw [val_main_v0_apply]
  unfold projR xOf matOf
  refine Finset.sum_congr rfl fun k _ => ?_
  rw [lidx0_eq, ridx0_eq]

/-! ## Splitting the 2304 rows into (component, head, lane) -/

/-- Entry (t, b, h, n, d) of the transposed five-axis array is entry (b, n, t·768 + h·64 + d) of the product: the
    row-major position ((((b·1024 + n)·3 + t)·12 + h)·64 + d) read back in the [8, 1024, 2304] layout. -/
theorem idx12_eq (t : Fin 3) (b : Fin 8) (h : Fin 12) (n : Fin 1024) (d : Fin 64) :
    idx_main_v1 (idx_main_v2 (ix5 t b h n d)) = ix3 b n (rowR t h d) :=
  funext fun a => Fin.ext (by
    have ht := t.isLt; have hb := b.isLt; have hh := h.isLt; have hn := n.isLt; have hd := d.isLt
    match a with
    | ⟨0, _⟩ =>
      show ((((b.val * 1024 + n.val) * 3 + t.val) * 12 + h.val) * 64 + d.val) / 2359296 = b.val
      omega
    | ⟨1, _⟩ =>
      show ((((b.val * 1024 + n.val) * 3 + t.val) * 12 + h.val) * 64 + d.val) / 2304 % 1024 = n.val
      omega
    | ⟨2, _⟩ =>
      show ((((b.val * 1024 + n.val) * 3 + t.val) * 12 + h.val) * 64 + d.val) % 2304 = t.val * 768 + h.val * 64 + d.val
      omega)

/-- The transposed array at (t, b, h, n, d) is the projection onto row (t, h, d) of token (b, n). -/
theorem split_at (t : Fin 3) (b : Fin 8) (h : Fin 12) (n : Fin 1024) (d : Fin 64) :
    val_main_v2 (F := Ideal) x0 x1 (ix5 t b h n d) = projR (xOf x0) (matOf x1) b n (rowR t h d) := by
  rw [val_main_v2_apply, val_main_v1_apply, idx12_eq, proj_at]

/-- Slice 0 of the leading axis with that unit axis dropped: (b, h, n, d) comes from (0, b, h, n, d). -/
theorem idx34_eq (b : Fin 8) (h : Fin 12) (n : Fin 1024) (d : Fin 64) :
    idx_main_v3 (idx_main_v4 (ix4 b h n d)) = ix5 (0 : Fin 3) b h n d :=
  funext fun a => Fin.ext (by
    have hb := b.isLt; have hh := h.isLt; have hn := n.isLt; have hd := d.isLt
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega)

/-- Slice 1 likewise: (b, h, n, d) comes from (1, b, h, n, d). -/
theorem idx78_eq (b : Fin 8) (h : Fin 12) (n : Fin 1024) (d : Fin 64) :
    idx_main_v7 (idx_main_v8 (ix4 b h n d)) = ix5 (1 : Fin 3) b h n d :=
  funext fun a => Fin.ext (by
    have hb := b.isLt; have hh := h.isLt; have hn := n.isLt; have hd := d.isLt
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega)

/-- Slice 2 likewise: (b, h, n, d) comes from (2, b, h, n, d). -/
theorem idx910_eq (b : Fin 8) (h : Fin 12) (n : Fin 1024) (d : Fin 64) :
    idx_main_v9 (idx_main_v10 (ix4 b h n d)) = ix5 (2 : Fin 3) b h n d :=
  funext fun a => Fin.ext (by
    have hb := b.isLt; have hh := h.isLt; have hn := n.isLt; have hd := d.isLt
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega)

/-- The scaled query at (b, h, n, d): the projection onto row (0, h, d), times the scale word. -/
theorem q_at (b : Fin 8) (h : Fin 12) (n : Fin 1024) (d : Fin 64) :
    val_main_v6 (F := Ideal) x0 x1 (ix4 b h n d) = projR (xOf x0) (matOf x1) b n (rowR 0 h d) * s0 := by
  rw [val_main_v6_apply, val_main_v4_apply, val_main_v3_apply, idx34_eq, split_at, val_main_v5_apply, val_main_cst_apply,
    Ideal.mulf_def, Ideal.ofBits_def]
  rfl

/-- The key at (b, h, n, d): the projection onto row (1, h, d). -/
theorem k_at (b : Fin 8) (h : Fin 12) (n : Fin 1024) (d : Fin 64) :
    val_main_v8 (F := Ideal) x0 x1 (ix4 b h n d) = projR (xOf x0) (matOf x1) b n (rowR 1 h d) := by
  rw [val_main_v8_apply, val_main_v7_apply, idx78_eq, split_at]

/-- The value at (b, h, n, d): the projection onto row (2, h, d). -/
theorem v_at (b : Fin 8) (h : Fin 12) (n : Fin 1024) (d : Fin 64) :
    val_main_v10 (F := Ideal) x0 x1 (ix4 b h n d) = projR (xOf x0) (matOf x1) b n (rowR 2 h d) := by
  rw [val_main_v10_apply, val_main_v9_apply, idx910_eq, split_at]

/-! ## Scores -/

theorem lidx11_eq (b : Fin 8) (h : Fin 12) (n m : Fin 1024) (k : Fin 64) :
    lidx_main_v11 (ix4 b h n m) k = ix4 b h n k :=
  funext fun a => match a with | ⟨0, _⟩ => rfl | ⟨1, _⟩ => rfl | ⟨2, _⟩ => rfl | ⟨3, _⟩ => rfl

theorem ridx11_eq (b : Fin 8) (h : Fin 12) (n m : Fin 1024) (k : Fin 64) :
    ridx_main_v11 (ix4 b h n m) k = ix4 b h m k :=
  funext fun a => match a with | ⟨0, _⟩ => rfl | ⟨1, _⟩ => rfl | ⟨2, _⟩ => rfl | ⟨3, _⟩ => rfl

/-- The score at (b, h, n, m): the scaled query of token n against the key of token m over the head's 64 lanes. -/
theorem score_at (b : Fin 8) (h : Fin 12) (n m : Fin 1024) :
    val_main_v11 (F := Ideal) x0 x1 (ix4 b h n m) = scoreR (xOf x0) (matOf x1) s0 b h n m := by
  rw [val_main_v11_apply]
  unfold scoreR
  refine Finset.sum_congr rfl fun k _ => ?_
  rw [lidx11_eq, ridx11_eq, q_at, k_at]

/-! ## The row maximum -/

/-- The shapes of the reduction over the last axis. -/
theorem reduces_d3 : S8x12x1024x1024.Reduces [3] S8x12x1024 := by decide

/-- The reduced index (b, h, n) with m put back on the last axis is (b, h, n, m). -/
theorem lift_d3 (b : Fin 8) (h : Fin 12) (n : Fin 1024) (k : Fin 1024) :
    reduces_d3.lift (ix3 b h n) k = ix4 b h n k :=
  funext fun a => Fin.ext (by match a with | ⟨0, _⟩ => rfl | ⟨1, _⟩ => rfl | ⟨2, _⟩ => rfl | ⟨3, _⟩ => rfl)

/-- The word 0xFF800000 is −∞. -/
theorem negInf_eq : Ideal.ofBits .f32 0xFF800000#32 = ⊥ := by simp [Ideal.ofBits, Ideal.ieee]

/-- A maximum-reduce of a four-axis array over its last axis from −∞, at (b, h, n), is the row's maximum from ⊥. -/
theorem hostMax_at (y : (⟨S8x12x1024x1024, .f32⟩ : BufTy).Contents (Elt Ideal)) (b : Fin 8) (h : Fin 12) (n : Fin 1024) :
    Host.reduce (FloatOps.maximumf (F := Ideal) (φ := .f32)) y (val_main_cst_0 (F := Ideal))
        reducesTo_S8x12x1024x1024_S8x12x1024_d3 h_S_ (ix3 b h n)
      = rowMax fun m => y (ix4 b h n m) := by
  rw [Host.reduce_eq_fold_single (FloatOps.maximumf (F := Ideal) (φ := .f32)) y _
    reducesTo_S8x12x1024x1024_S8x12x1024_d3 reduces_d3 h_S_]
  have hf : (y ∘ reduces_d3.lift (ix3 b h n)) = fun m : Fin 1024 => y (ix4 b h n m) :=
    funext fun k => congrArg y (lift_d3 b h n k)
  unfold rowMax
  rw [val_main_cst_0_apply, Ideal.ofBits_def, negInf_eq]
  exact congrArg (fun f => Finset.fold max ⊥ f (Finset.univ : Finset (Fin 1024))) hf

/-- The reduce of the scores at (b, h, n) is the maximum of row (b, h, n) of the scores. -/
theorem max_at (b : Fin 8) (h : Fin 12) (n : Fin 1024) :
    val_main_v12 (F := Ideal) x0 x1 (ix3 b h n) = rowMax (scoreR (xOf x0) (matOf x1) s0 b h n) := by
  unfold val_main_v12
  refine (hostMax_at (val_main_v11 (F := Ideal) x0 x1) b h n).trans ?_
  exact congrArg rowMax (funext fun m => score_at x0 x1 b h n m)

/-- A further maximum against −∞ changes nothing. -/
theorem rowmax_at (b : Fin 8) (h : Fin 12) (n : Fin 1024) :
    val_main_v14 (F := Ideal) x0 x1 (ix3 b h n) = rowMax (scoreR (xOf x0) (matOf x1) s0 b h n) := by
  rw [val_main_v14_apply, val_main_v13_apply, val_main_cst_1_apply, max_at, Ideal.maximumf_def, Ideal.ofBits_def, negInf_eq]
  exact max_eq_right bot_le

/-! ## Exponentials, their row sums, the weights -/

theorem idx1516_eq (b : Fin 8) (h : Fin 12) (n m : Fin 1024) :
    idx_main_v15 (idx_main_v16 (ix4 b h n m)) = ix3 b h n :=
  funext fun a => match a with | ⟨0, _⟩ => rfl | ⟨1, _⟩ => rfl | ⟨2, _⟩ => rfl

/-- exp (score − row maximum) at (b, h, n, m). -/
theorem expo_at (b : Fin 8) (h : Fin 12) (n m : Fin 1024) :
    val_main_v18 (F := Ideal) x0 x1 (ix4 b h n m)
      = Ideal.exp (scoreR (xOf x0) (matOf x1) s0 b h n m - rowMax (scoreR (xOf x0) (matOf x1) s0 b h n)) := by
  rw [val_main_v18_apply, val_main_v17_apply, val_main_v16_apply, val_main_v15_apply, idx1516_eq, rowmax_at, score_at,
    Ideal.hostUnary_exp_def, Ideal.subf_def]

theorem idx19_eq (b : Fin 8) (h : Fin 12) (n : Fin 1024) (k : Fin 1024) :
    idx_main_v19 (ix3 b h n) k = ix4 b h n k :=
  funext fun a => match a with | ⟨0, _⟩ => rfl | ⟨1, _⟩ => rfl | ⟨2, _⟩ => rfl | ⟨3, _⟩ => rfl

/-- The row sum of the exponentials at (b, h, n), from zero. -/
theorem denom_at (b : Fin 8) (h : Fin 12) (n : Fin 1024) :
    val_main_v19 (F := Ideal) x0 x1 (ix3 b h n)
      = ∑ m' : Fin 1024, Ideal.exp (scoreR (xOf x0) (matOf x1) s0 b h n m' - rowMax (scoreR (xOf x0) (matOf x1) s0 b h n)) := by
  rw [val_main_v19_apply, val_main_cst_2_apply, Ideal.ofBits_def, Ideal.ofBits_zero_f32, zero_add]
  refine Finset.sum_congr rfl fun k _ => ?_
  rw [idx19_eq, expo_at]

theorem idx2021_eq (b : Fin 8) (h : Fin 12) (n m : Fin 1024) :
    idx_main_v20 (idx_main_v21 (ix4 b h n m)) = ix3 b h n :=
  funext fun a => match a with | ⟨0, _⟩ => rfl | ⟨1, _⟩ => rfl | ⟨2, _⟩ => rfl

/-- The attention weight at (b, h, n, m): the softmax of row (b, h, n) of the scores, at m. -/
theorem attn_at (b : Fin 8) (h : Fin 12) (n m : Fin 1024) :
    val_main_v22 (F := Ideal) x0 x1 (ix4 b h n m) = attnR (xOf x0) (matOf x1) s0 b h n m := by
  rw [val_main_v22_apply, val_main_v21_apply, val_main_v20_apply, idx2021_eq, denom_at, expo_at, Ideal.hostDivf_def]
  rfl

/-! ## Attention · v, heads side by side, the output projection -/

theorem lidx23_eq (b : Fin 8) (h : Fin 12) (n : Fin 1024) (d : Fin 64) (k : Fin 1024) :
    lidx_main_v23 (ix4 b h n d) k = ix4 b h n k :=
  funext fun a => match a with | ⟨0, _⟩ => rfl | ⟨1, _⟩ => rfl | ⟨2, _⟩ => rfl | ⟨3, _⟩ => rfl

theorem ridx23_eq (b : Fin 8) (h : Fin 12) (n : Fin 1024) (d : Fin 64) (k : Fin 1024) :
    ridx_main_v23 (ix4 b h n d) k = ix4 b h k d :=
  funext fun a => match a with | ⟨0, _⟩ => rfl | ⟨1, _⟩ => rfl | ⟨2, _⟩ => rfl | ⟨3, _⟩ => rfl

/-- Attention · v at (b, h, n, d). -/
theorem av_at (b : Fin 8) (h : Fin 12) (n : Fin 1024) (d : Fin 64) :
    val_main_v23 (F := Ideal) x0 x1 (ix4 b h n d) = avR (xOf x0) (matOf x1) s0 b h n d := by
  rw [val_main_v23_apply]
  unfold avR
  refine Finset.sum_congr rfl fun k _ => ?_
  rw [lidx23_eq, ridx23_eq, attn_at, v_at]

/-- Channel c of the [8, 1024, 768] layout is head c / 64, lane c % 64 of the [8, 12, 1024, 64] one: the row-major position
    ((b·1024 + n)·768 + c) read back in the [8, 1024, 12, 64] layout, then heads and tokens exchanged. -/
theorem idx2425_eq (b : Fin 8) (n : Fin 1024) (c : Fin 768) :
    idx_main_v24 (idx_main_v25 (ix3 b n c)) = ix4 b (headOf c) n (laneOf c) :=
  funext fun a => Fin.ext (by
    have hb := b.isLt; have hn := n.isLt; have hc := c.isLt
    match a with
    | ⟨0, _⟩ => show ((b.val * 1024 + n.val) * 768 + c.val) / 786432 = b.val; omega
    | ⟨1, _⟩ => show ((b.val * 1024 + n.val) * 768 + c.val) / 64 % 12 = c.val / 64; omega
    | ⟨2, _⟩ => show ((b.val * 1024 + n.val) * 768 + c.val) / 768 % 1024 = n.val; omega
    | ⟨3, _⟩ => show ((b.val * 1024 + n.val) * 768 + c.val) % 64 = c.val % 64; omega)

/-- The heads laid side by side: channel c of token (b, n) is attention · v of head c / 64 at lane c % 64. -/
theorem heads_at (b : Fin 8) (n : Fin 1024) (c : Fin 768) :
    val_main_v25 (F := Ideal) x0 x1 (ix3 b n c) = avR (xOf x0) (matOf x1) s0 b (headOf c) n (laneOf c) := by
  rw [val_main_v25_apply, val_main_v24_apply, idx2425_eq, av_at]

theorem lidx26_eq (b : Fin 8) (n : Fin 1024) (j : Fin 768) (k : Fin 768) :
    lidx_main_v26 (ix3 b n j) k = ix3 b n k :=
  funext fun a => match a with | ⟨0, _⟩ => rfl | ⟨1, _⟩ => rfl | ⟨2, _⟩ => rfl

theorem ridx26_eq (b : Fin 8) (n : Fin 1024) (j : Fin 768) (k : Fin 768) :
    ridx_main_v26 (ix3 b n j) k = ix2 j k :=
  funext fun a => match a with | ⟨0, _⟩ => rfl | ⟨1, _⟩ => rfl

/-- The bias broadcast through [1, 1, 768] to [8, 1024, 768] reads entry j. -/
theorem idx2728_eq (b : Fin 8) (n : Fin 1024) (j : Fin 768) :
    idx_main_v27 (idx_main_v28 (ix3 b n j)) = ix1 j :=
  funext fun a => match a with | ⟨0, _⟩ => rfl

/-- The projected output at (b, n, j). -/
theorem out_at (b : Fin 8) (n : Fin 1024) (j : Fin 768) :
    val_main_v29 (F := Ideal) x0 x1 x2 x3 (ix3 b n j)
      = outR (xOf x0) (matOf x1) (matOf x2) (vecOf x3) s0 b n j := by
  rw [val_main_v29_apply, val_main_v28_apply, val_main_v27_apply, idx2728_eq, val_main_v26_apply, Ideal.addf_def]
  unfold outR
  refine congrArg₂ (· + ·) (Finset.sum_congr rfl fun k _ => ?_) rfl
  rw [lidx26_eq, ridx26_eq, heads_at]
  rfl

/-! ## The two results as whole arrays -/

theorem out_eq : val_main_v29 (F := Ideal) x0 x1 x2 x3 = outArr x0 x1 x2 x3 := by
  funext i
  obtain ⟨b, n, j, rfl⟩ : ∃ (b : Fin 8) (n : Fin 1024) (j : Fin 768), i = ix3 b n j := ⟨i 0, i 1, i 2, eq_ix3 i⟩
  rw [out_at, outArr_apply]

theorem attn_eq : val_main_v22 (F := Ideal) x0 x1 = attnArr x0 x1 := by
  funext i
  obtain ⟨b, h, n, m, rfl⟩ : ∃ (b : Fin 8) (h : Fin 12) (n : Fin 1024) (m : Fin 1024), i = ix4 b h n m :=
    ⟨i 0, i 1, i 2, i 3, eq_ix4 i⟩
  rw [attn_at, attnArr_apply]

end Stages

/-- Every weakly fair execution of the reference ends with the projected output and the attention weights at the
    reference arrangement of its argument arrays, and the arguments unchanged. -/
theorem ref_values (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v29) = outArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v22) = attnArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  exact (θ_run (Cert.ReferenceIdeal.defs (F := Ideal)) _ _).mono
    (fun _ h c => ⟨(h c).1.trans ((Cert.ReferenceIdeal.Read.val_main_v29_eq m' c).trans (out_eq _ _ _ _)),
      (h c).2.1.trans ((Cert.ReferenceIdeal.Read.val_main_v22_eq m' c).trans (attn_eq _ _)), (h c).2.2⟩)
    (Cert.ReferenceIdeal.Value.run (F := Ideal) m' g')

end Cert.ReferenceIdeal.RefValue

end
-- ==== Proof.lean ====
/-
  The certificate of the attention kernel against its reference.

  Both programs compute, from activations x, a stacked query/key/value weight, an output weight and a bias, the attention
  weights softmax(q kᵀ / 8) per head and the output (attention · v, heads side by side) · woᵀ + bias. The kernel does it in
  two calls — a projection with the scale folded into the query rows of a head-major permuted weight, then per (batch,
  head) the scores, the softmax, and that head's share of the output projection accumulated over the twelve heads —; the
  reference projects, scales, and contracts with the output weight once. At the ideal instance every change of float
  format is the identity, so the two are one function of finite inputs: the only law that needs finiteness is moving the
  scale across the projection's sum.

  Frames: each kernel program runs as host stretch, projection call, host stretch, attention call, every call through its
  per-point obligation; the reference's frame is its run with the results dropped. The idealization rewrote nothing, so
  the preservation claim is trivial. The algebraic claim pairs the kernel's run, whose two result arrays are read entry by
  entry off the last buffer contents, with the reference's run read operation by operation.
-/
import proofs.«430483_j63471026700747_3_alg».proof.Defs
import proofs.«430483_j63471026700747_3_alg».proof.Proof.Gen.Kernel
import proofs.«430483_j63471026700747_3_alg».proof.Proof.Gen.KernelIdeal
import proofs.«430483_j63471026700747_3_alg».proof.Proof.Gen.ReferenceIdeal
import proofs.«430483_j63471026700747_3_alg».proof.Proof.Gen.ReferenceIdeal.Run
import proofs.«430483_j63471026700747_3_alg».proof.Proof.Gen.Pre_finite_inputs
import proofs.«430483_j63471026700747_3_alg».proof.Proof.Kernel.Run
import proofs.«430483_j63471026700747_3_alg».proof.Proof.KernelIdeal.Run
import proofs.«430483_j63471026700747_3_alg».proof.Proof.KernelValue
import proofs.«430483_j63471026700747_3_alg».proof.Proof.RefSide
import proofs.«430483_j63471026700747_3_alg».proof.Proof.Finite

noncomputable section

namespace Cert.Proof

open Idealize.ShloMosaic Idealize.ShloMosaic.TcCoe Idealize.SL.Sem AttnArrays

/-- The word-level kernel runs to the end and leaves its arguments as launched. -/
theorem frame_k : Cert.frame_Kernel := fun m ρ _ => Cert.Kernel.Hand.frame m ρ

/-- So does its reading at the ideal instance. -/
theorem frame_ki : Cert.frame_KernelIdeal := fun m ρ _ => Cert.KernelIdeal.Hand.frame m ρ

/-- The reference is host operations only: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the projected output and the attention weights at
    the same two functions of the arguments: the kernel's arrangement equals the reference's on finite activations and
    weights, which the precondition gives. -/
theorem algebraic : Cert.algebraic_KernelIdeal_ReferenceIdeal := by
  intro m g m' g' hpre hagree
  refine ⟨fun c => outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.KernelValue.kernel_values m g (fun c => Cert.Finite.x_real m hpre c) (fun c => Cert.Finite.w_real m hpre c), ?_⟩
  refine (θ_run (Cert.ReferenceIdeal.defs (F := Ideal)) _ _).mono (fun _ h c => ?_) (Cert.ReferenceIdeal.RefValue.ref_values m' g')
  obtain ⟨h0, h1, h2⟩ := h c
  obtain ⟨e0, e1, e2, e3⟩ := hagree c
  refine ⟨h0.trans ?_, h1.trans ?_, h2⟩
  · rw [e0, e1, e2, e3]
  · rw [e0, e1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
